-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000x64 : Shape := ⟨2, ![1600000, 64]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S128x128 : Shape := ⟨2, ![128, 128]⟩
abbrev S128 : Shape := ⟨1, ![128]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000x64 : S_.BroadcastsInDim S1600000x64 (![] : Fin 0 → Fin S1600000x64.rank)
  reducesTo_S1600000x64_S_d0_1 : S1600000x64.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S128 .f32) (main_arg10 : FVec F S128x128 .f32) (main_arg11 : FVec F S128 .f32) (main_arg12 : FVec F S128 .f32) (main_arg13 : FVec F S128 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_v48 main_v49 main_v50

def fn_part1 {F : FTy → Type} [FloatOps F] (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x64 .f32) (main_arg1 : FVec F S1600000x64 .f32) (main_arg2 : IVec S2x1600000 32) (main_arg3 : IVec S100000 32) (main_arg4 : FVec F S64x128 .f32) (main_arg5 : FVec F S64 .f32) (main_arg6 : FVec F S64x64 .f32) (main_arg7 : FVec F S64 .f32) (main_arg8 : FVec F S128x128 .f32) (main_arg9 : FVec F S128 .f32) (main_arg10 : FVec F S128x128 .f32) (main_arg11 : FVec F S128 .f32) (main_arg12 : FVec F S128 .f32) (main_arg13 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000x64 .f32 := Host.absf main_arg1
  let main_cst_0 : FVec F S_ .f32 := constant S_ .f32 0x7F800000#32
  let main_v5 : FVec F S1600000x64 .f32 := broadcastInDim S1600000x64 ![] bcast_S_S1600000x64 main_cst_0
  let main_v6 : IVec S1600000x64 1 := cmpf .olt main_v4 main_v5
  let main_c_1 : IVec S_ 1 := constantI S_ 1 1#1
  let main_v7 : IVec S_ 1 := (fun x v => Host.reduce IntOp.andi x v reducesTo_S1600000x64_S_d0_1 h_S_) main_v6 main_c_1
  let main_v8 : IVec S_ 1 := andi main_v3 main_v7
  let main_v9 : FVec F S64x128 .f32 := Host.absf main_arg4
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_arg9 main_arg10 main_arg11 main_arg12 main_arg13 main_v13 main_v16
-- ==== Kernel.lean ====
abbrev S100000x64 : Shape := ⟨2, ![100000, 64]⟩
abbrev S1600000x64 : Shape := ⟨2, ![1600000, 64]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1x64 : Shape := ⟨2, ![1, 64]⟩
abbrev S6400x64 : Shape := ⟨2, ![6400, 64]⟩
abbrev S1x128 : Shape := ⟨2, ![1, 128]⟩
abbrev S100000x128 : Shape := ⟨2, ![100000, 128]⟩
abbrev S5000x64 : Shape := ⟨2, ![5000, 64]⟩
abbrev S5000x128 : Shape := ⟨2, ![5000, 128]⟩

abbrev nBuf : Space → Nat
  | .hbm => 52
  | .vmem => 33
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S2x1600000, .i32⟩
  | .hbm, ⟨3, _⟩ => ⟨S100000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S64x64, .f32⟩
  | .hbm, ⟨28, _⟩ => ⟨S64x64, .f32⟩
  | .hbm, ⟨29, _⟩ => ⟨S1x64, .f32⟩
  | .hbm, ⟨30, _⟩ => ⟨S1x64, .f32⟩
  | .hbm, ⟨31, _⟩ => ⟨S1600000x64, .f32⟩
  | .hbm, ⟨32, _⟩ => ⟨S_, .f32⟩
  | .hbm, ⟨33, _⟩ => ⟨S100000x64, .f32⟩
  | .hbm, ⟨34, _⟩ => ⟨S1600000x1, .i32⟩
  | .hbm, ⟨35, _⟩ => ⟨S100000x64, .f32⟩
  | .hbm, ⟨36, _⟩ => ⟨S1x128, .f32⟩
  | .hbm, ⟨37, _⟩ => ⟨S1x128, .f32⟩
  | .hbm, ⟨38, _⟩ => ⟨S100000x128, .f32⟩
  | .hbm, ⟨39, _⟩ => ⟨S1x128, .f32⟩
  | .hbm, ⟨40, _⟩ => ⟨S1x128, .f32⟩
  | .hbm, ⟨41, _⟩ => ⟨S_, .f32⟩
  | .hbm, ⟨42, _⟩ => ⟨S1x128, .f32⟩
  | .hbm, ⟨43, _⟩ => ⟨S1x128, .f32⟩
  | .hbm, ⟨44, _⟩ => ⟨S_, .f32⟩
  | .hbm, ⟨45, _⟩ => ⟨S1x128, .f32⟩
  | .hbm, ⟨46, _⟩ => ⟨S1x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S1x128, .f32⟩
  | .hbm, ⟨51, _⟩ => ⟨S100000x128, .f32⟩
  | .local _ .vmem, ⟨0, _⟩ => ⟨S6400x64, .f32⟩
  | .local _ .vmem, ⟨1, _⟩ => ⟨S6400x64, .f32⟩
  | .local _ .vmem, ⟨2, _⟩ => ⟨S6400x64, .f32⟩
  | .local _ .vmem, ⟨3, _⟩ => ⟨S6400x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S6400x64, .f32⟩
  | .local _ .vmem, ⟨10, _⟩ => ⟨S6400x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S5000x128, .f32⟩
  | .local _ .vmem, ⟨26, _⟩ => ⟨S5000x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_cst_1 : Ref sig .tc := ⟨.hbm, 41, rfl⟩
abbrev main_v22 : Ref sig .tc := ⟨.hbm, 42, rfl⟩
abbrev main_v23 : Ref sig .tc := ⟨.hbm, 43, rfl⟩
abbrev main_cst_2 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg8_0 : Ref sig .tc := ⟨.vmem, 22, rfl⟩
abbrev cc1_scratch0 : Ref sig .tc := ⟨.vmem, 23, rfl⟩
abbrev cc1_scratch1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem8_0 : DmaSem sig := 22
abbrev cc2_sem0_0 : DmaSem sig := 23
abbrev cc2_sem0_1 : DmaSem sig := 24
abbrev cc2_sem1_0 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v44 : BitVec 1 := Scalar.cmpi .eq arg0 c19_i32
  let v45 : BitVec 32 := Scalar.extui v44
  let c0_i32_26 : BitVec 32 := 0#32
  let v46 : BitVec 1 := Scalar.cmpi .ne v45 c0_i32_26
  v46

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S64x128_S64x64_0_0 : S64x128.Slices ![0, 0] S64x64
  slices_S64x128_S64x64_0_64 : S64x128.Slices ![0, 64] S64x64
  shapeCasts_S64_S1x64 : S64.ShapeCasts S1x64
  inb_S6400x64_S6400x64_0_0 : ∀ a, (![0, 0] : Fin 2 → Nat) a + S6400x64.size a ≤ S6400x64.size a
  h_S6400x64 : 0 < S6400x64.numel
  shapeCasts_S6400x64_S6400x64 : S6400x64.ShapeCasts S6400x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  transposes_S64x64_p1_0_S64x64 : S64x64.Transposes [1, 0] S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6400x64 : S1x64.Broadcasts S6400x64
  bcast_S_S100000x64 : S_.BroadcastsInDim S100000x64 (![] : Fin 0 → Fin S100000x64.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  concatenates_S5000x64_S5000x64_S5000x128_d1 : Shape.Concatenates [S5000x64, S5000x64] S5000x128 1
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  broadcasts_S1x128_S5000x128 : S1x128.Broadcasts S5000x128
  inb_S5000x128_S5000x128_0_0 : ∀ a, (![0, 0] : Fin 2 → Nat) a + S5000x128.size a ≤ S5000x128.size a
  h_S5000x128 : 0 < S5000x128.numel
  reduces_S5000x128_S128 : S5000x128.Reduces [0] S128
  bcast_S_S1x128 : S_.BroadcastsInDim S1x128 (![] : Fin 0 → Fin S1x128.rank)
  shapeCasts_S5000x128_S5000x128 : S5000x128.ShapeCasts S5000x128
  gather_S100000x64_S1600000x1_S1600000x64_1_0_n_n_0_1_164_wf : GatherDims.WF S100000x64 S1600000x1 S1600000x64 [1] [0] [] [0] [] 1 ![1, 64]
  dot_S6400x64_S64x64_S6400x64_1_0_0_1_n_n_wf : DotDims.WF S6400x64 S64x64 S6400x64 [1] [0] [0] [1] [] []
  scatter_S100000x64_S1600000x1_S1600000x64_1_0_0_1_wf : ScatterDims.WF S100000x64 S1600000x1 S1600000x64 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x64.size a ≤ S1600000x64.size a
  hwx0_0 : ∀ i : grid0.Coords, EltTy.bits .f32 = 32 ∨ (Rect.block (s := S1600000x64) S6400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x64.size a ≤ S1600000x64.size a
  hwx0_1 : ∀ i : grid0.Coords, EltTy.bits .f32 = 32 ∨ (Rect.block (s := S1600000x64) S6400x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x64.size a ≤ S1600000x64.size a
  hwx0_7 : ∀ i : grid0.Coords, EltTy.bits .f32 = 32 ∨ (Rect.block (s := S1600000x64) S6400x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S100000x128.size a
  hwx1_6 : ∀ i : grid1.Coords, EltTy.bits .f32 = 32 ∨ (Rect.block (s := S100000x128) S5000x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S6400x64_S64x64_S6400x64_1_0_0_1_n_n : DotDims S6400x64 S64x64 S6400x64 where
  lhsContracting := [1]
  rhsContracting := [0]
  lhsNonContracting := [0]
  rhsNonContracting := [1]
  lhsBatch := []
  rhsBatch := []
  wf := dot_S6400x64_S64x64_S6400x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v10) S6400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6400x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v12) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v13) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S6400x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v19) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21_0) S5000x128.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v21_1) S1x128.size cc1_transform_7 reads1_7 true true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21_2) S1x128.size cc1_transform_8 reads1_8 true true 1 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun i => !(k1_cond2 i == 1#1) | 8 => fun i => !(k1_cond2 i == 1#1) | ⟨_ + 9, h⟩ => absurd h (Nat.not_lt.2 (Nat.le_add_left _ _))

abbrev win2_0 : Pipeline.Window sig grid2 :=
  Pipeline.Window.ofSpec (Memref.whole main_v21_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S1600000x64 : Shape := ⟨2, ![1600000, 64]⟩
abbrev S2x1600000 : Shape := ⟨2, ![2, 1600000]⟩
abbrev S100000 : Shape := ⟨1, ![100000]⟩
abbrev S64x128 : Shape := ⟨2, ![64, 128]⟩
abbrev S64 : Shape := ⟨1, ![64]⟩
abbrev S64x64 : Shape := ⟨2, ![64, 64]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S128x64 : Shape := ⟨2, ![128, 64]⟩
abbrev S1x64 : Shape := ⟨2, ![1, 64]⟩
abbrev S100000x128 : Shape := ⟨2, ![100000, 128]⟩
abbrev S1x128 : Shape := ⟨2, ![1, 128]⟩

abbrev nBuf : Space → Nat
  | .hbm => 107
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000x64, .f32⟩
  | .hbm, ⟨2, _⟩ => ⟨S2x1600000, .i32⟩
  | .hbm, ⟨3, _⟩ => ⟨S100000, .i32⟩
  | .hbm, ⟨4, _⟩ => ⟨S64x128, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S1x1600000, .i32⟩
  | .hbm, ⟨15, _⟩ => ⟨S1600000, .i32⟩
  | .hbm, ⟨16, _⟩ => ⟨S1x1600000, .i32⟩
  | .hbm, ⟨17, _⟩ => ⟨S1600000, .i32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S1600000x128, .f32⟩
  | .hbm, ⟨28, _⟩ => ⟨S128x64, .f32⟩
  | .hbm, ⟨29, _⟩ => ⟨S1600000x64, .f32⟩
  | .hbm, ⟨30, _⟩ => ⟨S1x64, .f32⟩
  | .hbm, ⟨31, _⟩ => ⟨S1600000x64, .f32⟩
  | .hbm, ⟨32, _⟩ => ⟨S1600000x64, .f32⟩
  | .hbm, ⟨33, _⟩ => ⟨S_, .f32⟩
  | .hbm, ⟨34, _⟩ => ⟨S1600000x64, .f32⟩
  | .hbm, ⟨35, _⟩ => ⟨S1600000x64, .f32⟩
  | .hbm, ⟨36, _⟩ => ⟨S64x64, .f32⟩
  | .hbm, ⟨37, _⟩ => ⟨S1600000x64, .f32⟩
  | .hbm, ⟨38, _⟩ => ⟨S1x64, .f32⟩
  | .hbm, ⟨39, _⟩ => ⟨S1600000x64, .f32⟩
  | .hbm, ⟨40, _⟩ => ⟨S1600000x64, .f32⟩
  | .hbm, ⟨41, _⟩ => ⟨S_, .f32⟩
  | .hbm, ⟨42, _⟩ => ⟨S1600000x64, .f32⟩
  | .hbm, ⟨43, _⟩ => ⟨S1600000x64, .f32⟩
  | .hbm, ⟨44, _⟩ => ⟨S_, .f32⟩
  | .hbm, ⟨45, _⟩ => ⟨S100000x64, .f32⟩
  | .hbm, ⟨46, _⟩ => ⟨S1600000x1, .i32⟩
  | .hbm, ⟨47, _⟩ => ⟨S100000x64, .f32⟩
  | .hbm, ⟨48, _⟩ => ⟨S100000x128, .f32⟩
  | .hbm, ⟨49, _⟩ => ⟨S128x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S100000x128, .f32⟩
  | .hbm, ⟨56, _⟩ => ⟨S100000x128, .f32⟩
  | .hbm, ⟨57, _⟩ => ⟨S128x128, .f32⟩
  | .hbm, ⟨58, _⟩ => ⟨S100000x128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S100000x128, .f32⟩
  | .hbm, ⟨63, _⟩ => ⟨S_, .f32⟩
  | .hbm, ⟨64, _⟩ => ⟨S128, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S128, .f32⟩
  | .hbm, ⟨83, _⟩ => ⟨S128, .f32⟩
  | .hbm, ⟨84, _⟩ => ⟨S128, .f32⟩
  | .hbm, ⟨85, _⟩ => ⟨S_, .f32⟩
  | .hbm, ⟨86, _⟩ => ⟨S_, .i1⟩
  | .hbm, ⟨87, _⟩ => ⟨S_, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S1x128, .f32⟩
  | .hbm, ⟨92, _⟩ => ⟨S100000x128, .f32⟩
  | .hbm, ⟨93, _⟩ => ⟨S100000x128, .f32⟩
  | .hbm, ⟨94, _⟩ => ⟨S_, .f32⟩
  | .hbm, ⟨95, _⟩ => ⟨S128, .f32⟩
  | .hbm, ⟨96, _⟩ => ⟨S128, .f32⟩
  | .hbm, ⟨97, _⟩ => ⟨S128, .f32⟩
  | .hbm, ⟨98, _⟩ => ⟨S1x128, .f32⟩
  | .hbm, ⟨99, _⟩ => ⟨S100000x128, .f32⟩
  | .hbm, ⟨100, _⟩ => ⟨S100000x128, .f32⟩
  | .hbm, ⟨101, _⟩ => ⟨S1x128, .f32⟩
  | .hbm, ⟨102, _⟩ => ⟨S100000x128, .f32⟩
  | .hbm, ⟨103, _⟩ => ⟨S100000x128, .f32⟩
  | .hbm, ⟨104, _⟩ => ⟨S1x128, .f32⟩
  | .hbm, ⟨105, _⟩ => ⟨S100000x128, .f32⟩
  | .hbm, ⟨106, _⟩ => ⟨S100000x128, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_0 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call0_cst : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_call1_cst : Ref sig .tc := ⟨.hbm, 41, rfl⟩
abbrev main_call1_v0 : Ref sig .tc := ⟨.hbm, 42, rfl⟩
abbrev main_v23 : Ref sig .tc := ⟨.hbm, 43, rfl⟩
abbrev main_cst : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_call2_cst : Ref sig .tc := ⟨.hbm, 54, rfl⟩
abbrev main_call2_v0 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_1 : Ref sig .tc := ⟨.hbm, 63, rfl⟩
abbrev main_v40 : Ref sig .tc := ⟨.hbm, 64, rfl⟩
abbrev main_cst_2 : Ref sig .tc := ⟨.hbm, 65, rfl⟩
abbrev main_v41 : Ref sig .tc := ⟨.hbm, 66, rfl⟩
abbrev main_v42 : Ref sig .tc := ⟨.hbm, 67, rfl⟩
abbrev main_c_3 : Ref sig .tc := ⟨.hbm, 68, rfl⟩
abbrev main_call3_cst : Ref sig .tc := ⟨.hbm, 69, rfl⟩
abbrev main_call3_v0 : Ref sig .tc := ⟨.hbm, 70, rfl⟩
abbrev main_call3_v1 : Ref sig .tc := ⟨.hbm, 71, rfl⟩
abbrev main_call3_cst_0 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_v5 : Ref sig .tc := ⟨.hbm, 76, rfl⟩
abbrev main_call3_v6 : Ref sig .tc := ⟨.hbm, 77, rfl⟩
abbrev main_call3_v7 : Ref sig .tc := ⟨.hbm, 78, rfl⟩
abbrev main_call3_cst_1 : Ref sig .tc := ⟨.hbm, 79, rfl⟩
abbrev main_call3_v8 : Ref sig .tc := ⟨.hbm, 80, rfl⟩
abbrev main_call3_cst_2 : Ref sig .tc := ⟨.hbm, 81, rfl⟩
abbrev main_call3_v9 : Ref sig .tc := ⟨.hbm, 82, rfl⟩
abbrev main_call3_v10 : Ref sig .tc := ⟨.hbm, 83, rfl⟩
abbrev main_call3_v11 : Ref sig .tc := ⟨.hbm, 84, rfl⟩
abbrev main_call3_cst_3 : Ref sig .tc := ⟨.hbm, 85, rfl⟩
abbrev main_call3_v12 : Ref sig .tc := ⟨.hbm, 86, rfl⟩
abbrev main_call3_cst_4 : Ref sig .tc := ⟨.hbm, 87, rfl⟩
abbrev main_call3_call0_v0 : Ref sig .tc := ⟨.hbm, 88, rfl⟩
abbrev main_call3_call0_v1 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_cst_4 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  concatenates_S1600000x64_S1600000x64_S1600000x128_d1 : Shape.Concatenates [S1600000x64, S1600000x64] S1600000x128 1
  transposes_S64x128_S128x64_1_0 : S64x128.Transposes [1, 0] S128x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  transposes_S64x64_S64x64_1_0 : S64x64.Transposes [1, 0] S64x64
  bcast_S_S100000x64 : S_.BroadcastsInDim S100000x64 (![] : Fin 0 → Fin S100000x64.rank)
  concatenates_S100000x64_S100000x64_S100000x128_d1 : Shape.Concatenates [S100000x64, S100000x64] S100000x128 1
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  dot_S1600000x64_S64x64_S1600000x64_1_0_0_1_n_n_wf : DotDims.WF S1600000x64 S64x64 S1600000x64 [1] [0] [0] [1] [] []
  scatter_S100000x64_S1600000x1_S1600000x64_1_0_0_1_wf : ScatterDims.WF S100000x64 S1600000x1 S1600000x64 [1] [0] [0] 1
  dot_S100000x128_S128x128_S100000x128_1_0_0_1_n_n_wf : DotDims.WF S100000x128 S128x128 S100000x128 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KData.lean ====
/-
  The proof data of the three pipelined regions, generic in the float instance, at a PARAMETER V (the
  TensorCore's buffer contents when a region is entered).

  Region 0 (edge messages): per block of 6400 edges, y1 = relu(relu(xs·wxᵀ + ef·weᵀ + bm0)·wm1ᵀ + bm1), the
  body's one stored value as the pure function k0_pay1 of the seven input blocks.
  Region 1 (node update): per block of 5000 nodes, out_pre = relu(z·wu0ᵀ + bu0)·wuoᵀ + buo + z with z = [x | agg]
  (k1_pay5), and two running column sums kept in scratch between grid points: Σ out_pre and Σ out_pre²
  (sAfter: reset to zero at the first point, then each point adds its block's column sums), copied to the
  two small outputs at the last point.
  Region 2 (normalisation): per block, (out_pre − mean)·rsqrt(var + ε)·γ + β (k2_pay1).
-/
import proofs.«153742_j79508434583745_1_alg».proof.Proof.Gen.Kernel.Launch
import proofs.«153742_j79508434583745_1_alg».proof.Proof.Gen.Kernel.Skeleton
import proofs.«153742_j79508434583745_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at point t, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What region 0's body stores into its output block: the two-layer message network on the point's blocks. -/
def out0_7 (c : Dev nD) (t : Fin cfg0.N) : Vec F S6400x64 .f32 :=
  k0_pay1 (iblk0 V c 0 t) (iblk0 V c 1 t) (iblk0 V c 2 t) (iblk0 V c 3 t) (iblk0 V c 4 t) (iblk0 V c 5 t) (iblk0 V c 6 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 V c t := by dsimp only [dat0]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What region 2's body stores into its output block: the block normalised by the per-column mean and variance. -/
def out2_5 (c : Dev nD) (t : Fin cfg2.N) : Vec F S5000x128 .f32 :=
  k2_pay1 (iblk2 V c 2 t) (iblk2 V c 0 t) (iblk2 V c 1 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node update on the point's blocks: what the body stores into output window 6. -/
def out1_6 (c : Dev nD) (t : Fin cfg1.N) : Vec F S5000x128 .f32 :=
  k1_pay5 (iblk1 V c 0 t) (iblk1 V c 1 t) (iblk1 V c 2 t) (iblk1 V c 3 t) (iblk1 V c 4 t) (iblk1 V c 5 t)

/-- The first running sum after a point, from what it held when the point's additions began. -/
def sum1 (c : Dev nD) (t : Fin cfg1.N) (s : Vec F S1x128 .f32) : Vec F S1x128 .f32 :=
  k1_pay1 (k1_pay6 (iblk1 V c 0 t) (iblk1 V c 1 t) (iblk1 V c 2 t) (iblk1 V c 3 t) (iblk1 V c 4 t) (iblk1 V c 5 t) s)

/-- The second running sum (of squares) after a point. -/
def sumsq1 (c : Dev nD) (t : Fin cfg1.N) (s : Vec F S1x128 .f32) : Vec F S1x128 .f32 :=
  k1_pay2 (out1_6 V c t) s

/-- The two scratch accumulators after the body at position n: zeroed at the first point before the additions,
    otherwise carried from the point before. -/
def sAfter (c : Dev nD) : (n : ℕ) → n < cfg1.N → Vec F S1x128 .f32 × Vec F S1x128 .f32
  | 0, hn => (sum1 V c ⟨0, hn⟩ k1_pay3, sumsq1 V c ⟨0, hn⟩ k1_pay4)
  | n + 1, hn => (sum1 V c ⟨n + 1, hn⟩ (sAfter c n (Nat.lt_of_succ_lt hn)).1, sumsq1 V c ⟨n + 1, hn⟩ (sAfter c n (Nat.lt_of_succ_lt hn)).2)

theorem sAfter_zero (c : Dev nD) (hn : 0 < cfg1.N) :
    sAfter V c 0 hn = (sum1 V c ⟨0, hn⟩ k1_pay3, sumsq1 V c ⟨0, hn⟩ k1_pay4) := rfl
theorem sAfter_succ (c : Dev nD) (n : ℕ) (hn : n + 1 < cfg1.N) :
    sAfter V c (n + 1) hn = (sum1 V c ⟨n + 1, hn⟩ (sAfter V c n (Nat.lt_of_succ_lt hn)).1, sumsq1 V c ⟨n + 1, hn⟩ (sAfter V c n (Nat.lt_of_succ_lt hn)).2) := rfl

abbrev scM0 : Memref sig .tc .vmem S1x128 .f32 := Memref.whole cc1_scratch0
abbrev scM1 : Memref sig .tc .vmem S1x128 .f32 := Memref.whole cc1_scratch1

/-- The scoped buffers region 1 does not use (the other regions' staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- Region 1's invariant before position n: before the first point every scoped buffer at anything and the
    generator register at some state; afterwards the same with the two scratch accumulators at what the point
    before left in them. -/
def PhiS (c : Dev nD) : (n : ℕ) → n ≤ cfg1.N → sProp 𝕄
  | 0, _ => Pipeline.ΦA spec1 c
  | n + 1, hn => iprop(rest1 (F := F) c ∗ owns (c : Thread nD τ) scM0 fullShare (sAfter V c n hn).1 ∗ owns (c : Thread nD τ) scM1 fullShare (sAfter V c n hn).2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM0 fullShare (sAfter V c n hn).1 ∗ owns (c : Thread nD τ) scM1 fullShare (sAfter V c n hn).2 ∗ (∃ r, prngReg c r)) := rfl

theorem PhiS_pos (c : Dev nD) (n : ℕ) (h : n ≤ cfg1.N) (hz : n ≠ 0) :
    PhiS V c n h = iprop(rest1 (F := F) c ∗ owns (c : Thread nD τ) scM0 fullShare (sAfter V c (n - 1) (by omega)).1 ∗ owns (c : Thread nD τ) scM1 fullShare (sAfter V c (n - 1) (by omega)).2 ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
    | ⟨7, _⟩ => (sAfter V c t.val t.isLt).1
    | ⟨8, _⟩ => (sAfter V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]
theorem after1_7 (c : Dev nD) (t : Fin cfg1.N) : (dat1 V c).after 7 t = (sAfter V c t.val t.isLt).1 := by dsimp only [dat1]
theorem after1_8 (c : Dev nD) (t : Fin cfg1.N) : (dat1 V c).after 8 t = (sAfter V c t.val t.isLt).2 := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.Kernel.Hand

end
-- ==== Proof.KW.lean ====
/-
  The TensorCore's buffer contents at each boundary of the kernel program's seven items (host stretch, region,
  host stretch, region, host stretch, region), as a fold from the launch memory: a host stretch applies its
  operations; a region replaces its output arrays by what its grid's write-backs leave and keeps every other
  buffer.
-/
import proofs.«153742_j79508434583745_1_alg».proof.Proof.KData
import proofs.«153742_j79508434583745_1_alg».proof.Proof.Gen.Kernel.Regions

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- At launch. -/
abbrev W0 (c : Dev nD) : Valuation τ sig (Elt F) := fun b => m (c, b)
/-- After the first host stretch: region 0's entry. -/
abbrev W1 (c : Dev nD) : Valuation τ sig (Elt F) := StableHlo.after hostOps0 (W0 m c)
/-- The same read at the TensorCore's references. -/
abbrev U1 : (c : Dev nD) → (b : Ref sig .tc) → Buf (Elt F) ((c : Thread nD τ).loc b) := fun c b => W1 m c b
/-- What region 0 leaves in its output array (the edge messages). -/
def o2 (c : Dev nD) : Buf (Elt F) ((c : Thread nD τ).loc main_v15) := (dat0 (U1 m) c).arrAt 7 cfg0.N
/-- After region 0. -/
def W2 (c : Dev nD) : Valuation τ sig (Elt F) := Function.update (W1 m c) main_v15 (o2 m c)
/-- After the second host stretch: region 1's entry. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- What region 1 leaves in its three output arrays (the pre-normalisation rows, their column sums, the column sums of their squares). -/
def o4_0 (c : Dev nD) : Buf (Elt F) ((c : Thread nD τ).loc main_v21_0) := (dat1 (U3 m) c).arrAt 6 cfg1.N
def o4_1 (c : Dev nD) : Buf (Elt F) ((c : Thread nD τ).loc main_v21_1) := (dat1 (U3 m) c).arrAt 7 cfg1.N
def o4_2 (c : Dev nD) : Buf (Elt F) ((c : Thread nD τ).loc main_v21_2) := (dat1 (U3 m) c).arrAt 8 cfg1.N
/-- After region 1. -/
def W4 (c : Dev nD) : Valuation τ sig (Elt F) :=
  Function.update (Function.update (Function.update (W3 m c) main_v21_0 (o4_0 m c)) main_v21_1 (o4_1 m c)) main_v21_2 (o4_2 m c)
/-- After the third host stretch: region 2's entry. -/
abbrev W5 (c : Dev nD) : Valuation τ sig (Elt F) := StableHlo.after hostOps2 (W4 m c)
abbrev U5 : (c : Dev nD) → (b : Ref sig .tc) → Buf (Elt F) ((c : Thread nD τ).loc b) := fun c b => W5 m c b
/-- What region 2 leaves in its output array (the program's result). -/
def o6 (c : Dev nD) : Buf (Elt F) ((c : Thread nD τ).loc main_v30) := (dat2 (U5 m) c).arrAt 5 cfg2.N
/-- After region 2: the end. -/
def W6 (c : Dev nD) : Valuation τ sig (Elt F) := Function.update (W5 m c) main_v30 (o6 m c)

/-- The contents the regions leave, in the form the generated conditional frame takes them: read off the boundary
    valuations (only the five entries named there are ever read). -/
def outs : Outs (F := F) := fun n r c =>
  match n with
  | 2 => W2 m c r
  | 4 => W4 m c r
  | _ => W6 m c r

end Cert.Kernel.Hand

end
-- ==== Proof.KReg0.lean ====
/- Region 0's body obligation: the edge-message network on whole staging buffers. -/
import proofs.«153742_j79508434583745_1_alg».proof.Proof.KData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and the one store go through the whole buffer -/

/-- The zero offsets, however spelt. -/
theorem zeroOff0 : (![0, 0] : Fin 2 → ℕ) = fun _ => 0 := by
  funext a; fin_cases a <;> rfl

/-- The whole edge block (6400 edges by 64 features). -/
abbrev rE0 : Rect S6400x64 := Rect.unit (s := S6400x64) ![0, 0] S6400x64.size inb_S6400x64_S6400x64_0_0
/-- A whole 64 by 64 weight matrix. -/
abbrev rW0 : Rect S64x64 := Rect.unit (s := S64x64) ![0, 0] S64x64.size inb_S64x64_S64x64_0_0
/-- A whole bias row. -/
abbrev rB0 : Rect S1x64 := Rect.unit (s := S1x64) ![0, 0] S1x64.size inb_S1x64_S1x64_0_0

/-- The output buffer after the body as its one store laid over it: the message network on what the seven loads read. -/
def out0c (x0 x1 : Vec F S6400x64 .f32) (x2 x3 : Vec F S64x64 .f32) (x4 : Vec F S1x64 .f32) (x5 : Vec F S64x64 .f32)
    (x6 : Vec F S1x64 .f32) : Vec F S6400x64 .f32 :=
  View.canon [⟨rE0, k0_pay1 (View.ld x0 rE0) (View.ld x1 rE0) (View.ld x2 rW0) (View.ld x3 rW0) (View.ld x4 rB0) (View.ld x5 rW0) (View.ld x6 rB0)⟩]

/-- Loads of whole buffers read their contents and the whole-buffer store leaves exactly its payload. -/
theorem out0c_eq (x0 x1 : Vec F S6400x64 .f32) (x2 x3 : Vec F S64x64 .f32) (x4 : Vec F S1x64 .f32) (x5 : Vec F S64x64 .f32)
    (x6 : Vec F S1x64 .f32) : out0c x0 x1 x2 x3 x4 x5 x6 = k0_pay1 x0 x1 x2 x3 x4 x5 x6 := by
  unfold out0c
  rw [View.canon_unit_zero zeroOff0]
  simp only [View.ld_unit_zero (S := S6400x64) zeroOff0, View.ld_unit_zero (S := S64x64) zeroOff0,
    View.ld_unit_zero (S := S1x64) zeroOff0]

/-- The one store covers the output buffer. -/
theorem cover0 (p0 : Vec F S6400x64 .f32) (y : S6400x64.Idx) :
    ∃ pc ∈ ([⟨rE0, p0⟩] : List (View.Piece (Elt F) S6400x64 .f32)), y ∈ pc.1.set :=
  View.cover_of_tiled [⟨rE0, p0⟩] S6400x64.size (by rfl) y

/-! ## The body's triple -/

set_option maxHeartbeats 4000000 in
/-- The body on whole staging memrefs, the seven inputs' at read contents and the output's at anything, runs to the
    continuation holding the inputs' as they were and the output's at the store laid over it. -/
theorem sound_kernel0c (c : Dev nD) (E : Set ℕ) (i : grid0.Coords)
    (arg1 : Memref sig .tc .vmem S6400x64 .f32) (harg1 : arg1.IsWhole) (arg2 : Memref sig .tc .vmem S6400x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S6400x64 .f32) (harg8 : arg8.IsWhole)
    (x0 x1 : Vec F S6400x64 .f32) (x2 x3 : Vec F S64x64 .f32) (x4 : Vec F S1x64 .f32) (x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0c x0 x1 x2 x3 x4 x5 x6)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0 _)

variable (V : (c : Dev nD) → (b : Ref sig .tc) → Buf (Elt F) ((c : Thread nD τ).loc b))

/-- The same triple with the output named as the message network on the loaded values themselves. -/
theorem sound_kernel0 (c : Dev nD) (E : Set ℕ) (i : grid0.Coords)
    (arg1 : Memref sig .tc .vmem S6400x64 .f32) (harg1 : arg1.IsWhole) (arg2 : Memref sig .tc .vmem S6400x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S6400x64 .f32) (harg8 : arg8.IsWhole)
    (x0 x1 : Vec F S6400x64 .f32) (x2 x3 : Vec F S64x64 .f32) (x4 : Vec F S1x64 .f32) (x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k0_pay1 x0 x1 x2 x3 x4 x5 x6)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8) K := by
  have h := sound_kernel0c (F := F) c E i arg1 harg1 arg2 harg2 arg3 harg3 arg4 harg4 arg5 harg5 arg6 harg6 arg7 harg7 arg8 harg8
    x0 x1 x2 x3 x4 x5 x6 K
  rw [out0c_eq] at h
  exact h

/-! ## What the body finds in each input window -/

/-- Each input's current staging buffer holds its block at every point, fetched there or not: an unfetched window's
    block index has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the triple applies at the blocks; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1Phi.lean ====
/- Region 1's invariant side: the launch's invariant against the accumulators' named contents, the two branch conditions over the grid, and where the two accumulator outputs are idle. -/
import proofs.«153742_j79508434583745_1_alg».proof.Proof.KData

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The launch's invariant with the two accumulators set apart

The launch's invariant lists the core's scoped buffers that are no staging buffer of this region, each whole at some
contents, and the generator register; the two accumulators are the twelfth and thirteenth of the list. Reordering the
separating conjunction sets them apart, as whole memrefs owned at some contents. -/

/-- From the launch's invariant: the other nineteen buffers, the two accumulators at some contents, the register. -/
theorem PhiA1_split (c : Dev nD) :
    (Pipeline.ΦA spec1 c : sProp 𝕄) ⊢ iprop(rest1 (F := F) c ∗ (∃ d, owns (c : Thread nD τ) scM0 fullShare d)
      ∗ (∃ d, owns (c : Thread nD τ) scM1 fullShare d) ∗ (∃ r, prngReg c r)) := by
  unfold Pipeline.ΦA rest1; rw [scopedRest1_eq]; simp only [scM0, scM1, owns_whole]
  iintro ⟨⟨A1, A2, A3, A4, A5, A6, A7, A8, A9, A10, A11, S0, S1, B1, B2, B3, B4, B5, B6, B7, B8⟩, R⟩
  isplitl [A1 A2 A3 A4 A5 A6 A7 A8 A9 A10 A11 B1 B2 B3 B4 B5 B6 B7 B8]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  isplitl [S0]; · iexact S0
  isplitl [S1]; · iexact S1
  iexact R

/-- And back. -/
theorem PhiA1_join (c : Dev nD) :
    iprop(rest1 (F := F) c ∗ (∃ d, owns (c : Thread nD τ) scM0 fullShare d)
      ∗ (∃ d, owns (c : Thread nD τ) scM1 fullShare d) ∗ (∃ r, prngReg c r)) ⊢ (Pipeline.ΦA spec1 c : sProp 𝕄) := by
  unfold Pipeline.ΦA rest1; rw [scopedRest1_eq]; simp only [scM0, scM1, owns_whole]
  iintro ⟨⟨A1, A2, A3, A4, A5, A6, A7, A8, A9, A10, A11, B1, B2, B3, B4, B5, B6, B7, B8⟩, S0, S1, R⟩
  isplitr [R]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    isplitl [S1]; · iexact S1
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact R

/-! ## The invariant at the region's two ends -/

/-- What the launch hands the region (every scoped buffer at anything, the generator register) is the invariant before the first point. -/
theorem hin1' (c : Dev nD) : Pipeline.ΦA spec1 c ⊢ (dat1 (F := F) V c).Φ 0 := by
  have h : (dat1 (F := F) V c).Φ 0 = Pipeline.ΦA spec1 c := by
    dsimp only [dat1]; exact PhiS_zero V c _ _ rfl
  rw [h]

/-- The grid is not empty: it has twenty points. -/
theorem N1_ne_zero : cfg1.N ≠ 0 := by
  have h : cfg1.N = 20 := N_1
  omega

/-- After the last point the invariant gives that back: the accumulators' named contents are forgotten. -/
theorem hout1' (c : Dev nD) : (dat1 (F := F) V c).Φ (Fin.last cfg1.N) ⊢ Pipeline.ΦA spec1 c := by
  have h : (dat1 (F := F) V c).Φ (Fin.last cfg1.N) = PhiS V c cfg1.N (Nat.le_refl _) := by
    dsimp only [dat1]; rfl
  rw [h, PhiS_pos V c cfg1.N _ N1_ne_zero]
  iintro ⟨Hr, H0, H1, Hp⟩
  iapply (PhiA1_join (F := F) c)
  isplitl [Hr]; · iexact Hr
  isplitl [H0]; · iexists _; iexact H0
  isplitl [H1]; · iexists _; iexact H1
  iexact Hp

/-! ## The body's two branch conditions, over the grid -/

/-- The first condition (is this the first point?), as the body computes it from the grid coordinate. -/
abbrev cond1_0 (i : grid1.Coords) : Prop :=
  (Scalar.cmpi .ne (Scalar.extui (Scalar.cmpi .eq (BitVec.ofNat 32 (i 0).val) 0#32)) 0#32) = 1#1
/-- It holds at the first point only: decided over the twenty points. -/
theorem hcond1_0 : ∀ t : Fin cfg1.N, cond1_0 (grid1.coords t) ↔ t.val = 0 :=
  (by decide +kernel : ∀ t : Fin grid1.N, cond1_0 (grid1.coords t) ↔ t.val = 0)
/-- The same with the condition written out. -/
theorem hcond1_0' : ∀ t : Fin cfg1.N,
    (Scalar.cmpi .ne (Scalar.extui (Scalar.cmpi .eq (BitVec.ofNat 32 ((grid1.coords t) 0).val) 0#32)) 0#32) = 1#1 ↔ t.val = 0 :=
  hcond1_0

/-- The second condition (is this the last point?). -/
abbrev cond1_1 (i : grid1.Coords) : Prop := k1_cond2 i = 1#1
/-- It holds at the last point only: decided over the twenty points. -/
theorem hcond1_1 : ∀ t : Fin cfg1.N, cond1_1 (grid1.coords t) ↔ t.val = 19 :=
  (by decide +kernel : ∀ t : Fin grid1.N, cond1_1 (grid1.coords t) ↔ t.val = 19)
/-- The same with the condition written out. -/
theorem hcond1_1' : ∀ t : Fin cfg1.N, k1_cond2 (grid1.coords t) = 1#1 ↔ t.val = 19 :=
  hcond1_1

/-! ## Where the windows are idle -/

/-- Window 0 is never idle. -/
theorem liveAt1_0 : ∀ t : Fin cfg1.N, cfg1.idle 0 (cfg1.grid.coords t) = false := by decide +kernel
/-- Window 1 is never idle. -/
theorem liveAt1_1 : ∀ t : Fin cfg1.N, cfg1.idle 1 (cfg1.grid.coords t) = false := by decide +kernel
/-- Window 2 is never idle. -/
theorem liveAt1_2 : ∀ t : Fin cfg1.N, cfg1.idle 2 (cfg1.grid.coords t) = false := by decide +kernel
/-- Window 3 is never idle. -/
theorem liveAt1_3 : ∀ t : Fin cfg1.N, cfg1.idle 3 (cfg1.grid.coords t) = false := by decide +kernel
/-- Window 4 is never idle. -/
theorem liveAt1_4 : ∀ t : Fin cfg1.N, cfg1.idle 4 (cfg1.grid.coords t) = false := by decide +kernel
/-- Window 5 is never idle. -/
theorem liveAt1_5 : ∀ t : Fin cfg1.N, cfg1.idle 5 (cfg1.grid.coords t) = false := by decide +kernel
/-- Window 6 is never idle. -/
theorem liveAt1_6 : ∀ t : Fin cfg1.N, cfg1.idle 6 (cfg1.grid.coords t) = false := by decide +kernel

/-- Before the last point the configuration calls accumulator output 7 idle: the body stores nothing into it there, -/
theorem idleAt1_7 : ∀ t : Fin cfg1.N, t.val ≠ 19 → cfg1.idle 7 (cfg1.grid.coords t) = true := by decide +kernel
/-- and the pipeline does not write its block back. -/
theorem noFlush1_7 : ∀ t : Fin cfg1.N, t.val ≠ 19 → (cfg1.win 7).flush t = false := by decide +kernel
/-- At the last point it is live: the body copies the accumulator into it. -/
theorem liveAt1_7 : ∀ t : Fin cfg1.N, t.val = 19 → cfg1.idle 7 (cfg1.grid.coords t) = false := by decide +kernel
/-- The same three by the second branch condition. -/
theorem idleAt1_7_of : ∀ t : Fin cfg1.N, ¬cond1_1 (grid1.coords t) → cfg1.idle 7 (cfg1.grid.coords t) = true := by decide +kernel
theorem noFlush1_7_of : ∀ t : Fin cfg1.N, ¬cond1_1 (grid1.coords t) → (cfg1.win 7).flush t = false := by decide +kernel
theorem liveAt1_7_of : ∀ t : Fin cfg1.N, cond1_1 (grid1.coords t) → cfg1.idle 7 (cfg1.grid.coords t) = false := by decide +kernel
/-- Before the last point the configuration calls accumulator output 8 idle: the body stores nothing into it there, -/
theorem idleAt1_8 : ∀ t : Fin cfg1.N, t.val ≠ 19 → cfg1.idle 8 (cfg1.grid.coords t) = true := by decide +kernel
/-- and the pipeline does not write its block back. -/
theorem noFlush1_8 : ∀ t : Fin cfg1.N, t.val ≠ 19 → (cfg1.win 8).flush t = false := by decide +kernel
/-- At the last point it is live: the body copies the accumulator into it. -/
theorem liveAt1_8 : ∀ t : Fin cfg1.N, t.val = 19 → cfg1.idle 8 (cfg1.grid.coords t) = false := by decide +kernel
/-- The same three by the second branch condition. -/
theorem idleAt1_8_of : ∀ t : Fin cfg1.N, ¬cond1_1 (grid1.coords t) → cfg1.idle 8 (cfg1.grid.coords t) = true := by decide +kernel
theorem noFlush1_8_of : ∀ t : Fin cfg1.N, ¬cond1_1 (grid1.coords t) → (cfg1.win 8).flush t = false := by decide +kernel
theorem liveAt1_8_of : ∀ t : Fin cfg1.N, cond1_1 (grid1.coords t) → cfg1.idle 8 (cfg1.grid.coords t) = false := by decide +kernel

end Cert.Kernel.Hand

end
-- ==== Proof.KReg1.lean ====
/- Region 1's body obligation: the body's run at the first point (the two running sums are zeroed, then take the
   block's column sums), at a middle point (they take the block's column sums) and at the last point (the same, and they
   are copied into the two small outputs), and the obligation at a generic point from the three. -/
import proofs.«153742_j79508434583745_1_alg».proof.Proof.KData
import proofs.«153742_j79508434583745_1_alg».proof.Proof.KReg1Phi
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## A whole-buffer store read back -/

/-- The zero offsets of a whole-buffer access, as the constant function. -/
theorem hz : (![0, 0] : Fin 2 → Nat) = fun _ => 0 := funext fun a => by fin_cases a <;> rfl

/-- A store through the whole shape, made last, leaves its payload whatever the buffer held and whatever was stored
    before it. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's run in its three cases

Over any whole staging memrefs and any contents of the six input blocks. Every load and store of the body moves a whole
buffer, so each buffer ends at the last payload stored into it, and a payload's loads read the blocks (or, for an
accumulator, what the run itself stored there before). -/

set_option maxHeartbeats 4000000 in
/-- The body at the first point (the accumulators are zeroed, the two small outputs are not touched): from the
    six input blocks, window 6's buffer ends at the node update of the blocks and the two accumulators at the
    block's column sums added to zero. -/
theorem runA (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 : Vec F S5000x64 .f32) (x2 : Vec F S128x128 .f32) (x3 : Vec F S1x128 .f32) (x4 : Vec F S128x128 .f32) (x5 : Vec F S1x128 .f32) (x7 x8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay5 x0 x1 x2 x3 x4 x5) ∗ owns (c : Thread nD τ) arg8 fullShare x7 ∗ owns (c : Thread nD τ) arg9 fullShare x8
            ∗ owns (c : Thread nD τ) arg10 fullShare (k1_pay1 (k1_pay6 x0 x1 x2 x3 x4 x5 k1_pay3)) ∗ owns (c : Thread nD τ) arg11 fullShare (k1_pay2 (k1_pay5 x0 x1 x2 x3 x4 x5) k1_pay4)) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %g0, -, HS0⟩, ⟨%ds1, %g1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  iexists _; isplitr
  swap; · iexact HS1
  ipureintro
  refine (read_writes_cons_whole _ _ hz _ _ _).trans ?_
  sl_unfold_run_names
  simp only [View.readAt_eq_ld, Memref.IsWhole.read_unread, View.ld_unit_zero (S := S5000x64) hz, View.ld_unit_zero (S := S128x128) hz, View.ld_unit_zero (S := S1x128) hz, View.readCov_unit_zero (S := S1x128) _ hz]

set_option maxHeartbeats 4000000 in
/-- The body at a point that is neither first nor last: the accumulators, at what the point before left, take
    the block's column sums; the two small outputs are not touched. -/
theorem runB (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 : Vec F S5000x64 .f32) (x2 : Vec F S128x128 .f32) (x3 : Vec F S1x128 .f32) (x4 : Vec F S128x128 .f32) (x5 : Vec F S1x128 .f32) (x7 x8 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare x7 ∗ owns (c : Thread nD τ) arg9 fullShare x8
        ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay5 x0 x1 x2 x3 x4 x5) ∗ owns (c : Thread nD τ) arg8 fullShare x7 ∗ owns (c : Thread nD τ) arg9 fullShare x8
            ∗ owns (c : Thread nD τ) arg10 fullShare (k1_pay1 (k1_pay6 x0 x1 x2 x3 x4 x5 s0)) ∗ owns (c : Thread nD τ) arg11 fullShare (k1_pay2 (k1_pay5 x0 x1 x2 x3 x4 x5) s1)) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%g0, %hg0, HS0⟩, ⟨%g1, %hg1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  obtain rfl := harg10.eq_unread hg0; obtain rfl := harg11.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  iexists _; isplitr
  swap; · iexact HS1
  ipureintro
  refine (read_writes_cons_whole _ _ hz _ _ _).trans ?_
  sl_unfold_run_names
  simp only [View.readAt_eq_ld, Memref.IsWhole.read_unread, View.ld_unit_zero (S := S5000x64) hz, View.ld_unit_zero (S := S128x128) hz, View.ld_unit_zero (S := S1x128) hz, View.readCov_unit_zero (S := S1x128) _ hz]

set_option maxHeartbeats 4000000 in
/-- The body at the last point: as at a middle point, and then the two accumulators are copied whole into the two
    small outputs' buffers. -/
theorem runC (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 : Vec F S5000x64 .f32) (x2 : Vec F S128x128 .f32) (x3 : Vec F S1x128 .f32) (x4 : Vec F S128x128 .f32) (x5 : Vec F S1x128 .f32) (s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay5 x0 x1 x2 x3 x4 x5) ∗ owns (c : Thread nD τ) arg8 fullShare (k1_pay1 (k1_pay6 x0 x1 x2 x3 x4 x5 s0)) ∗ owns (c : Thread nD τ) arg9 fullShare (k1_pay2 (k1_pay5 x0 x1 x2 x3 x4 x5) s1)
            ∗ owns (c : Thread nD τ) arg10 fullShare (k1_pay1 (k1_pay6 x0 x1 x2 x3 x4 x5 s0)) ∗ owns (c : Thread nD τ) arg11 fullShare (k1_pay2 (k1_pay5 x0 x1 x2 x3 x4 x5) s1)) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg10.eq_unread hg0; obtain rfl := harg11.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H7]
  · iexists _; isplitr
    swap; · iexact H7
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H8]
  · iexists _; isplitr
    swap; · iexact H8
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [HS0]
  · iexists _; isplitr
    swap; · iexact HS0
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  iexists _; isplitr
  swap; · iexact HS1
  ipureintro
  refine (read_writes_cons_whole _ _ hz _ _ _).trans ?_
  sl_unfold_run_names
  simp only [View.readAt_eq_ld, Memref.IsWhole.read_unread, View.ld_unit_zero (S := S5000x64) hz, View.ld_unit_zero (S := S128x128) hz, View.ld_unit_zero (S := S1x128) hz, View.readCov_unit_zero (S := S1x128) _ hz]

variable (V : (c : Dev nD) → (b : Ref sig .tc) → Buf (Elt F) ((c : Thread nD τ).loc b))

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The running sums, point by point -/

/-- After the first point the first accumulator holds the block's column sums added to zero, -/
theorem sAfter_first_1 (c : Dev nD) (t : Fin cfg1.N) (h : t.val = 0) :
    (sAfter V c t.val t.isLt).1 = k1_pay1 (k1_pay6 (iblk1 V c 0 t) (iblk1 V c 1 t) (iblk1 V c 2 t) (iblk1 V c 3 t) (iblk1 V c 4 t) (iblk1 V c 5 t) k1_pay3) := by
  obtain ⟨n, hn⟩ := t
  cases n with
  | zero => rfl
  | succ n => exact absurd h (Nat.succ_ne_zero n)
/-- and the second the column sums of the squares added to zero. -/
theorem sAfter_first_2 (c : Dev nD) (t : Fin cfg1.N) (h : t.val = 0) :
    (sAfter V c t.val t.isLt).2 = k1_pay2 (k1_pay5 (iblk1 V c 0 t) (iblk1 V c 1 t) (iblk1 V c 2 t) (iblk1 V c 3 t) (iblk1 V c 4 t) (iblk1 V c 5 t)) k1_pay4 := by
  obtain ⟨n, hn⟩ := t
  cases n with
  | zero => rfl
  | succ n => exact absurd h (Nat.succ_ne_zero n)
/-- After a later point each holds what the point before left, with this block's sums added. -/
theorem sAfter_later_1 (c : Dev nD) (t : Fin cfg1.N) (h : t.val ≠ 0) :
    (sAfter V c t.val t.isLt).1 = k1_pay1 (k1_pay6 (iblk1 V c 0 t) (iblk1 V c 1 t) (iblk1 V c 2 t) (iblk1 V c 3 t) (iblk1 V c 4 t) (iblk1 V c 5 t) (sAfter V c (t.val - 1) (Nat.lt_of_le_of_lt (Nat.sub_le _ _) t.isLt)).1) := by
  obtain ⟨n, hn⟩ := t
  cases n with
  | zero => exact absurd rfl h
  | succ n => rfl
theorem sAfter_later_2 (c : Dev nD) (t : Fin cfg1.N) (h : t.val ≠ 0) :
    (sAfter V c t.val t.isLt).2 = k1_pay2 (k1_pay5 (iblk1 V c 0 t) (iblk1 V c 1 t) (iblk1 V c 2 t) (iblk1 V c 3 t) (iblk1 V c 4 t) (iblk1 V c 5 t)) (sAfter V c (t.val - 1) (Nat.lt_of_le_of_lt (Nat.sub_le _ _) t.isLt)).2 := by
  obtain ⟨n, hn⟩ := t
  cases n with
  | zero => exact absurd rfl h
  | succ n => rfl

/-! ## The body obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' buffers hold their blocks; the point is the first, a middle one or the last,
    and the run of that case applies: the invariant hands it the two accumulators (at anything before the first
    point, at the running sums afterwards) and takes them back at this point's sums; the two small outputs are
    handed back untouched except at the last point, where they receive the sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 20 := lt_of_lt_of_eq t.isLt (show cfg1.N = 20 from N_1)
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  rw [show (dat1 V c).leavesExact 3 t = owns (c : Thread nD τ) (win1_3.stage (cfg1.slots t 3)) fullShare ((dat1 V c).after 3 t) from by
    unfold Dat.leavesExact; rw [liveAt1_3 t], after1_3]
  rw [show (dat1 V c).leavesExact 4 t = owns (c : Thread nD τ) (win1_4.stage (cfg1.slots t 4)) fullShare ((dat1 V c).after 4 t) from by
    unfold Dat.leavesExact; rw [liveAt1_4 t], after1_4]
  rw [show (dat1 V c).leavesExact 5 t = owns (c : Thread nD τ) (win1_5.stage (cfg1.slots t 5)) fullShare ((dat1 V c).after 5 t) from by
    unfold Dat.leavesExact; rw [liveAt1_5 t], after1_5]
  rw [show (dat1 V c).leavesExact 6 t = owns (c : Thread nD τ) (win1_6.stage (cfg1.slots t 6)) fullShare ((dat1 V c).after 6 t) from by
    unfold Dat.leavesExact; rw [liveAt1_6 t], after1_6]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7_of t hc1) (noFlush1_7_of t hc1),
      Dat.leavesExact_idle (dat1 V c) 8 t (idleAt1_8_of t hc1) (noFlush1_8_of t hc1)]
    rw [sAfter_first_1 V c t h0, sAfter_first_2 V c t h0]
    unfold out1_6
    rw [PhiS_castSucc V c t, PhiS_zero V c _ _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiA1_split (F := F) c) $$ HΦ
    icases HΦ' with ⟨HR, HS0, HS1, Hg⟩
    iapply (runA c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond1_0 (grid1.coords t) := fun h => h0 ((hcond1_0 t).mp h)
    rw [sAfter_later_1 V c t h0, sAfter_later_2 V c t h0]
    unfold out1_6
    rw [PhiS_castSucc V c t, PhiS_pos V c _ _ h0]
    by_cases h1 : t.val = 19
    · have hc1 : cond1_1 (grid1.coords t) := (hcond1_1 t).mpr h1
      rw [show (dat1 V c).leavesExact 7 t = owns (c : Thread nD τ) (win1_7.stage (cfg1.slots t 7)) fullShare ((dat1 V c).after 7 t) from by
        unfold Dat.leavesExact; rw [liveAt1_7_of t hc1], after1_7]
      rw [show (dat1 V c).leavesExact 8 t = owns (c : Thread nD τ) (win1_8.stage (cfg1.slots t 8)) fullShare ((dat1 V c).after 8 t) from by
        unfold Dat.leavesExact; rw [liveAt1_8_of t hc1], after1_8]
      rw [sAfter_later_1 V c t h0, sAfter_later_2 V c t h0]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond1_1 (grid1.coords t) := fun h => h1 ((hcond1_1 t).mp h)
      rw [Dat.leavesExact_idle (dat1 V c) 7 t (idleAt1_7_of t hc1) (noFlush1_7_of t hc1),
        Dat.leavesExact_idle (dat1 V c) 8 t (idleAt1_8_of t hc1) (noFlush1_8_of t hc1)]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (every scoped buffer at anything, the generator register) is the invariant before the first point. -/
theorem hin1 (c : Dev nD) : Pipeline.ΦA spec1 c ⊢ (dat1 (F := F) V c).Φ 0 := hin1' V c

/-- After the last point the invariant gives that back: the accumulators' named contents are forgotten. -/
theorem hout1 (c : Dev nD) : (dat1 (F := F) V c).Φ (Fin.last cfg1.N) ⊢ Pipeline.ΦA spec1 c := hout1' V c

end Cert.Kernel.Hand

end
-- ==== Proof.KReg2.lean ====
/- Region 2's body obligation: the per-column normalisation on whole staging buffers. -/
import proofs.«153742_j79508434583745_1_alg».proof.Proof.KData
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's accesses: every load and the one store go through the whole buffer -/

/-- The zero offsets, however spelt. -/
theorem zeroOff2 : (![0, 0] : Fin 2 → ℕ) = fun _ => 0 := by
  funext a; fin_cases a <;> rfl

/-- The whole node block (5000 nodes by 128 features). -/
abbrev rN2 : Rect S5000x128 := Rect.unit (s := S5000x128) ![0, 0] S5000x128.size inb_S5000x128_S5000x128_0_0
/-- A whole per-column row (mean, variance, scale or shift). -/
abbrev rR2 : Rect S1x128 := Rect.unit (s := S1x128) ![0, 0] S1x128.size inb_S1x128_S1x128_0_0

/-- The output buffer after the body as its one store laid over it: the normalisation (x0 − x1)·rsqrt(x2 + ε)·x3 + x4 of
    what the loads read, x0 the node block (first window), x1 the column means (second window), x2 the column variances
    (third window; the payload takes it as its first argument), x3 the scale and x4 the shift (fourth and fifth). -/
def out2c (x0 : Vec F S5000x128 .f32) (x1 x2 x3 x4 : Vec F S1x128 .f32) : Vec F S5000x128 .f32 :=
  View.canon [⟨rN2, k2_pay1 (View.ld x2 rR2) (View.ld x0 rN2) (View.ld x1 rR2) (View.ld x3 rR2) (View.ld x4 rR2)⟩]

/-- Loads of whole buffers read their contents and the whole-buffer store leaves exactly its payload. -/
theorem out2c_eq (x0 : Vec F S5000x128 .f32) (x1 x2 x3 x4 : Vec F S1x128 .f32) :
    out2c x0 x1 x2 x3 x4 = k2_pay1 x2 x0 x1 x3 x4 := by
  unfold out2c
  rw [View.canon_unit_zero zeroOff2]
  simp only [View.ld_unit_zero (S := S5000x128) zeroOff2, View.ld_unit_zero (S := S1x128) zeroOff2]

/-- The one store covers the output buffer. -/
theorem cover2 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

/-! ## The body's triple -/

set_option maxHeartbeats 4000000 in
/-- The body on whole staging memrefs, the five inputs' at read contents and the output's at anything, runs to the
    continuation holding the inputs' as they were and the output's at the store laid over it. -/
theorem sound_kernel2c (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2c x0 x1 x2 x3 x4)) -∗ K ⟨⟩))
      ⊢ wp frame (wpE (defs₀ (F := F)) Variants.none c none) E
          (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

variable (V : (c : Dev nD) → (b : Ref sig .tc) → Buf (Elt F) ((c : Thread nD τ).loc b))

/-- The same triple with the output named as the normalisation of the loaded values themselves. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay1 x2 x0 x1 x3 x4)) -∗ K ⟨⟩))
      ⊢ wp frame (wpE (defs₀ (F := F)) Variants.none c none) E
          (cc2__bn_apply_kernel i arg1 harg1 arg2 harg2 arg3 harg3 arg4 harg4 arg5 harg5 arg6 harg6) K := by
  have h := sound_kernel2c (F := F) c E i arg1 harg1 arg2 harg2 arg3 harg3 arg4 harg4 arg5 harg5 arg6 harg6 x0 x1 x2 x3 x4 K
  rw [out2c_eq] at h
  exact h

/-! ## What the body finds in each input window -/

/-- Each input's current staging buffer holds its block at every point, fetched there or not: an unfetched window's
    block index has not moved, and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies at the blocks; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold out2_5
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t)
    (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRun.lean ====
/-
  The kernel program's run, generic in the float instance: its three pipelined regions between host stretches,
  from any launch memory, terminate without fault; every argument array ends as launched, and the result array
  ends at what region 2's write-backs leave.
-/
import proofs.«153742_j79508434583745_1_alg».proof.Proof.KW
import proofs.«153742_j79508434583745_1_alg».proof.Proof.KReg0
import proofs.«153742_j79508434583745_1_alg».proof.Proof.KReg1
import proofs.«153742_j79508434583745_1_alg».proof.Proof.KReg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditional frame's valuations, at the contents the regions really leave, are the boundary contents -/

theorem outs_2 (c : Dev nD) : outs m 2 main_v15 c = o2 m c := by
  show W2 m c main_v15 = o2 m c
  unfold W2; exact Function.update_self _ _ _

theorem outs_4_0 (c : Dev nD) : outs m 4 main_v21_0 c = o4_0 m c := by
  show W4 m c main_v21_0 = o4_0 m c
  unfold W4
  rw [Function.update_of_ne (StableHlo.devRef_ne_of_ne (by decide) : (Proc.devRef .tc main_v21_0 : DevRef τ sig) ≠ Proc.devRef .tc main_v21_2),
    Function.update_of_ne (StableHlo.devRef_ne_of_ne (by decide) : (Proc.devRef .tc main_v21_0 : DevRef τ sig) ≠ Proc.devRef .tc main_v21_1)]
  exact Function.update_self _ _ _

theorem outs_4_1 (c : Dev nD) : outs m 4 main_v21_1 c = o4_1 m c := by
  show W4 m c main_v21_1 = o4_1 m c
  unfold W4
  rw [Function.update_of_ne (StableHlo.devRef_ne_of_ne (by decide) : (Proc.devRef .tc main_v21_1 : DevRef τ sig) ≠ Proc.devRef .tc main_v21_2)]
  exact Function.update_self _ _ _

theorem outs_4_2 (c : Dev nD) : outs m 4 main_v21_2 c = o4_2 m c := by
  show W4 m c main_v21_2 = o4_2 m c
  unfold W4; exact Function.update_self _ _ _

theorem outs_6 (c : Dev nD) : outs m 6 main_v30 c = o6 m c := by
  show W6 m c main_v30 = o6 m c
  unfold W6; exact Function.update_self _ _ _

theorem eqV1 (c : Dev nD) : Gen.V1 m c = W1 m c := rfl

theorem eqV2 (c : Dev nD) : Gen.V2 m (outs m) c = W2 m c := by
  show Function.update (W1 m c) main_v15 (outs m 2 main_v15 c) = Function.update (W1 m c) main_v15 (o2 m c)
  rw [outs_2]

theorem eqV3 (c : Dev nD) : Gen.V3 m (outs m) c = W3 m c := by
  show StableHlo.after hostOps1 (Gen.V2 m (outs m) c) = StableHlo.after hostOps1 (W2 m c)
  rw [eqV2]

theorem eqV4 (c : Dev nD) : Gen.V4 m (outs m) c = W4 m c := by
  show Function.update (Function.update (Function.update (Gen.V3 m (outs m) c) main_v21_0 (outs m 4 main_v21_0 c)) main_v21_1 (outs m 4 main_v21_1 c)) main_v21_2 (outs m 4 main_v21_2 c)
    = Function.update (Function.update (Function.update (W3 m c) main_v21_0 (o4_0 m c)) main_v21_1 (o4_1 m c)) main_v21_2 (o4_2 m c)
  rw [outs_4_0, outs_4_1, outs_4_2, eqV3]

theorem eqV5 (c : Dev nD) : Gen.V5 m (outs m) c = W5 m c := by
  show StableHlo.after hostOps2 (Gen.V4 m (outs m) c) = StableHlo.after hostOps2 (W4 m c)
  rw [eqV4]

theorem eqV6 (c : Dev nD) : Gen.V6 m (outs m) c = W6 m c := by
  show Function.update (Gen.V5 m (outs m) c) main_v30 (outs m 6 main_v30 c) = Function.update (W5 m c) main_v30 (o6 m c)
  rw [outs_6, eqV5]

/-! ## What each region's exit contents are: its output arrays at the write-backs' fold, every other buffer as entered -/

/-- Off region 0's output array the exit contents are the entry contents. -/
theorem W2_of (c : Dev nD) (r : Ref sig .tc) (h : r ∉ ([main_v15] : List (Ref sig .tc))) : W2 m c r = W1 m c r := by
  rw [← eqV2]; exact Gen.V2_of m (outs m) c r h

/-- Off region 1's three output arrays the exit contents are the entry contents. -/
theorem W4_of (c : Dev nD) (r : Ref sig .tc) (h : r ∉ ([main_v21_0, main_v21_1, main_v21_2] : List (Ref sig .tc))) : W4 m c r = W3 m c r := by
  rw [← eqV4, ← eqV3]; exact Gen.V4_of m (outs m) c r h

/-- Off region 2's output array the exit contents are the entry contents. -/
theorem W6_of (c : Dev nD) (r : Ref sig .tc) (h : r ∉ ([main_v30] : List (Ref sig .tc))) : W6 m c r = W5 m c r := by
  rw [← eqV6, ← eqV5]; exact Gen.V6_of m (outs m) c r h

/-- Region 0's arrays at its exit: an input array as entered, the output array at the write-backs' fold. -/
theorem hF0 (c : Dev nD) : ∀ w : Fin cfg0.W, (dat0 (U1 m) c).arrAt w cfg0.N = W2 m c (Pipeline.arrRef spec0 w)
  | 0 => (((dat0 (U1 m) c).arrAt_in 0 rfl _).trans (A_eq0 (U1 m) c 0)).trans (W2_of m c _ (by decide)).symm
  | 1 => (((dat0 (U1 m) c).arrAt_in 1 rfl _).trans (A_eq0 (U1 m) c 1)).trans (W2_of m c _ (by decide)).symm
  | 2 => (((dat0 (U1 m) c).arrAt_in 2 rfl _).trans (A_eq0 (U1 m) c 2)).trans (W2_of m c _ (by decide)).symm
  | 3 => (((dat0 (U1 m) c).arrAt_in 3 rfl _).trans (A_eq0 (U1 m) c 3)).trans (W2_of m c _ (by decide)).symm
  | 4 => (((dat0 (U1 m) c).arrAt_in 4 rfl _).trans (A_eq0 (U1 m) c 4)).trans (W2_of m c _ (by decide)).symm
  | 5 => (((dat0 (U1 m) c).arrAt_in 5 rfl _).trans (A_eq0 (U1 m) c 5)).trans (W2_of m c _ (by decide)).symm
  | 6 => (((dat0 (U1 m) c).arrAt_in 6 rfl _).trans (A_eq0 (U1 m) c 6)).trans (W2_of m c _ (by decide)).symm
  | 7 => (outs_2 m c).symm
  | ⟨_ + 8, h⟩ => absurd h (Nat.not_lt.2 (Nat.le_add_left _ _))

theorem hrest0 (c : Dev nD) : ∀ b, b ∉ Finset.univ.image (Pipeline.arrRef spec0) → W2 m c b = U1 m c b :=
  fun b hb => W2_of m c b fun h => hb (by
    rw [List.mem_singleton] at h; subst h
    exact Finset.mem_image.mpr ⟨7, Finset.mem_univ _, rfl⟩)

/-- Region 1's arrays at its exit. -/
theorem hF1 (c : Dev nD) : ∀ w : Fin cfg1.W, (dat1 (U3 m) c).arrAt w cfg1.N = W4 m c (Pipeline.arrRef spec1 w)
  | 0 => (((dat1 (U3 m) c).arrAt_in 0 rfl _).trans (A_eq1 (U3 m) c 0)).trans (W4_of m c _ (by decide)).symm
  | 1 => (((dat1 (U3 m) c).arrAt_in 1 rfl _).trans (A_eq1 (U3 m) c 1)).trans (W4_of m c _ (by decide)).symm
  | 2 => (((dat1 (U3 m) c).arrAt_in 2 rfl _).trans (A_eq1 (U3 m) c 2)).trans (W4_of m c _ (by decide)).symm
  | 3 => (((dat1 (U3 m) c).arrAt_in 3 rfl _).trans (A_eq1 (U3 m) c 3)).trans (W4_of m c _ (by decide)).symm
  | 4 => (((dat1 (U3 m) c).arrAt_in 4 rfl _).trans (A_eq1 (U3 m) c 4)).trans (W4_of m c _ (by decide)).symm
  | 5 => (((dat1 (U3 m) c).arrAt_in 5 rfl _).trans (A_eq1 (U3 m) c 5)).trans (W4_of m c _ (by decide)).symm
  | 6 => (outs_4_0 m c).symm
  | 7 => (outs_4_1 m c).symm
  | 8 => (outs_4_2 m c).symm
  | ⟨_ + 9, h⟩ => absurd h (Nat.not_lt.2 (Nat.le_add_left _ _))

theorem hrest1 (c : Dev nD) : ∀ b, b ∉ Finset.univ.image (Pipeline.arrRef spec1) → W4 m c b = U3 m c b :=
  fun b hb => W4_of m c b fun h => hb (by
    simp only [List.mem_cons, List.not_mem_nil, or_false] at h
    rcases h with h | h | h <;> subst h
    · exact Finset.mem_image.mpr ⟨6, Finset.mem_univ _, rfl⟩
    · exact Finset.mem_image.mpr ⟨7, Finset.mem_univ _, rfl⟩
    · exact Finset.mem_image.mpr ⟨8, Finset.mem_univ _, rfl⟩)

/-- Region 2's arrays at its exit. -/
theorem hF2 (c : Dev nD) : ∀ w : Fin cfg2.W, (dat2 (U5 m) c).arrAt w cfg2.N = W6 m c (Pipeline.arrRef spec2 w)
  | 0 => (((dat2 (U5 m) c).arrAt_in 0 rfl _).trans (A_eq2 (U5 m) c 0)).trans (W6_of m c _ (by decide)).symm
  | 1 => (((dat2 (U5 m) c).arrAt_in 1 rfl _).trans (A_eq2 (U5 m) c 1)).trans (W6_of m c _ (by decide)).symm
  | 2 => (((dat2 (U5 m) c).arrAt_in 2 rfl _).trans (A_eq2 (U5 m) c 2)).trans (W6_of m c _ (by decide)).symm
  | 3 => (((dat2 (U5 m) c).arrAt_in 3 rfl _).trans (A_eq2 (U5 m) c 3)).trans (W6_of m c _ (by decide)).symm
  | 4 => (((dat2 (U5 m) c).arrAt_in 4 rfl _).trans (A_eq2 (U5 m) c 4)).trans (W6_of m c _ (by decide)).symm
  | 5 => (outs_6 m c).symm
  | ⟨_ + 6, h⟩ => absurd h (Nat.not_lt.2 (Nat.le_add_left _ _))

theorem hrest2 (c : Dev nD) : ∀ b, b ∉ Finset.univ.image (Pipeline.arrRef spec2) → W6 m c b = U5 m c b :=
  fun b hb => W6_of m c b fun h => hb (by
    rw [List.mem_singleton] at h; subst h
    exact Finset.mem_image.mpr ⟨5, Finset.mem_univ _, rfl⟩)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c

/-- No core owes another anything: no level is assigned. -/
abbrev L : GSem nD τ sig → Finset Unit := fun _ => ∅
abbrev lv : GSem nD τ sig → Unit → ℕ := fun _ _ => 0

/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents before it, left at the
    contents after it. Its arrays are split out of the unscoped buffers and put back at the exit contents; the
    generator register goes into the region's invariant and comes out; nothing is owed; the kernel has no semaphore of
    its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the region's invariant and comes out; nothing is owed; the kernel has no semaphore of
    its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m) c)
    unfold Pipeline.ΦA
    iintro ⟨Hp, -, Hr⟩
    isplitl [Hr]; · iexact Hr
    iexact Hp
  hout c := by
    rw [Pipeline.ownSems0_none]
    refine BIBase.Entails.trans (hout1 (U3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the region's invariant and comes out; nothing is owed; the kernel has no semaphore of
    its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the chaining -/

/-- The launch element is the pipelines' own; no further ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each region is entered from the thread state the item before it leaves, and leaves the one the next item is entered from. -/
theorem hpre0 (c : Dev nD) : iprop(StableHlo.held (c : Thread nD τ) (Pipeline.ucRefs τ sig) (Gen.V1 m c) ∗ R (F := F) c) ⊢ (reg0 m).pre c := .rfl
theorem hpost0 (c : Dev nD) : (reg0 m).post c ⊢ iprop(StableHlo.held (c : Thread nD τ) (Pipeline.ucRefs τ sig) (Gen.V2 m (outs m) c) ∗ R (F := F) c) := by
  rw [eqV2]; exact .rfl
theorem hpre1 (c : Dev nD) : iprop(StableHlo.held (c : Thread nD τ) (Pipeline.ucRefs τ sig) (Gen.V3 m (outs m) c) ∗ R (F := F) c) ⊢ (reg1 m).pre c := by
  rw [eqV3]; exact .rfl
theorem hpost1 (c : Dev nD) : (reg1 m).post c ⊢ iprop(StableHlo.held (c : Thread nD τ) (Pipeline.ucRefs τ sig) (Gen.V4 m (outs m) c) ∗ R (F := F) c) := by
  rw [eqV4]; exact .rfl
theorem hpre2 (c : Dev nD) : iprop(StableHlo.held (c : Thread nD τ) (Pipeline.ucRefs τ sig) (Gen.V5 m (outs m) c) ∗ R (F := F) c) ⊢ (reg2 m).pre c := by
  rw [eqV5]; exact .rfl
theorem hpost2 (c : Dev nD) : (reg2 m).post c ⊢ iprop(StableHlo.held (c : Thread nD τ) (Pipeline.ucRefs τ sig) (Gen.V6 m (outs m) c) ∗ R (F := F) c) := by
  rw [eqV6]; exact .rfl

/-- At the end the core owes nothing. -/
theorem hE3 (c : Dev nD) : R (F := F) c ⊢ (iprop(∃ W, owes (c : Thread nD τ) (0 : CellTallies nD τ sig Unit) W) : sProp 𝕄) := by
  iintro ⟨-, HO⟩; iexact HO

/-! ## The run -/

set_option backward.isDefEq.respectTransparency.types false in
/-- Every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀ (fun _ c => R c)
    (by
      refine Pipeline.initEach L lv fun c => ?_
      iintro ⟨⟨-, HO, -, Hp, -⟩, -⟩
      imodintro
      isplitl [Hp]; · iexists _; iexact Hp
      iexists ∅; iexact HO)
    (hE3 (F := F))
    (reg0 m) (hpre0 m) (hpost0 m) (reg1 m) (hpre1 m) (hpost1 m) (reg2 m) (hpre2 m) (hpost2 m)

set_option backward.isDefEq.respectTransparency.types false in
/-- The same run with the result array named: what region 2's write-backs leave. -/
theorem run_all : θ_run defs (onTc (τ := τ) (main (F := F))) ⟨m, fun _ => 0, ρ⟩ (fun r => ∀ c : Dev nD,
      r.2.mem ((c.tc : Thread nD τ).loc main_v30) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm (pdats m) () cellOf_inj emb₁ defs₀ Variants.none L lv m ρ main
    (Gen.segs m (outs m) Variants.none L lv (fun _ c => R c) () (pdats m) (reg0 m) (reg1 m) (reg2 m))
    (fun c Q => by
      rewrite [main_chain c, Pipeline.Seg.run_eq_chain,
        show (Gen.segs m (outs m) Variants.none L lv (fun _ c => R c) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide) 0 (fun _ _ => rfl)
    (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, hpre0 m c, hpost0 m c, hpre1 m c, hpost1 m c, hpre2 m c, (hpost2 m c).trans (sep_mono .rfl (hE3 c))⟩)
    (hinit := ?_) (QY := fun c s => s.mem ((c.tc : Thread nD τ).loc main_v30) = o6 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers at the launch memory, the generator register, the core owing nothing
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result array and each argument's buffer read off the last contents
    unfold StableHlo.held
    iintro ⟨Hh, HSI⟩
    ihave Hr := (pointsTo_read_all (Pipeline.ucRefs τ sig) (fun b => ((c : Thread nD τ).1, b)) (Gen.V6 m (outs m) c) s') $$ [Hh HSI]
    · isplitl [Hh] <;> iassumption
    icases Hr with ⟨%h, HSI⟩
    imodintro
    isplitr
    · ipureintro
      exact ⟨((h (Proc.devRef .tc main_v30) (Finset.mem_filter.mpr ⟨StableHlo.devRef_mem_tcRefs main_v30, by decide⟩)).trans (Function.update_self _ _ _)).trans (outs_6 m c),
        (h (Proc.devRef .tc main_arg0) (Finset.mem_filter.mpr ⟨StableHlo.devRef_mem_tcRefs main_arg0, by decide⟩)).trans (Gen.V6_main_arg0 m (outs m) c),
        (h (Proc.devRef .tc main_arg1) (Finset.mem_filter.mpr ⟨StableHlo.devRef_mem_tcRefs main_arg1, by decide⟩)).trans (Gen.V6_main_arg1 m (outs m) c),
        (h (Proc.devRef .tc main_arg2) (Finset.mem_filter.mpr ⟨StableHlo.devRef_mem_tcRefs main_arg2, by decide⟩)).trans (Gen.V6_main_arg2 m (outs m) c),
        (h (Proc.devRef .tc main_arg3) (Finset.mem_filter.mpr ⟨StableHlo.devRef_mem_tcRefs main_arg3, by decide⟩)).trans (Gen.V6_main_arg3 m (outs m) c),
        (h (Proc.devRef .tc main_arg4) (Finset.mem_filter.mpr ⟨StableHlo.devRef_mem_tcRefs main_arg4, by decide⟩)).trans (Gen.V6_main_arg4 m (outs m) c),
        (h (Proc.devRef .tc main_arg5) (Finset.mem_filter.mpr ⟨StableHlo.devRef_mem_tcRefs main_arg5, by decide⟩)).trans (Gen.V6_main_arg5 m (outs m) c),
        (h (Proc.devRef .tc main_arg6) (Finset.mem_filter.mpr ⟨StableHlo.devRef_mem_tcRefs main_arg6, by decide⟩)).trans (Gen.V6_main_arg6 m (outs m) c),
        (h (Proc.devRef .tc main_arg7) (Finset.mem_filter.mpr ⟨StableHlo.devRef_mem_tcRefs main_arg7, by decide⟩)).trans (Gen.V6_main_arg7 m (outs m) c),
        (h (Proc.devRef .tc main_arg8) (Finset.mem_filter.mpr ⟨StableHlo.devRef_mem_tcRefs main_arg8, by decide⟩)).trans (Gen.V6_main_arg8 m (outs m) c),
        (h (Proc.devRef .tc main_arg9) (Finset.mem_filter.mpr ⟨StableHlo.devRef_mem_tcRefs main_arg9, by decide⟩)).trans (Gen.V6_main_arg9 m (outs m) c),
        (h (Proc.devRef .tc main_arg10) (Finset.mem_filter.mpr ⟨StableHlo.devRef_mem_tcRefs main_arg10, by decide⟩)).trans (Gen.V6_main_arg10 m (outs m) c),
        (h (Proc.devRef .tc main_arg11) (Finset.mem_filter.mpr ⟨StableHlo.devRef_mem_tcRefs main_arg11, by decide⟩)).trans (Gen.V6_main_arg11 m (outs m) c),
        (h (Proc.devRef .tc main_arg12) (Finset.mem_filter.mpr ⟨StableHlo.devRef_mem_tcRefs main_arg12, by decide⟩)).trans (Gen.V6_main_arg12 m (outs m) c),
        (h (Proc.devRef .tc main_arg13) (Finset.mem_filter.mpr ⟨StableHlo.devRef_mem_tcRefs main_arg13, by decide⟩)).trans (Gen.V6_main_arg13 m (outs m) c)⟩
    · iexact HSI

end Cert.Kernel.Hand

end
-- ==== Proof.KIData.lean ====
/-
  The proof data of the three pipelined regions, generic in the float instance, at a PARAMETER V (the
  TensorCore's buffer contents when a region is entered).

  Region 0 (edge messages): per block of 6400 edges, y1 = relu(relu(xs·wxᵀ + ef·weᵀ + bm0)·wm1ᵀ + bm1), the
  body's one stored value as the pure function k0_pay1 of the seven input blocks.
  Region 1 (node update): per block of 5000 nodes, out_pre = relu(z·wu0ᵀ + bu0)·wuoᵀ + buo + z with z = [x | agg]
  (k1_pay5), and two running column sums kept in scratch between grid points: Σ out_pre and Σ out_pre²
  (sAfter: reset to zero at the first point, then each point adds its block's column sums), copied to the
  two small outputs at the last point.
  Region 2 (normalisation): per block, (out_pre − mean)·rsqrt(var + ε)·γ + β (k2_pay1).
-/
import proofs.«153742_j79508434583745_1_alg».proof.Proof.Gen.KernelIdeal.Launch
import proofs.«153742_j79508434583745_1_alg».proof.Proof.Gen.KernelIdeal.Skeleton
import proofs.«153742_j79508434583745_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## Region 0 -/

/-- Window w's block at point t, read off its array as region 0 finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What region 0's body stores into its output block: the two-layer message network on the point's blocks. -/
def out0_7 (c : Dev nD) (t : Fin cfg0.N) : Vec F S6400x64 .f32 :=
  k0_pay1 (iblk0 V c 0 t) (iblk0 V c 1 t) (iblk0 V c 2 t) (iblk0 V c 3 t) (iblk0 V c 4 t) (iblk0 V c 5 t) (iblk0 V c 6 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 V c t := by dsimp only [dat0]

/-! ## Region 2 -/

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What region 2's body stores into its output block: the block normalised by the per-column mean and variance. -/
def out2_5 (c : Dev nD) (t : Fin cfg2.N) : Vec F S5000x128 .f32 :=
  k2_pay1 (iblk2 V c 2 t) (iblk2 V c 0 t) (iblk2 V c 1 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 V c t
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 V c t := by dsimp only [dat2]

/-! ## Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The node update on the point's blocks: what the body stores into output window 6. -/
def out1_6 (c : Dev nD) (t : Fin cfg1.N) : Vec F S5000x128 .f32 :=
  k1_pay5 (iblk1 V c 0 t) (iblk1 V c 1 t) (iblk1 V c 2 t) (iblk1 V c 3 t) (iblk1 V c 4 t) (iblk1 V c 5 t)

/-- The first running sum after a point, from what it held when the point's additions began. -/
def sum1 (c : Dev nD) (t : Fin cfg1.N) (s : Vec F S1x128 .f32) : Vec F S1x128 .f32 :=
  k1_pay1 (k1_pay6 (iblk1 V c 0 t) (iblk1 V c 1 t) (iblk1 V c 2 t) (iblk1 V c 3 t) (iblk1 V c 4 t) (iblk1 V c 5 t) s)

/-- The second running sum (of squares) after a point. -/
def sumsq1 (c : Dev nD) (t : Fin cfg1.N) (s : Vec F S1x128 .f32) : Vec F S1x128 .f32 :=
  k1_pay2 (out1_6 V c t) s

/-- The two scratch accumulators after the body at position n: zeroed at the first point before the additions,
    otherwise carried from the point before. -/
def sAfter (c : Dev nD) : (n : ℕ) → n < cfg1.N → Vec F S1x128 .f32 × Vec F S1x128 .f32
  | 0, hn => (sum1 V c ⟨0, hn⟩ k1_pay3, sumsq1 V c ⟨0, hn⟩ k1_pay4)
  | n + 1, hn => (sum1 V c ⟨n + 1, hn⟩ (sAfter c n (Nat.lt_of_succ_lt hn)).1, sumsq1 V c ⟨n + 1, hn⟩ (sAfter c n (Nat.lt_of_succ_lt hn)).2)

theorem sAfter_zero (c : Dev nD) (hn : 0 < cfg1.N) :
    sAfter V c 0 hn = (sum1 V c ⟨0, hn⟩ k1_pay3, sumsq1 V c ⟨0, hn⟩ k1_pay4) := rfl
theorem sAfter_succ (c : Dev nD) (n : ℕ) (hn : n + 1 < cfg1.N) :
    sAfter V c (n + 1) hn = (sum1 V c ⟨n + 1, hn⟩ (sAfter V c n (Nat.lt_of_succ_lt hn)).1, sumsq1 V c ⟨n + 1, hn⟩ (sAfter V c n (Nat.lt_of_succ_lt hn)).2) := rfl

abbrev scM0 : Memref sig .tc .vmem S1x128 .f32 := Memref.whole cc1_scratch0
abbrev scM1 : Memref sig .tc .vmem S1x128 .f32 := Memref.whole cc1_scratch1

/-- The scoped buffers region 1 does not use (the other regions' staging buffers), each at some contents. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg7_0), ((c : Thread nD τ).loc cc0_stg7_0) ↦{fullShare} f) ∗ (∃ f : Buf (Elt F) ((c : Thread nD τ).loc cc0_stg7_1), ((c : Thread nD τ).loc cc0_stg7_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg4_0), ((c : Thread nD τ).loc cc2_stg4_0) ↦{fullShare} f) ∗ (∃ f : Buf (Elt F) ((c : Thread nD τ).loc cc2_stg5_0), ((c : Thread nD τ).loc cc2_stg5_0) ↦{fullShare} f) ∗ (∃ f : Buf (Elt F) ((c : Thread nD τ).loc cc2_stg5_1), ((c : Thread nD τ).loc cc2_stg5_1) ↦{fullShare} f))

/-- Region 1's invariant before position n: before the first point every scoped buffer at anything and the
    generator register at some state; afterwards the same with the two scratch accumulators at what the point
    before left in them. -/
def PhiS (c : Dev nD) : (n : ℕ) → n ≤ cfg1.N → sProp 𝕄
  | 0, _ => Pipeline.ΦA spec1 c
  | n + 1, hn => iprop(rest1 (F := F) c ∗ owns (c : Thread nD τ) scM0 fullShare (sAfter V c n hn).1 ∗ owns (c : Thread nD τ) scM1 fullShare (sAfter V c n hn).2 ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(rest1 (F := F) c ∗ owns (c : Thread nD τ) scM0 fullShare (sAfter V c n hn).1 ∗ owns (c : Thread nD τ) scM1 fullShare (sAfter V c n hn).2 ∗ (∃ r, prngReg c r)) := rfl

theorem PhiS_pos (c : Dev nD) (n : ℕ) (h : n ≤ cfg1.N) (hz : n ≠ 0) :
    PhiS V c n h = iprop(rest1 (F := F) c ∗ owns (c : Thread nD τ) scM0 fullShare (sAfter V c (n - 1) (by omega)).1 ∗ owns (c : Thread nD τ) scM1 fullShare (sAfter V c (n - 1) (by omega)).2 ∗ (∃ r, prngReg c r)) := by
  cases n with
  | zero => exact absurd rfl hz
  | succ n => rfl

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 V c t
    | ⟨7, _⟩ => (sAfter V c t.val t.isLt).1
    | ⟨8, _⟩ => (sAfter V c t.val t.isLt).2
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 V c t := by dsimp only [dat1]
theorem after1_7 (c : Dev nD) (t : Fin cfg1.N) : (dat1 V c).after 7 t = (sAfter V c t.val t.isLt).1 := by dsimp only [dat1]
theorem after1_8 (c : Dev nD) (t : Fin cfg1.N) : (dat1 V c).after 8 t = (sAfter V c t.val t.isLt).2 := by dsimp only [dat1]

theorem PhiS_castSucc (c : Dev nD) (t : Fin cfg1.N) :
    (dat1 V c).Φ t.castSucc = PhiS V c t.val (Nat.le_of_lt t.isLt) := by
  dsimp only [dat1]; simp only [Fin.coe_castSucc]

end Cert.KernelIdeal.Hand

end
-- ==== Proof.KIW.lean ====
/-
  The TensorCore's buffer contents at each boundary of the kernel program's seven items (host stretch, region,
  host stretch, region, host stretch, region), as a fold from the launch memory: a host stretch applies its
  operations; a region replaces its output arrays by what its grid's write-backs leave and keeps every other
  buffer.
-/
import proofs.«153742_j79508434583745_1_alg».proof.Proof.KIData
import proofs.«153742_j79508434583745_1_alg».proof.Proof.Gen.KernelIdeal.Regions

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- At launch. -/
abbrev W0 (c : Dev nD) : Valuation τ sig (Elt F) := fun b => m (c, b)
/-- After the first host stretch: region 0's entry. -/
abbrev W1 (c : Dev nD) : Valuation τ sig (Elt F) := StableHlo.after hostOps0 (W0 m c)
/-- The same read at the TensorCore's references. -/
abbrev U1 : (c : Dev nD) → (b : Ref sig .tc) → Buf (Elt F) ((c : Thread nD τ).loc b) := fun c b => W1 m c b
/-- What region 0 leaves in its output array (the edge messages). -/
def o2 (c : Dev nD) : Buf (Elt F) ((c : Thread nD τ).loc main_v15) := (dat0 (U1 m) c).arrAt 7 cfg0.N
/-- After region 0. -/
def W2 (c : Dev nD) : Valuation τ sig (Elt F) := Function.update (W1 m c) main_v15 (o2 m c)
/-- After the second host stretch: region 1's entry. -/
abbrev W3 (c : Dev nD) : Valuation τ sig (Elt F) := StableHlo.after hostOps1 (W2 m c)
abbrev U3 : (c : Dev nD) → (b : Ref sig .tc) → Buf (Elt F) ((c : Thread nD τ).loc b) := fun c b => W3 m c b
/-- What region 1 leaves in its three output arrays (the pre-normalisation rows, their column sums, the column sums of their squares). -/
def o4_0 (c : Dev nD) : Buf (Elt F) ((c : Thread nD τ).loc main_v21_0) := (dat1 (U3 m) c).arrAt 6 cfg1.N
def o4_1 (c : Dev nD) : Buf (Elt F) ((c : Thread nD τ).loc main_v21_1) := (dat1 (U3 m) c).arrAt 7 cfg1.N
def o4_2 (c : Dev nD) : Buf (Elt F) ((c : Thread nD τ).loc main_v21_2) := (dat1 (U3 m) c).arrAt 8 cfg1.N
/-- After region 1. -/
def W4 (c : Dev nD) : Valuation τ sig (Elt F) :=
  Function.update (Function.update (Function.update (W3 m c) main_v21_0 (o4_0 m c)) main_v21_1 (o4_1 m c)) main_v21_2 (o4_2 m c)
/-- After the third host stretch: region 2's entry. -/
abbrev W5 (c : Dev nD) : Valuation τ sig (Elt F) := StableHlo.after hostOps2 (W4 m c)
abbrev U5 : (c : Dev nD) → (b : Ref sig .tc) → Buf (Elt F) ((c : Thread nD τ).loc b) := fun c b => W5 m c b
/-- What region 2 leaves in its output array (the program's result). -/
def o6 (c : Dev nD) : Buf (Elt F) ((c : Thread nD τ).loc main_v30) := (dat2 (U5 m) c).arrAt 5 cfg2.N
/-- After region 2: the end. -/
def W6 (c : Dev nD) : Valuation τ sig (Elt F) := Function.update (W5 m c) main_v30 (o6 m c)

/-- The contents the regions leave, in the form the generated conditional frame takes them: read off the boundary
    valuations (only the five entries named there are ever read). -/
def outs : Outs (F := F) := fun n r c =>
  match n with
  | 2 => W2 m c r
  | 4 => W4 m c r
  | _ => W6 m c r

end Cert.KernelIdeal.Hand

end
-- ==== Proof.KIReg0.lean ====
/- Region 0's body obligation: the edge-message network on whole staging buffers. -/
import proofs.«153742_j79508434583745_1_alg».proof.Proof.KIData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and the one store go through the whole buffer -/

/-- The zero offsets, however spelt. -/
theorem zeroOff0 : (![0, 0] : Fin 2 → ℕ) = fun _ => 0 := by
  funext a; fin_cases a <;> rfl

/-- The whole edge block (6400 edges by 64 features). -/
abbrev rE0 : Rect S6400x64 := Rect.unit (s := S6400x64) ![0, 0] S6400x64.size inb_S6400x64_S6400x64_0_0
/-- A whole 64 by 64 weight matrix. -/
abbrev rW0 : Rect S64x64 := Rect.unit (s := S64x64) ![0, 0] S64x64.size inb_S64x64_S64x64_0_0
/-- A whole bias row. -/
abbrev rB0 : Rect S1x64 := Rect.unit (s := S1x64) ![0, 0] S1x64.size inb_S1x64_S1x64_0_0

/-- The output buffer after the body as its one store laid over it: the message network on what the seven loads read. -/
def out0c (x0 x1 : Vec F S6400x64 .f32) (x2 x3 : Vec F S64x64 .f32) (x4 : Vec F S1x64 .f32) (x5 : Vec F S64x64 .f32)
    (x6 : Vec F S1x64 .f32) : Vec F S6400x64 .f32 :=
  View.canon [⟨rE0, k0_pay1 (View.ld x0 rE0) (View.ld x1 rE0) (View.ld x2 rW0) (View.ld x3 rW0) (View.ld x4 rB0) (View.ld x5 rW0) (View.ld x6 rB0)⟩]

/-- Loads of whole buffers read their contents and the whole-buffer store leaves exactly its payload. -/
theorem out0c_eq (x0 x1 : Vec F S6400x64 .f32) (x2 x3 : Vec F S64x64 .f32) (x4 : Vec F S1x64 .f32) (x5 : Vec F S64x64 .f32)
    (x6 : Vec F S1x64 .f32) : out0c x0 x1 x2 x3 x4 x5 x6 = k0_pay1 x0 x1 x2 x3 x4 x5 x6 := by
  unfold out0c
  rw [View.canon_unit_zero zeroOff0]
  simp only [View.ld_unit_zero (S := S6400x64) zeroOff0, View.ld_unit_zero (S := S64x64) zeroOff0,
    View.ld_unit_zero (S := S1x64) zeroOff0]

/-- The one store covers the output buffer. -/
theorem cover0 (p0 : Vec F S6400x64 .f32) (y : S6400x64.Idx) :
    ∃ pc ∈ ([⟨rE0, p0⟩] : List (View.Piece (Elt F) S6400x64 .f32)), y ∈ pc.1.set :=
  View.cover_of_tiled [⟨rE0, p0⟩] S6400x64.size (by rfl) y

/-! ## The body's triple -/

set_option maxHeartbeats 4000000 in
/-- The body on whole staging memrefs, the seven inputs' at read contents and the output's at anything, runs to the
    continuation holding the inputs' as they were and the output's at the store laid over it. -/
theorem sound_kernel0c (c : Dev nD) (E : Set ℕ) (i : grid0.Coords)
    (arg1 : Memref sig .tc .vmem S6400x64 .f32) (harg1 : arg1.IsWhole) (arg2 : Memref sig .tc .vmem S6400x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S6400x64 .f32) (harg8 : arg8.IsWhole)
    (x0 x1 : Vec F S6400x64 .f32) (x2 x3 : Vec F S64x64 .f32) (x4 : Vec F S1x64 .f32) (x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (out0c x0 x1 x2 x3 x4 x5 x6)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0 _)

variable (V : (c : Dev nD) → (b : Ref sig .tc) → Buf (Elt F) ((c : Thread nD τ).loc b))

/-- The same triple with the output named as the message network on the loaded values themselves. -/
theorem sound_kernel0 (c : Dev nD) (E : Set ℕ) (i : grid0.Coords)
    (arg1 : Memref sig .tc .vmem S6400x64 .f32) (harg1 : arg1.IsWhole) (arg2 : Memref sig .tc .vmem S6400x64 .f32) (harg2 : arg2.IsWhole)
    (arg3 : Memref sig .tc .vmem S64x64 .f32) (harg3 : arg3.IsWhole) (arg4 : Memref sig .tc .vmem S64x64 .f32) (harg4 : arg4.IsWhole)
    (arg5 : Memref sig .tc .vmem S1x64 .f32) (harg5 : arg5.IsWhole) (arg6 : Memref sig .tc .vmem S64x64 .f32) (harg6 : arg6.IsWhole)
    (arg7 : Memref sig .tc .vmem S1x64 .f32) (harg7 : arg7.IsWhole) (arg8 : Memref sig .tc .vmem S6400x64 .f32) (harg8 : arg8.IsWhole)
    (x0 x1 : Vec F S6400x64 .f32) (x2 x3 : Vec F S64x64 .f32) (x4 : Vec F S1x64 .f32) (x5 : Vec F S64x64 .f32) (x6 : Vec F S1x64 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare x6 ∗ owns (c : Thread nD τ) arg8 fullShare (k0_pay1 x0 x1 x2 x3 x4 x5 x6)) -∗ K ⟨⟩))
      ⊢ wp frame (wpE (defs₀ (F := F)) Variants.none c none) E
          (cc0__edge_mlp_kernel i arg1 harg1 arg2 harg2 arg3 harg3 arg4 harg4 arg5 harg5 arg6 harg6 arg7 harg7 arg8 harg8) K := by
  have h := sound_kernel0c (F := F) c E i arg1 harg1 arg2 harg2 arg3 harg3 arg4 harg4 arg5 harg5 arg6 harg6 arg7 harg7 arg8 harg8
    x0 x1 x2 x3 x4 x5 x6 K
  rw [out0c_eq] at h
  exact h

/-! ## What the body finds in each input window -/

/-- Each input's current staging buffer holds its block at every point, fetched there or not: an unfetched window's
    block index has not moved, and the body left the block in place. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl)
    (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl)
    (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl)
    (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl)
    (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl)
    (fun t => by rw [after0_6]; unfold Dat.blockOf iblk0; rw [A_eq0]; try rfl) t d).trans
    (by unfold Dat.fetched Dat.blockOf iblk0; rw [A_eq0]; try rfl)

/-! ## The body obligation, at a generic point -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t))

/-- The body at any point: the inputs' memrefs hold their blocks, so the triple applies at the blocks; the invariant
    and what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7]
  unfold out0_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t)
    (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIReg1Phi.lean ====
/- Region 1's invariant side: the launch's invariant against the accumulators' named contents, the two branch conditions over the grid, and where the two accumulator outputs are idle. -/
import proofs.«153742_j79508434583745_1_alg».proof.Proof.KIData

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The launch's invariant with the two accumulators set apart

The launch's invariant lists the core's scoped buffers that are no staging buffer of this region, each whole at some
contents, and the generator register; the two accumulators are the twelfth and thirteenth of the list. Reordering the
separating conjunction sets them apart, as whole memrefs owned at some contents. -/

/-- From the launch's invariant: the other nineteen buffers, the two accumulators at some contents, the register. -/
theorem PhiA1_split (c : Dev nD) :
    (Pipeline.ΦA spec1 c : sProp 𝕄) ⊢ iprop(rest1 (F := F) c ∗ (∃ d, owns (c : Thread nD τ) scM0 fullShare d)
      ∗ (∃ d, owns (c : Thread nD τ) scM1 fullShare d) ∗ (∃ r, prngReg c r)) := by
  unfold Pipeline.ΦA rest1; rw [scopedRest1_eq]; simp only [scM0, scM1, owns_whole]
  iintro ⟨⟨A1, A2, A3, A4, A5, A6, A7, A8, A9, A10, A11, S0, S1, B1, B2, B3, B4, B5, B6, B7, B8⟩, R⟩
  isplitl [A1 A2 A3 A4 A5 A6 A7 A8 A9 A10 A11 B1 B2 B3 B4 B5 B6 B7 B8]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  isplitl [S0]; · iexact S0
  isplitl [S1]; · iexact S1
  iexact R

/-- And back. -/
theorem PhiA1_join (c : Dev nD) :
    iprop(rest1 (F := F) c ∗ (∃ d, owns (c : Thread nD τ) scM0 fullShare d)
      ∗ (∃ d, owns (c : Thread nD τ) scM1 fullShare d) ∗ (∃ r, prngReg c r)) ⊢ (Pipeline.ΦA spec1 c : sProp 𝕄) := by
  unfold Pipeline.ΦA rest1; rw [scopedRest1_eq]; simp only [scM0, scM1, owns_whole]
  iintro ⟨⟨A1, A2, A3, A4, A5, A6, A7, A8, A9, A10, A11, B1, B2, B3, B4, B5, B6, B7, B8⟩, S0, S1, R⟩
  isplitr [R]
  · isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [S0]; · iexact S0
    isplitl [S1]; · iexact S1
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact R

/-! ## The invariant at the region's two ends -/

/-- What the launch hands the region (every scoped buffer at anything, the generator register) is the invariant before the first point. -/
theorem hin1' (c : Dev nD) : Pipeline.ΦA spec1 c ⊢ (dat1 (F := F) V c).Φ 0 := by
  have h : (dat1 (F := F) V c).Φ 0 = Pipeline.ΦA spec1 c := by
    dsimp only [dat1]; exact PhiS_zero V c _ _ rfl
  rw [h]

/-- The grid is not empty: it has twenty points. -/
theorem N1_ne_zero : cfg1.N ≠ 0 := by
  have h : cfg1.N = 20 := N_1
  omega

/-- After the last point the invariant gives that back: the accumulators' named contents are forgotten. -/
theorem hout1' (c : Dev nD) : (dat1 (F := F) V c).Φ (Fin.last cfg1.N) ⊢ Pipeline.ΦA spec1 c := by
  have h : (dat1 (F := F) V c).Φ (Fin.last cfg1.N) = PhiS V c cfg1.N (Nat.le_refl _) := by
    dsimp only [dat1]; rfl
  rw [h, PhiS_pos V c cfg1.N _ N1_ne_zero]
  iintro ⟨Hr, H0, H1, Hp⟩
  iapply (PhiA1_join (F := F) c)
  isplitl [Hr]; · iexact Hr
  isplitl [H0]; · iexists _; iexact H0
  isplitl [H1]; · iexists _; iexact H1
  iexact Hp

/-! ## The body's two branch conditions, over the grid -/

/-- The first condition (is this the first point?), as the body computes it from the grid coordinate. -/
abbrev cond1_0 (i : grid1.Coords) : Prop :=
  (Scalar.cmpi .ne (Scalar.extui (Scalar.cmpi .eq (BitVec.ofNat 32 (i 0).val) 0#32)) 0#32) = 1#1
/-- It holds at the first point only: decided over the twenty points. -/
theorem hcond1_0 : ∀ t : Fin cfg1.N, cond1_0 (grid1.coords t) ↔ t.val = 0 :=
  (by decide +kernel : ∀ t : Fin grid1.N, cond1_0 (grid1.coords t) ↔ t.val = 0)
/-- The same with the condition written out. -/
theorem hcond1_0' : ∀ t : Fin cfg1.N,
    (Scalar.cmpi .ne (Scalar.extui (Scalar.cmpi .eq (BitVec.ofNat 32 ((grid1.coords t) 0).val) 0#32)) 0#32) = 1#1 ↔ t.val = 0 :=
  hcond1_0

/-- The second condition (is this the last point?). -/
abbrev cond1_1 (i : grid1.Coords) : Prop := k1_cond2 i = 1#1
/-- It holds at the last point only: decided over the twenty points. -/
theorem hcond1_1 : ∀ t : Fin cfg1.N, cond1_1 (grid1.coords t) ↔ t.val = 19 :=
  (by decide +kernel : ∀ t : Fin grid1.N, cond1_1 (grid1.coords t) ↔ t.val = 19)
/-- The same with the condition written out. -/
theorem hcond1_1' : ∀ t : Fin cfg1.N, k1_cond2 (grid1.coords t) = 1#1 ↔ t.val = 19 :=
  hcond1_1

/-! ## Where the windows are idle -/

/-- Window 0 is never idle. -/
theorem liveAt1_0 : ∀ t : Fin cfg1.N, cfg1.idle 0 (cfg1.grid.coords t) = false := by decide +kernel
/-- Window 1 is never idle. -/
theorem liveAt1_1 : ∀ t : Fin cfg1.N, cfg1.idle 1 (cfg1.grid.coords t) = false := by decide +kernel
/-- Window 2 is never idle. -/
theorem liveAt1_2 : ∀ t : Fin cfg1.N, cfg1.idle 2 (cfg1.grid.coords t) = false := by decide +kernel
/-- Window 3 is never idle. -/
theorem liveAt1_3 : ∀ t : Fin cfg1.N, cfg1.idle 3 (cfg1.grid.coords t) = false := by decide +kernel
/-- Window 4 is never idle. -/
theorem liveAt1_4 : ∀ t : Fin cfg1.N, cfg1.idle 4 (cfg1.grid.coords t) = false := by decide +kernel
/-- Window 5 is never idle. -/
theorem liveAt1_5 : ∀ t : Fin cfg1.N, cfg1.idle 5 (cfg1.grid.coords t) = false := by decide +kernel
/-- Window 6 is never idle. -/
theorem liveAt1_6 : ∀ t : Fin cfg1.N, cfg1.idle 6 (cfg1.grid.coords t) = false := by decide +kernel

/-- Before the last point the configuration calls accumulator output 7 idle: the body stores nothing into it there, -/
theorem idleAt1_7 : ∀ t : Fin cfg1.N, t.val ≠ 19 → cfg1.idle 7 (cfg1.grid.coords t) = true := by decide +kernel
/-- and the pipeline does not write its block back. -/
theorem noFlush1_7 : ∀ t : Fin cfg1.N, t.val ≠ 19 → (cfg1.win 7).flush t = false := by decide +kernel
/-- At the last point it is live: the body copies the accumulator into it. -/
theorem liveAt1_7 : ∀ t : Fin cfg1.N, t.val = 19 → cfg1.idle 7 (cfg1.grid.coords t) = false := by decide +kernel
/-- The same three by the second branch condition. -/
theorem idleAt1_7_of : ∀ t : Fin cfg1.N, ¬cond1_1 (grid1.coords t) → cfg1.idle 7 (cfg1.grid.coords t) = true := by decide +kernel
theorem noFlush1_7_of : ∀ t : Fin cfg1.N, ¬cond1_1 (grid1.coords t) → (cfg1.win 7).flush t = false := by decide +kernel
theorem liveAt1_7_of : ∀ t : Fin cfg1.N, cond1_1 (grid1.coords t) → cfg1.idle 7 (cfg1.grid.coords t) = false := by decide +kernel
/-- Before the last point the configuration calls accumulator output 8 idle: the body stores nothing into it there, -/
theorem idleAt1_8 : ∀ t : Fin cfg1.N, t.val ≠ 19 → cfg1.idle 8 (cfg1.grid.coords t) = true := by decide +kernel
/-- and the pipeline does not write its block back. -/
theorem noFlush1_8 : ∀ t : Fin cfg1.N, t.val ≠ 19 → (cfg1.win 8).flush t = false := by decide +kernel
/-- At the last point it is live: the body copies the accumulator into it. -/
theorem liveAt1_8 : ∀ t : Fin cfg1.N, t.val = 19 → cfg1.idle 8 (cfg1.grid.coords t) = false := by decide +kernel
/-- The same three by the second branch condition. -/
theorem idleAt1_8_of : ∀ t : Fin cfg1.N, ¬cond1_1 (grid1.coords t) → cfg1.idle 8 (cfg1.grid.coords t) = true := by decide +kernel
theorem noFlush1_8_of : ∀ t : Fin cfg1.N, ¬cond1_1 (grid1.coords t) → (cfg1.win 8).flush t = false := by decide +kernel
theorem liveAt1_8_of : ∀ t : Fin cfg1.N, cond1_1 (grid1.coords t) → cfg1.idle 8 (cfg1.grid.coords t) = false := by decide +kernel

end Cert.KernelIdeal.Hand

end
-- ==== Proof.KIReg1.lean ====
/- Region 1's body obligation: the body's run at the first point (the two running sums are zeroed, then take the
   block's column sums), at a middle point (they take the block's column sums) and at the last point (the same, and they
   are copied into the two small outputs), and the obligation at a generic point from the three. -/
import proofs.«153742_j79508434583745_1_alg».proof.Proof.KIData
import proofs.«153742_j79508434583745_1_alg».proof.Proof.KIReg1Phi
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## A whole-buffer store read back -/

/-- The zero offsets of a whole-buffer access, as the constant function. -/
theorem hz : (![0, 0] : Fin 2 → Nat) = fun _ => 0 := funext fun a => by fin_cases a <;> rfl

/-- A store through the whole shape, made last, leaves its payload whatever the buffer held and whatever was stored
    before it. -/
theorem read_writes_cons_whole {κ : Kind} {sp : Space} {S : Shape} {e : EltTy} (v : View sig κ sp S e) (f : v.ty.Contents (Elt F))
    {off : Fin S.rank → Nat} (h : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans
    (View.canon_cons_unit_zero h inb w L)

/-! ## The body's run in its three cases

Over any whole staging memrefs and any contents of the six input blocks. Every load and store of the body moves a whole
buffer, so each buffer ends at the last payload stored into it, and a payload's loads read the blocks (or, for an
accumulator, what the run itself stored there before). -/

set_option maxHeartbeats 4000000 in
/-- The body at the first point (the accumulators are zeroed, the two small outputs are not touched): from the
    six input blocks, window 6's buffer ends at the node update of the blocks and the two accumulators at the
    block's column sums added to zero. -/
theorem runA (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : cond1_0 i) (hc1 : ¬cond1_1 i)
    (x0 x1 : Vec F S5000x64 .f32) (x2 : Vec F S128x128 .f32) (x3 : Vec F S1x128 .f32) (x4 : Vec F S128x128 .f32) (x5 : Vec F S1x128 .f32) (x7 x8 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare x7 ∗ owns (c : Thread nD τ) arg9 fullShare x8
        ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay5 x0 x1 x2 x3 x4 x5) ∗ owns (c : Thread nD τ) arg8 fullShare x7 ∗ owns (c : Thread nD τ) arg9 fullShare x8
            ∗ owns (c : Thread nD τ) arg10 fullShare (k1_pay1 (k1_pay6 x0 x1 x2 x3 x4 x5 k1_pay3)) ∗ owns (c : Thread nD τ) arg11 fullShare (k1_pay2 (k1_pay5 x0 x1 x2 x3 x4 x5) k1_pay4)) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%ds0, %g0, -, HS0⟩, ⟨%ds1, %g1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  iexists _; isplitr
  swap; · iexact HS1
  ipureintro
  refine (read_writes_cons_whole _ _ hz _ _ _).trans ?_
  sl_unfold_run_names
  simp only [View.readAt_eq_ld, Memref.IsWhole.read_unread, View.ld_unit_zero (S := S5000x64) hz, View.ld_unit_zero (S := S128x128) hz, View.ld_unit_zero (S := S1x128) hz, View.readCov_unit_zero (S := S1x128) _ hz]

set_option maxHeartbeats 4000000 in
/-- The body at a point that is neither first nor last: the accumulators, at what the point before left, take
    the block's column sums; the two small outputs are not touched. -/
theorem runB (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : ¬cond1_1 i)
    (x0 x1 : Vec F S5000x64 .f32) (x2 : Vec F S128x128 .f32) (x3 : Vec F S1x128 .f32) (x4 : Vec F S128x128 .f32) (x5 : Vec F S1x128 .f32) (x7 x8 s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ owns (c : Thread nD τ) arg8 fullShare x7 ∗ owns (c : Thread nD τ) arg9 fullShare x8
        ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay5 x0 x1 x2 x3 x4 x5) ∗ owns (c : Thread nD τ) arg8 fullShare x7 ∗ owns (c : Thread nD τ) arg9 fullShare x8
            ∗ owns (c : Thread nD τ) arg10 fullShare (k1_pay1 (k1_pay6 x0 x1 x2 x3 x4 x5 s0)) ∗ owns (c : Thread nD τ) arg11 fullShare (k1_pay2 (k1_pay5 x0 x1 x2 x3 x4 x5) s1)) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%g0, %hg0, HS0⟩, ⟨%g1, %hg1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg8.eq_unread hf7; obtain rfl := harg9.eq_unread hf8
  obtain rfl := harg10.eq_unread hg0; obtain rfl := harg11.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H7]
  · iexists _; isplitr; · ipureintro; exact harg8.read_unread _
    iexact H7
  isplitl [H8]
  · iexists _; isplitr; · ipureintro; exact harg9.read_unread _
    iexact H8
  isplitl [HS0]
  · iexists _; isplitr
    swap; · iexact HS0
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  iexists _; isplitr
  swap; · iexact HS1
  ipureintro
  refine (read_writes_cons_whole _ _ hz _ _ _).trans ?_
  sl_unfold_run_names
  simp only [View.readAt_eq_ld, Memref.IsWhole.read_unread, View.ld_unit_zero (S := S5000x64) hz, View.ld_unit_zero (S := S128x128) hz, View.ld_unit_zero (S := S1x128) hz, View.readCov_unit_zero (S := S1x128) _ hz]

set_option maxHeartbeats 4000000 in
/-- The body at the last point: as at a middle point, and then the two accumulators are copied whole into the two
    small outputs' buffers. -/
theorem runC (c : Dev nD) (i : grid1.Coords) (arg1 : Memref sig .tc .vmem S5000x64 .f32) (harg1 : arg1.IsWhole) (arg2 : Memref sig .tc .vmem S5000x64 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S5000x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S1x128 .f32) (harg11 : arg11.IsWhole) (hc0 : ¬cond1_0 i) (hc1 : cond1_1 i)
    (x0 x1 : Vec F S5000x64 .f32) (x2 : Vec F S128x128 .f32) (x3 : Vec F S1x128 .f32) (x4 : Vec F S128x128 .f32) (x5 : Vec F S1x128 .f32) (s0 s1 : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ owns (c : Thread nD τ) arg10 fullShare s0 ∗ owns (c : Thread nD τ) arg11 fullShare s1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (k1_pay5 x0 x1 x2 x3 x4 x5) ∗ owns (c : Thread nD τ) arg8 fullShare (k1_pay1 (k1_pay6 x0 x1 x2 x3 x4 x5 s0)) ∗ owns (c : Thread nD τ) arg9 fullShare (k1_pay2 (k1_pay5 x0 x1 x2 x3 x4 x5) s1)
            ∗ owns (c : Thread nD τ) arg10 fullShare (k1_pay1 (k1_pay6 x0 x1 x2 x3 x4 x5 s0)) ∗ owns (c : Thread nD τ) arg11 fullShare (k1_pay2 (k1_pay5 x0 x1 x2 x3 x4 x5) s1)) -∗ K ⟨⟩))
      ⊢ wp frame (wpE (defs₀ (F := F)) Variants.none c none) E (cc1__node_update_kernel i arg1 harg1 arg2 harg2 arg3 harg3 arg4 harg4 arg5 harg5 arg6 harg6 arg7 harg7 arg8 harg8 arg9 harg9 arg10 harg10 arg11 harg11) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%g0, %hg0, HS0⟩, ⟨%g1, %hg1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg10.eq_unread hg0; obtain rfl := harg11.eq_unread hg1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr
    swap; · iexact H6
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H7]
  · iexists _; isplitr
    swap; · iexact H7
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [H8]
  · iexists _; isplitr
    swap; · iexact H8
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  isplitl [HS0]
  · iexists _; isplitr
    swap; · iexact HS0
    ipureintro
    refine (read_writes_cons_whole _ _ hz _ _ _).trans ?_
    sl_unfold_run_names
    simp only [View.readAt_eq_ld, Memref.IsWhole.read_unread, View.ld_unit_zero (S := S5000x64) hz, View.ld_unit_zero (S := S128x128) hz, View.ld_unit_zero (S := S1x128) hz, View.readCov_unit_zero (S := S1x128) _ hz]
  iexists _; isplitr
  swap; · iexact HS1
  ipureintro
  refine (read_writes_cons_whole _ _ hz _ _ _).trans ?_
  sl_unfold_run_names
  simp only [View.readAt_eq_ld, Memref.IsWhole.read_unread, View.ld_unit_zero (S := S5000x64) hz, View.ld_unit_zero (S := S128x128) hz, View.ld_unit_zero (S := S1x128) hz, View.readCov_unit_zero (S := S1x128) _ hz]

variable (V : (c : Dev nD) → (b : Ref sig .tc) → Buf (Elt F) ((c : Thread nD τ).loc b))

/-! ## The inputs' buffers hold their blocks -/

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-! ## The running sums, point by point -/

/-- After the first point the first accumulator holds the block's column sums added to zero, -/
theorem sAfter_first_1 (c : Dev nD) (t : Fin cfg1.N) (h : t.val = 0) :
    (sAfter V c t.val t.isLt).1 = k1_pay1 (k1_pay6 (iblk1 V c 0 t) (iblk1 V c 1 t) (iblk1 V c 2 t) (iblk1 V c 3 t) (iblk1 V c 4 t) (iblk1 V c 5 t) k1_pay3) := by
  obtain ⟨n, hn⟩ := t
  cases n with
  | zero => rfl
  | succ n => exact absurd h (Nat.succ_ne_zero n)
/-- and the second the column sums of the squares added to zero. -/
theorem sAfter_first_2 (c : Dev nD) (t : Fin cfg1.N) (h : t.val = 0) :
    (sAfter V c t.val t.isLt).2 = k1_pay2 (k1_pay5 (iblk1 V c 0 t) (iblk1 V c 1 t) (iblk1 V c 2 t) (iblk1 V c 3 t) (iblk1 V c 4 t) (iblk1 V c 5 t)) k1_pay4 := by
  obtain ⟨n, hn⟩ := t
  cases n with
  | zero => rfl
  | succ n => exact absurd h (Nat.succ_ne_zero n)
/-- After a later point each holds what the point before left, with this block's sums added. -/
theorem sAfter_later_1 (c : Dev nD) (t : Fin cfg1.N) (h : t.val ≠ 0) :
    (sAfter V c t.val t.isLt).1 = k1_pay1 (k1_pay6 (iblk1 V c 0 t) (iblk1 V c 1 t) (iblk1 V c 2 t) (iblk1 V c 3 t) (iblk1 V c 4 t) (iblk1 V c 5 t) (sAfter V c (t.val - 1) (Nat.lt_of_le_of_lt (Nat.sub_le _ _) t.isLt)).1) := by
  obtain ⟨n, hn⟩ := t
  cases n with
  | zero => exact absurd rfl h
  | succ n => rfl
theorem sAfter_later_2 (c : Dev nD) (t : Fin cfg1.N) (h : t.val ≠ 0) :
    (sAfter V c t.val t.isLt).2 = k1_pay2 (k1_pay5 (iblk1 V c 0 t) (iblk1 V c 1 t) (iblk1 V c 2 t) (iblk1 V c 3 t) (iblk1 V c 4 t) (iblk1 V c 5 t)) (sAfter V c (t.val - 1) (Nat.lt_of_le_of_lt (Nat.sub_le _ _) t.isLt)).2 := by
  obtain ⟨n, hn⟩ := t
  cases n with
  | zero => exact absurd rfl h
  | succ n => rfl

/-! ## The body obligation at a point -/

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (win1_0.stage (cfg1.slots t 0)) fullShare ((dat1 V c).before 0 t d))
    ∗ (∃ d, owns (c : Thread nD τ) (win1_1.stage (cfg1.slots t 1)) fullShare ((dat1 V c).before 1 t d))
    ∗ (∃ d, owns (c : Thread nD τ) (win1_2.stage (cfg1.slots t 2)) fullShare ((dat1 V c).before 2 t d))
    ∗ (∃ d, owns (c : Thread nD τ) (win1_3.stage (cfg1.slots t 3)) fullShare ((dat1 V c).before 3 t d))
    ∗ (∃ d, owns (c : Thread nD τ) (win1_4.stage (cfg1.slots t 4)) fullShare ((dat1 V c).before 4 t d))
    ∗ (∃ d, owns (c : Thread nD τ) (win1_5.stage (cfg1.slots t 5)) fullShare ((dat1 V c).before 5 t d))
    ∗ (∃ d, owns (c : Thread nD τ) (win1_6.stage (cfg1.slots t 6)) fullShare ((dat1 V c).before 6 t d))
    ∗ (∃ d, owns (c : Thread nD τ) (win1_7.stage (cfg1.slots t 7)) fullShare ((dat1 V c).before 7 t d))
    ∗ (∃ d, owns (c : Thread nD τ) (win1_8.stage (cfg1.slots t 8)) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 4800000 in
/-- The body at any point. The inputs' buffers hold their blocks; the point is the first, a middle one or the last,
    and the run of that case applies: the invariant hands it the two accumulators (at anything before the first
    point, at the running sums afterwards) and takes them back at this point's sums; the two small outputs are
    handed back untouched except at the last point, where they receive the sums. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).owesAt () t.succ = (dat1 V c).owesAt () t.castSucc from rfl]
  rw [show (dat1 V c).Φ t.succ = PhiS V c (t.val + 1) t.isLt from rfl, PhiS_succ]
  have hN : t.val < 20 := lt_of_lt_of_eq t.isLt (show cfg1.N = 20 from N_1)
  rw [show (dat1 V c).leavesExact 0 t = owns (c : Thread nD τ) (win1_0.stage (cfg1.slots t 0)) fullShare ((dat1 V c).after 0 t) from by
    unfold Dat.leavesExact; rw [liveAt1_0 t], after1_0]
  rw [show (dat1 V c).leavesExact 1 t = owns (c : Thread nD τ) (win1_1.stage (cfg1.slots t 1)) fullShare ((dat1 V c).after 1 t) from by
    unfold Dat.leavesExact; rw [liveAt1_1 t], after1_1]
  rw [show (dat1 V c).leavesExact 2 t = owns (c : Thread nD τ) (win1_2.stage (cfg1.slots t 2)) fullShare ((dat1 V c).after 2 t) from by
    unfold Dat.leavesExact; rw [liveAt1_2 t], after1_2]
  rw [show (dat1 V c).leavesExact 3 t = owns (c : Thread nD τ) (win1_3.stage (cfg1.slots t 3)) fullShare ((dat1 V c).after 3 t) from by
    unfold Dat.leavesExact; rw [liveAt1_3 t], after1_3]
  rw [show (dat1 V c).leavesExact 4 t = owns (c : Thread nD τ) (win1_4.stage (cfg1.slots t 4)) fullShare ((dat1 V c).after 4 t) from by
    unfold Dat.leavesExact; rw [liveAt1_4 t], after1_4]
  rw [show (dat1 V c).leavesExact 5 t = owns (c : Thread nD τ) (win1_5.stage (cfg1.slots t 5)) fullShare ((dat1 V c).after 5 t) from by
    unfold Dat.leavesExact; rw [liveAt1_5 t], after1_5]
  rw [show (dat1 V c).leavesExact 6 t = owns (c : Thread nD τ) (win1_6.stage (cfg1.slots t 6)) fullShare ((dat1 V c).after 6 t) from by
    unfold Dat.leavesExact; rw [liveAt1_6 t], after1_6]
  by_cases h0 : t.val = 0
  · have hc0 : cond1_0 (grid1.coords t) := (hcond1_0 t).mpr h0
    have hc1 : ¬cond1_1 (grid1.coords t) := fun h => by have := (hcond1_1 t).mp h; omega
    rw [Dat.leavesExact_idle (dat1 V c) 7 t (idleAt1_7_of t hc1) (noFlush1_7_of t hc1),
      Dat.leavesExact_idle (dat1 V c) 8 t (idleAt1_8_of t hc1) (noFlush1_8_of t hc1)]
    rw [sAfter_first_1 V c t h0, sAfter_first_2 V c t h0]
    unfold out1_6
    rw [PhiS_castSucc V c t, PhiS_zero V c _ _ h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    ihave HΦ' := (PhiA1_split (F := F) c) $$ HΦ
    icases HΦ' with ⟨HR, HS0, HS1, Hg⟩
    iapply (runA c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [H8]; · iexact H8
    isplitl [HS0]; · iexact HS0
    isplitl [HS1]; · iexact HS1
    iintro ⟨H0, H1, H2, H3, H4, H5, H6, H7, H8, HS0, HS1⟩
    isplitl [HR HS0 HS1 Hg]
    · isplitl [HR]; · iexact HR
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8
  · have hc0 : ¬cond1_0 (grid1.coords t) := fun h => h0 ((hcond1_0 t).mp h)
    rw [sAfter_later_1 V c t h0, sAfter_later_2 V c t h0]
    unfold out1_6
    rw [PhiS_castSucc V c t, PhiS_pos V c _ _ h0]
    by_cases h1 : t.val = 19
    · have hc1 : cond1_1 (grid1.coords t) := (hcond1_1 t).mpr h1
      rw [show (dat1 V c).leavesExact 7 t = owns (c : Thread nD τ) (win1_7.stage (cfg1.slots t 7)) fullShare ((dat1 V c).after 7 t) from by
        unfold Dat.leavesExact; rw [liveAt1_7_of t hc1], after1_7]
      rw [show (dat1 V c).leavesExact 8 t = owns (c : Thread nD τ) (win1_8.stage (cfg1.slots t 8)) fullShare ((dat1 V c).after 8 t) from by
        unfold Dat.leavesExact; rw [liveAt1_8_of t hc1], after1_8]
      rw [sAfter_later_1 V c t h0, sAfter_later_2 V c t h0]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runC c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    · have hc1 : ¬cond1_1 (grid1.coords t) := fun h => h1 ((hcond1_1 t).mp h)
      rw [Dat.leavesExact_idle (dat1 V c) 7 t (idleAt1_7_of t hc1) (noFlush1_7_of t hc1),
        Dat.leavesExact_idle (dat1 V c) 8 t (idleAt1_8_of t hc1) (noFlush1_8_of t hc1)]
      iintro ⟨⟨HR, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (runB c (grid1.coords t) _ _ _ _ _ _ _ _ _ _ _ _ _ _ _ _ _ _ _ _ _ _ hc0 hc1 (iblk1 V c 0 t) (iblk1 V c 1 t) (iblk1 V c 2 t) (iblk1 V c 3 t) (iblk1 V c 4 t) (iblk1 V c 5 t) _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexact H8
      isplitl [HS0]; · iexact HS0
      isplitl [HS1]; · iexact HS1
      iintro ⟨H0, H1, H2, H3, H4, H5, H6, H7, H8, HS0, HS1⟩
      isplitl [HR HS0 HS1 Hg]
      · isplitl [HR]; · iexact HR
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      iexists _; iexact H8

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region (every scoped buffer at anything, the generator register) is the invariant before the first point. -/
theorem hin1 (c : Dev nD) : Pipeline.ΦA spec1 c ⊢ (dat1 (F := F) V c).Φ 0 := hin1' V c

/-- After the last point the invariant gives that back: the accumulators' named contents are forgotten. -/
theorem hout1 (c : Dev nD) : (dat1 (F := F) V c).Φ (Fin.last cfg1.N) ⊢ Pipeline.ΦA spec1 c := hout1' V c

end Cert.KernelIdeal.Hand

end
-- ==== Proof.KIReg2.lean ====
/- Region 2's body obligation: the per-column normalisation on whole staging buffers. -/
import proofs.«153742_j79508434583745_1_alg».proof.Proof.KIData
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's accesses: every load and the one store go through the whole buffer -/

/-- The zero offsets, however spelt. -/
theorem zeroOff2 : (![0, 0] : Fin 2 → ℕ) = fun _ => 0 := by
  funext a; fin_cases a <;> rfl

/-- The whole node block (5000 nodes by 128 features). -/
abbrev rN2 : Rect S5000x128 := Rect.unit (s := S5000x128) ![0, 0] S5000x128.size inb_S5000x128_S5000x128_0_0
/-- A whole per-column row (mean, variance, scale or shift). -/
abbrev rR2 : Rect S1x128 := Rect.unit (s := S1x128) ![0, 0] S1x128.size inb_S1x128_S1x128_0_0

/-- The output buffer after the body as its one store laid over it: the normalisation (x0 − x1)·rsqrt(x2 + ε)·x3 + x4 of
    what the loads read, x0 the node block (first window), x1 the column means (second window), x2 the column variances
    (third window; the payload takes it as its first argument), x3 the scale and x4 the shift (fourth and fifth). -/
def out2c (x0 : Vec F S5000x128 .f32) (x1 x2 x3 x4 : Vec F S1x128 .f32) : Vec F S5000x128 .f32 :=
  View.canon [⟨rN2, k2_pay1 (View.ld x2 rR2) (View.ld x0 rN2) (View.ld x1 rR2) (View.ld x3 rR2) (View.ld x4 rR2)⟩]

/-- Loads of whole buffers read their contents and the whole-buffer store leaves exactly its payload. -/
theorem out2c_eq (x0 : Vec F S5000x128 .f32) (x1 x2 x3 x4 : Vec F S1x128 .f32) :
    out2c x0 x1 x2 x3 x4 = k2_pay1 x2 x0 x1 x3 x4 := by
  unfold out2c
  rw [View.canon_unit_zero zeroOff2]
  simp only [View.ld_unit_zero (S := S5000x128) zeroOff2, View.ld_unit_zero (S := S1x128) zeroOff2]

/-- The one store covers the output buffer. -/
theorem cover2 (p0 : Vec F S5000x128 .f32) (y : S5000x128.Idx) :
    ∃ pc ∈ ([⟨rN2, p0⟩] : List (View.Piece (Elt F) S5000x128 .f32)), y ∈ pc.1.set :=
  View.cover_of_tiled [⟨rN2, p0⟩] S5000x128.size (by rfl) y

/-! ## The body's triple -/

set_option maxHeartbeats 4000000 in
/-- The body on whole staging memrefs, the five inputs' at read contents and the output's at anything, runs to the
    continuation holding the inputs' as they were and the output's at the store laid over it. -/
theorem sound_kernel2c (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2c x0 x1 x2 x3 x4)) -∗ K ⟨⟩))
      ⊢ wp frame (wpE (defs₀ (F := F)) Variants.none c none) E
          (cc2__bn_apply_kernel i arg1 harg1 arg2 harg2 arg3 harg3 arg4 harg4 arg5 harg5 arg6 harg6) K := by
  simp only [cc2__bn_apply_kernel_eq_skeleton]; unfold cc2__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2 _)

variable (V : (c : Dev nD) → (b : Ref sig .tc) → Buf (Elt F) ((c : Thread nD τ).loc b))

/-- The same triple with the output named as the normalisation of the loaded values themselves. -/
theorem sound_kernel2 (c : Dev nD) (E : Set ℕ) (i : grid2.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k2_pay1 x2 x0 x1 x3 x4)) -∗ K ⟨⟩))
      ⊢ wp frame (wpE (defs₀ (F := F)) Variants.none c none) E
          (cc2__bn_apply_kernel i arg1 harg1 arg2 harg2 arg3 harg3 arg4 harg4 arg5 harg5 arg6 harg6) K := by
  have h := sound_kernel2c (F := F) c E i arg1 harg1 arg2 harg2 arg3 harg3 arg4 harg4 arg5 harg5 arg6 harg6 x0 x1 x2 x3 x4 K
  rw [out2c_eq] at h
  exact h

/-! ## What the body finds in each input window -/

/-- Each input's current staging buffer holds its block at every point, fetched there or not: an unfetched window's
    block index has not moved, and the body left the block in place. -/
theorem before2_0 (c : Dev nD) (t : Fin cfg2.N) (d) : (dat2 V c).before 0 t d = iblk2 V c 0 t :=
  ((dat2 V c).before_in_eq_fetched 0 rfl (fun _ => rfl) (fun _ _ _ => rfl)
    (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl)
    (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl)
    (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl)
    (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl)
    (fun t => by rw [after2_4]; unfold Dat.blockOf iblk2; rw [A_eq2]; try rfl) t d).trans
    (by unfold Dat.fetched Dat.blockOf iblk2; rw [A_eq2]; try rfl)

/-! ## The body obligation, at a generic point -/

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so the triple applies at the blocks; the invariant
    and what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold out2_5
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t)
    (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KIRun.lean ====
/-
  The kernel program's run, generic in the float instance: its three pipelined regions between host stretches,
  from any launch memory, terminate without fault; every argument array ends as launched, and the result array
  ends at what region 2's write-backs leave.
-/
import proofs.«153742_j79508434583745_1_alg».proof.Proof.KIW
import proofs.«153742_j79508434583745_1_alg».proof.Proof.KIReg0
import proofs.«153742_j79508434583745_1_alg».proof.Proof.KIReg1
import proofs.«153742_j79508434583745_1_alg».proof.Proof.KIReg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The conditional frame's valuations, at the contents the regions really leave, are the boundary contents -/

theorem outs_2 (c : Dev nD) : outs m 2 main_v15 c = o2 m c := by
  show W2 m c main_v15 = o2 m c
  unfold W2; exact Function.update_self _ _ _

theorem outs_4_0 (c : Dev nD) : outs m 4 main_v21_0 c = o4_0 m c := by
  show W4 m c main_v21_0 = o4_0 m c
  unfold W4
  rw [Function.update_of_ne (StableHlo.devRef_ne_of_ne (by decide) : (Proc.devRef .tc main_v21_0 : DevRef τ sig) ≠ Proc.devRef .tc main_v21_2),
    Function.update_of_ne (StableHlo.devRef_ne_of_ne (by decide) : (Proc.devRef .tc main_v21_0 : DevRef τ sig) ≠ Proc.devRef .tc main_v21_1)]
  exact Function.update_self _ _ _

theorem outs_4_1 (c : Dev nD) : outs m 4 main_v21_1 c = o4_1 m c := by
  show W4 m c main_v21_1 = o4_1 m c
  unfold W4
  rw [Function.update_of_ne (StableHlo.devRef_ne_of_ne (by decide) : (Proc.devRef .tc main_v21_1 : DevRef τ sig) ≠ Proc.devRef .tc main_v21_2)]
  exact Function.update_self _ _ _

theorem outs_4_2 (c : Dev nD) : outs m 4 main_v21_2 c = o4_2 m c := by
  show W4 m c main_v21_2 = o4_2 m c
  unfold W4; exact Function.update_self _ _ _

theorem outs_6 (c : Dev nD) : outs m 6 main_v30 c = o6 m c := by
  show W6 m c main_v30 = o6 m c
  unfold W6; exact Function.update_self _ _ _

theorem eqV1 (c : Dev nD) : Gen.V1 m c = W1 m c := rfl

theorem eqV2 (c : Dev nD) : Gen.V2 m (outs m) c = W2 m c := by
  show Function.update (W1 m c) main_v15 (outs m 2 main_v15 c) = Function.update (W1 m c) main_v15 (o2 m c)
  rw [outs_2]

theorem eqV3 (c : Dev nD) : Gen.V3 m (outs m) c = W3 m c := by
  show StableHlo.after hostOps1 (Gen.V2 m (outs m) c) = StableHlo.after hostOps1 (W2 m c)
  rw [eqV2]

theorem eqV4 (c : Dev nD) : Gen.V4 m (outs m) c = W4 m c := by
  show Function.update (Function.update (Function.update (Gen.V3 m (outs m) c) main_v21_0 (outs m 4 main_v21_0 c)) main_v21_1 (outs m 4 main_v21_1 c)) main_v21_2 (outs m 4 main_v21_2 c)
    = Function.update (Function.update (Function.update (W3 m c) main_v21_0 (o4_0 m c)) main_v21_1 (o4_1 m c)) main_v21_2 (o4_2 m c)
  rw [outs_4_0, outs_4_1, outs_4_2, eqV3]

theorem eqV5 (c : Dev nD) : Gen.V5 m (outs m) c = W5 m c := by
  show StableHlo.after hostOps2 (Gen.V4 m (outs m) c) = StableHlo.after hostOps2 (W4 m c)
  rw [eqV4]

theorem eqV6 (c : Dev nD) : Gen.V6 m (outs m) c = W6 m c := by
  show Function.update (Gen.V5 m (outs m) c) main_v30 (outs m 6 main_v30 c) = Function.update (W5 m c) main_v30 (o6 m c)
  rw [outs_6, eqV5]

/-! ## What each region's exit contents are: its output arrays at the write-backs' fold, every other buffer as entered -/

/-- Off region 0's output array the exit contents are the entry contents. -/
theorem W2_of (c : Dev nD) (r : Ref sig .tc) (h : r ∉ ([main_v15] : List (Ref sig .tc))) : W2 m c r = W1 m c r := by
  rw [← eqV2]; exact Gen.V2_of m (outs m) c r h

/-- Off region 1's three output arrays the exit contents are the entry contents. -/
theorem W4_of (c : Dev nD) (r : Ref sig .tc) (h : r ∉ ([main_v21_0, main_v21_1, main_v21_2] : List (Ref sig .tc))) : W4 m c r = W3 m c r := by
  rw [← eqV4, ← eqV3]; exact Gen.V4_of m (outs m) c r h

/-- Off region 2's output array the exit contents are the entry contents. -/
theorem W6_of (c : Dev nD) (r : Ref sig .tc) (h : r ∉ ([main_v30] : List (Ref sig .tc))) : W6 m c r = W5 m c r := by
  rw [← eqV6, ← eqV5]; exact Gen.V6_of m (outs m) c r h

/-- Region 0's arrays at its exit: an input array as entered, the output array at the write-backs' fold. -/
theorem hF0 (c : Dev nD) : ∀ w : Fin cfg0.W, (dat0 (U1 m) c).arrAt w cfg0.N = W2 m c (Pipeline.arrRef spec0 w)
  | 0 => (((dat0 (U1 m) c).arrAt_in 0 rfl _).trans (A_eq0 (U1 m) c 0)).trans (W2_of m c _ (by decide)).symm
  | 1 => (((dat0 (U1 m) c).arrAt_in 1 rfl _).trans (A_eq0 (U1 m) c 1)).trans (W2_of m c _ (by decide)).symm
  | 2 => (((dat0 (U1 m) c).arrAt_in 2 rfl _).trans (A_eq0 (U1 m) c 2)).trans (W2_of m c _ (by decide)).symm
  | 3 => (((dat0 (U1 m) c).arrAt_in 3 rfl _).trans (A_eq0 (U1 m) c 3)).trans (W2_of m c _ (by decide)).symm
  | 4 => (((dat0 (U1 m) c).arrAt_in 4 rfl _).trans (A_eq0 (U1 m) c 4)).trans (W2_of m c _ (by decide)).symm
  | 5 => (((dat0 (U1 m) c).arrAt_in 5 rfl _).trans (A_eq0 (U1 m) c 5)).trans (W2_of m c _ (by decide)).symm
  | 6 => (((dat0 (U1 m) c).arrAt_in 6 rfl _).trans (A_eq0 (U1 m) c 6)).trans (W2_of m c _ (by decide)).symm
  | 7 => (outs_2 m c).symm
  | ⟨_ + 8, h⟩ => absurd h (Nat.not_lt.2 (Nat.le_add_left _ _))

theorem hrest0 (c : Dev nD) : ∀ b, b ∉ Finset.univ.image (Pipeline.arrRef spec0) → W2 m c b = U1 m c b :=
  fun b hb => W2_of m c b fun h => hb (by
    rw [List.mem_singleton] at h; subst h
    exact Finset.mem_image.mpr ⟨7, Finset.mem_univ _, rfl⟩)

/-- Region 1's arrays at its exit. -/
theorem hF1 (c : Dev nD) : ∀ w : Fin cfg1.W, (dat1 (U3 m) c).arrAt w cfg1.N = W4 m c (Pipeline.arrRef spec1 w)
  | 0 => (((dat1 (U3 m) c).arrAt_in 0 rfl _).trans (A_eq1 (U3 m) c 0)).trans (W4_of m c _ (by decide)).symm
  | 1 => (((dat1 (U3 m) c).arrAt_in 1 rfl _).trans (A_eq1 (U3 m) c 1)).trans (W4_of m c _ (by decide)).symm
  | 2 => (((dat1 (U3 m) c).arrAt_in 2 rfl _).trans (A_eq1 (U3 m) c 2)).trans (W4_of m c _ (by decide)).symm
  | 3 => (((dat1 (U3 m) c).arrAt_in 3 rfl _).trans (A_eq1 (U3 m) c 3)).trans (W4_of m c _ (by decide)).symm
  | 4 => (((dat1 (U3 m) c).arrAt_in 4 rfl _).trans (A_eq1 (U3 m) c 4)).trans (W4_of m c _ (by decide)).symm
  | 5 => (((dat1 (U3 m) c).arrAt_in 5 rfl _).trans (A_eq1 (U3 m) c 5)).trans (W4_of m c _ (by decide)).symm
  | 6 => (outs_4_0 m c).symm
  | 7 => (outs_4_1 m c).symm
  | 8 => (outs_4_2 m c).symm
  | ⟨_ + 9, h⟩ => absurd h (Nat.not_lt.2 (Nat.le_add_left _ _))

theorem hrest1 (c : Dev nD) : ∀ b, b ∉ Finset.univ.image (Pipeline.arrRef spec1) → W4 m c b = U3 m c b :=
  fun b hb => W4_of m c b fun h => hb (by
    simp only [List.mem_cons, List.not_mem_nil, or_false] at h
    rcases h with h | h | h <;> subst h
    · exact Finset.mem_image.mpr ⟨6, Finset.mem_univ _, rfl⟩
    · exact Finset.mem_image.mpr ⟨7, Finset.mem_univ _, rfl⟩
    · exact Finset.mem_image.mpr ⟨8, Finset.mem_univ _, rfl⟩)

/-- Region 2's arrays at its exit. -/
theorem hF2 (c : Dev nD) : ∀ w : Fin cfg2.W, (dat2 (U5 m) c).arrAt w cfg2.N = W6 m c (Pipeline.arrRef spec2 w)
  | 0 => (((dat2 (U5 m) c).arrAt_in 0 rfl _).trans (A_eq2 (U5 m) c 0)).trans (W6_of m c _ (by decide)).symm
  | 1 => (((dat2 (U5 m) c).arrAt_in 1 rfl _).trans (A_eq2 (U5 m) c 1)).trans (W6_of m c _ (by decide)).symm
  | 2 => (((dat2 (U5 m) c).arrAt_in 2 rfl _).trans (A_eq2 (U5 m) c 2)).trans (W6_of m c _ (by decide)).symm
  | 3 => (((dat2 (U5 m) c).arrAt_in 3 rfl _).trans (A_eq2 (U5 m) c 3)).trans (W6_of m c _ (by decide)).symm
  | 4 => (((dat2 (U5 m) c).arrAt_in 4 rfl _).trans (A_eq2 (U5 m) c 4)).trans (W6_of m c _ (by decide)).symm
  | 5 => (outs_6 m c).symm
  | ⟨_ + 6, h⟩ => absurd h (Nat.not_lt.2 (Nat.le_add_left _ _))

theorem hrest2 (c : Dev nD) : ∀ b, b ∉ Finset.univ.image (Pipeline.arrRef spec2) → W6 m c b = U5 m c b :=
  fun b hb => W6_of m c b fun h => hb (by
    rw [List.mem_singleton] at h; subst h
    exact Finset.mem_image.mpr ⟨5, Finset.mem_univ _, rfl⟩)

/-! ## The proof data family and what rides beside the buffers -/

/-- Every pipeline's proof data, each at its region's entry contents. -/
def pdats : (p : Fin 3) → (c : Dev nD) → Dat τ (Elt F) Unit ℕ (UR sig nD τ) ℕ (cfgs p) c
  | ⟨0, _⟩ => fun c => dat0 (U1 m) c
  | ⟨1, _⟩ => fun c => dat1 (U3 m) c
  | ⟨2, _⟩ => fun c => dat2 (U5 m) c

/-- No core owes another anything: no level is assigned. -/
abbrev L : GSem nD τ sig → Finset Unit := fun _ => ∅
abbrev lv : GSem nD τ sig → Unit → ℕ := fun _ _ => 0

/-- Beside the buffers through every item: the core's generator register at some state and its dues, at nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the contents before it, left at the
    contents after it. Its arrays are split out of the unscoped buffers and put back at the exit contents; the
    generator register goes into the region's invariant and comes out; nothing is owed; the kernel has no semaphore of
    its own. -/
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligation0 (U1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (U1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U1 m c) (fun b => W2 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it. Its arrays are split out of the unscoped buffers and put back at the exit contents; the
    generator register goes into the region's invariant and comes out; nothing is owed; the kernel has no semaphore of
    its own. -/
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligation1 (U3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (U3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (U3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U3 m) c)
    unfold Pipeline.ΦA
    iintro ⟨Hp, -, Hr⟩
    isplitl [Hr]; · iexact Hr
    iexact Hp
  hout c := by
    rw [Pipeline.ownSems0_none]
    refine BIBase.Entails.trans (hout1 (U3 m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (U3 m c) (fun b => W4 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the contents before it, left at the
    contents after it. Its arrays are split out of the unscoped buffers and put back at the exit contents; the
    generator register goes into the region's invariant and comes out; nothing is owed; the kernel has no semaphore of
    its own. -/
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligation2 (U5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (U5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (U5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (U5 m c) (fun b => W6 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch and the chaining -/

/-- The launch element is the pipelines' own; no further ghost resource is dealt. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- Each region is entered from the thread state the item before it leaves, and leaves the one the next item is entered from. -/
theorem hpre0 (c : Dev nD) : iprop(StableHlo.held (c : Thread nD τ) (Pipeline.ucRefs τ sig) (Gen.V1 m c) ∗ R (F := F) c) ⊢ (reg0 m).pre c := .rfl
theorem hpost0 (c : Dev nD) : (reg0 m).post c ⊢ iprop(StableHlo.held (c : Thread nD τ) (Pipeline.ucRefs τ sig) (Gen.V2 m (outs m) c) ∗ R (F := F) c) := by
  rw [eqV2]; exact .rfl
theorem hpre1 (c : Dev nD) : iprop(StableHlo.held (c : Thread nD τ) (Pipeline.ucRefs τ sig) (Gen.V3 m (outs m) c) ∗ R (F := F) c) ⊢ (reg1 m).pre c := by
  rw [eqV3]; exact .rfl
theorem hpost1 (c : Dev nD) : (reg1 m).post c ⊢ iprop(StableHlo.held (c : Thread nD τ) (Pipeline.ucRefs τ sig) (Gen.V4 m (outs m) c) ∗ R (F := F) c) := by
  rw [eqV4]; exact .rfl
theorem hpre2 (c : Dev nD) : iprop(StableHlo.held (c : Thread nD τ) (Pipeline.ucRefs τ sig) (Gen.V5 m (outs m) c) ∗ R (F := F) c) ⊢ (reg2 m).pre c := by
  rw [eqV5]; exact .rfl
theorem hpost2 (c : Dev nD) : (reg2 m).post c ⊢ iprop(StableHlo.held (c : Thread nD τ) (Pipeline.ucRefs τ sig) (Gen.V6 m (outs m) c) ∗ R (F := F) c) := by
  rw [eqV6]; exact .rfl

/-- At the end the core owes nothing. -/
theorem hE3 (c : Dev nD) : R (F := F) c ⊢ (iprop(∃ W, owes (c : Thread nD τ) (0 : CellTallies nD τ sig Unit) W) : sProp 𝕄) := by
  iintro ⟨-, HO⟩; iexact HO

/-! ## The run -/

set_option backward.isDefEq.respectTransparency.types false in
/-- Every weakly fair execution terminates, nothing faulting, and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Gen.frame_cond m emb₁ () Variants.none L lv (fun _ _ => rfl) ρ (outs m) (pdats m) 0 (fun _ => iprop(emp))
    (initOf (Pipeline.cells cfgs cellOf_inj) (Pipeline.launchToks cfgs cellOf_inj)) hu₀ (fun _ c => R c)
    (by
      refine Pipeline.initEach L lv fun c => ?_
      iintro ⟨⟨-, HO, -, Hp, -⟩, -⟩
      imodintro
      isplitl [Hp]; · iexists _; iexact Hp
      iexists ∅; iexact HO)
    (hE3 (F := F))
    (reg0 m) (hpre0 m) (hpost0 m) (reg1 m) (hpre1 m) (hpost1 m) (reg2 m) (hpre2 m) (hpost2 m)

set_option backward.isDefEq.respectTransparency.types false in
/-- The same run with the result array named: what region 2's write-backs leave. -/
theorem run_all : θ_run defs (onTc (τ := τ) (main (F := F))) ⟨m, fun _ => 0, ρ⟩ (fun r => ∀ c : Dev nD,
      r.2.mem ((c.tc : Thread nD τ).loc main_v30) = o6 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) := by
  refine Pipeline.θ_run_regions_kit_dev (pcfgs (F := F)) adm (pdats m) () cellOf_inj emb₁ defs₀ Variants.none L lv m ρ main
    (Gen.segs m (outs m) Variants.none L lv (fun _ c => R c) () (pdats m) (reg0 m) (reg1 m) (reg2 m))
    (fun c Q => by
      rewrite [main_chain c, Pipeline.Seg.run_eq_chain,
        show (Gen.segs m (outs m) Variants.none L lv (fun _ c => R c) () (pdats m) (reg0 m) (reg1 m) (reg2 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      exact .rfl)
    (fun c => by simp only [Gen.segs, Pipeline.Seg.pipes_host, Pipeline.Seg.pipes_region, Pipeline.Seg.pipes_nil]; decide) 0 (fun _ _ => rfl)
    (fun _ => iprop(emp)) (initOf (Pipeline.cells cfgs cellOf_inj) (Pipeline.launchToks cfgs cellOf_inj)) hu₀
    (T₀ := fun c => iprop(StableHlo.held (c : Thread nD τ) (Pipeline.ucRefs τ sig) (Gen.V0 m c) ∗ R c))
    (Tₙ := fun c => StableHlo.held (c : Thread nD τ) (Pipeline.ucRefs τ sig) (Gen.V6 m (outs m) c))
    (hch := fun c => ⟨.rfl, hpre0 m c, hpost0 m c, hpre1 m c, hpost1 m c, hpre2 m c, (hpost2 m c).trans (sep_mono .rfl (hE3 c))⟩)
    (hinit := ?_) (QY := fun c s => s.mem ((c.tc : Thread nD τ).loc main_v30) = o6 m c ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13))
    (hfin := fun c s' => ?_) (hQ := fun _ h => h)
  · -- the launch: the unscoped buffers at the launch memory, the generator register, the core owing nothing
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result array and each argument's buffer read off the last contents
    unfold StableHlo.held
    iintro ⟨Hh, HSI⟩
    ihave Hr := (pointsTo_read_all (Pipeline.ucRefs τ sig) (fun b => ((c : Thread nD τ).1, b)) (Gen.V6 m (outs m) c) s') $$ [Hh HSI]
    · isplitl [Hh] <;> iassumption
    icases Hr with ⟨%h, HSI⟩
    imodintro
    isplitr
    · ipureintro
      exact ⟨((h (Proc.devRef .tc main_v30) (Finset.mem_filter.mpr ⟨StableHlo.devRef_mem_tcRefs main_v30, by decide⟩)).trans (Function.update_self _ _ _)).trans (outs_6 m c),
        (h (Proc.devRef .tc main_arg0) (Finset.mem_filter.mpr ⟨StableHlo.devRef_mem_tcRefs main_arg0, by decide⟩)).trans (Gen.V6_main_arg0 m (outs m) c),
        (h (Proc.devRef .tc main_arg1) (Finset.mem_filter.mpr ⟨StableHlo.devRef_mem_tcRefs main_arg1, by decide⟩)).trans (Gen.V6_main_arg1 m (outs m) c),
        (h (Proc.devRef .tc main_arg2) (Finset.mem_filter.mpr ⟨StableHlo.devRef_mem_tcRefs main_arg2, by decide⟩)).trans (Gen.V6_main_arg2 m (outs m) c),
        (h (Proc.devRef .tc main_arg3) (Finset.mem_filter.mpr ⟨StableHlo.devRef_mem_tcRefs main_arg3, by decide⟩)).trans (Gen.V6_main_arg3 m (outs m) c),
        (h (Proc.devRef .tc main_arg4) (Finset.mem_filter.mpr ⟨StableHlo.devRef_mem_tcRefs main_arg4, by decide⟩)).trans (Gen.V6_main_arg4 m (outs m) c),
        (h (Proc.devRef .tc main_arg5) (Finset.mem_filter.mpr ⟨StableHlo.devRef_mem_tcRefs main_arg5, by decide⟩)).trans (Gen.V6_main_arg5 m (outs m) c),
        (h (Proc.devRef .tc main_arg6) (Finset.mem_filter.mpr ⟨StableHlo.devRef_mem_tcRefs main_arg6, by decide⟩)).trans (Gen.V6_main_arg6 m (outs m) c),
        (h (Proc.devRef .tc main_arg7) (Finset.mem_filter.mpr ⟨StableHlo.devRef_mem_tcRefs main_arg7, by decide⟩)).trans (Gen.V6_main_arg7 m (outs m) c),
        (h (Proc.devRef .tc main_arg8) (Finset.mem_filter.mpr ⟨StableHlo.devRef_mem_tcRefs main_arg8, by decide⟩)).trans (Gen.V6_main_arg8 m (outs m) c),
        (h (Proc.devRef .tc main_arg9) (Finset.mem_filter.mpr ⟨StableHlo.devRef_mem_tcRefs main_arg9, by decide⟩)).trans (Gen.V6_main_arg9 m (outs m) c),
        (h (Proc.devRef .tc main_arg10) (Finset.mem_filter.mpr ⟨StableHlo.devRef_mem_tcRefs main_arg10, by decide⟩)).trans (Gen.V6_main_arg10 m (outs m) c),
        (h (Proc.devRef .tc main_arg11) (Finset.mem_filter.mpr ⟨StableHlo.devRef_mem_tcRefs main_arg11, by decide⟩)).trans (Gen.V6_main_arg11 m (outs m) c),
        (h (Proc.devRef .tc main_arg12) (Finset.mem_filter.mpr ⟨StableHlo.devRef_mem_tcRefs main_arg12, by decide⟩)).trans (Gen.V6_main_arg12 m (outs m) c),
        (h (Proc.devRef .tc main_arg13) (Finset.mem_filter.mpr ⟨StableHlo.devRef_mem_tcRefs main_arg13, by decide⟩)).trans (Gen.V6_main_arg13 m (outs m) c)⟩
    · iexact HSI

end Cert.KernelIdeal.Hand

end
-- ==== Proof.RefRun.lean ====
/-
  The reference program's run.  The reference is a pure host program: an edge network (gather the
  source rows, concatenate the edge features, two affine layers each followed by max(·, 0)), a
  scatter-add of the edge messages into the nodes, a node network (two affine layers, a skip
  connection), and a normalisation of each of the 128 columns by its mean and variance over the
  100000 rows, scaled and shifted.  Each value the program computes is named here as a function
  of the values it reads (`st_<buffer>`), the result as their composition `refOut` of the fourteen
  argument arrays; the program, with the four outlined functions' lines at their call sites, is a
  straight line of ninety-three host operations, and its run from any memory ends with the result
  buffer at `refOut` of the launch contents and every argument as launched.
-/
import proofs.«153742_j79508434583745_1_alg».proof.Proof.Gen.ReferenceIdeal
import Idealize.ShloMosaic.Lib.StableHlo.Run
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The values, one per operation

Each takes the contents of the buffers its operation reads; a constant, or a constant spread over a
shape, is written in place. -/

/-- Row 0 of the edge table (the source node of each edge), still a 1 × E array. -/
def st_v0 (a2 : IVec S2x1600000 32) : IVec S1x1600000 32 :=
  extractStridedSlice S1x1600000 ![0, 0] a2 slices_S2x1600000_S1x1600000_0_0
/-- The sources as a vector. -/
def st_v1 (v0 : IVec S1x1600000 32) : IVec S1600000 32 :=
  shapeCast S1600000 v0 shapeCasts_S1x1600000_S1600000
/-- Row 1 of the edge table (the destination node of each edge). -/
def st_v2 (a2 : IVec S2x1600000 32) : IVec S1x1600000 32 :=
  extractStridedSlice S1x1600000 ![1, 0] a2 slices_S2x1600000_S1x1600000_1_0
/-- The destinations as a vector. -/
def st_v3 (v2 : IVec S1x1600000 32) : IVec S1600000 32 :=
  shapeCast S1600000 v2 shapeCasts_S1x1600000_S1600000
/-- Which sources are negative. -/
def st_v5 (v1 : IVec S1600000 32) : IVec S1600000 1 :=
  cmpi .slt v1 (broadcastInDim S1600000 ![] bcast_S_S1600000 (constantI S_ 32 0#32))
/-- The sources moved up by the number of nodes. -/
def st_v7 (v1 : IVec S1600000 32) : IVec S1600000 32 :=
  addi v1 (broadcastInDim S1600000 ![] bcast_S_S1600000 (constantI S_ 32 100000#32))
/-- The sources with the negative ones wrapped. -/
def st_v8 (v5 : IVec S1600000 1) (v7 v1 : IVec S1600000 32) : IVec S1600000 32 :=
  select v5 v7 v1
/-- The wrapped sources as an E × 1 index table. -/
def st_v9 (v8 : IVec S1600000 32) : IVec S1600000x1 32 :=
  broadcastInDim S1600000x1 ![0] bcast_S1600000_S1600000x1_0 v8
/-- The node rows at the sources. -/
def st_v10 (a0 : FVec F S100000x64 .f32) (v9 : IVec S1600000x1 32) : FVec F S1600000x64 .f32 :=
  Host.gather gather_S100000x64_S1600000x1_S1600000x64_1_0_n_n_0_1_164 a0 v9
/-- Source row beside edge features. -/
def st_v11 (v10 a1 : FVec F S1600000x64 .f32) : FVec F S1600000x128 .f32 :=
  concatenate S1600000x128 1 [⟨S1600000x64, v10⟩, ⟨S1600000x64, a1⟩] concatenates_S1600000x64_S1600000x64_S1600000x128_d1
/-- The first edge weight, transposed. -/
def st_v12 (a4 : FVec F S64x128 .f32) : FVec F S128x64 .f32 :=
  transpose S128x64 [1, 0] a4 transposes_S64x128_S128x64_1_0
/-- The first edge layer's product. -/
def st_v13 (v11 : FVec F S1600000x128 .f32) (v12 : FVec F S128x64 .f32) : FVec F S1600000x64 .f32 :=
  Host.dotGeneral dot_S1600000x128_S128x64_S1600000x64_1_0_0_1_n_n none v11 v12
/-- The first edge bias as a row. -/
def st_v14 (a5 : FVec F S64 .f32) : FVec F S1x64 .f32 :=
  broadcastInDim S1x64 ![1] bcast_S64_S1x64_1 a5
/-- That row at every edge. -/
def st_v15 (v14 : FVec F S1x64 .f32) : FVec F S1600000x64 .f32 :=
  broadcastInDim S1600000x64 ![0, 1] bcast_S1x64_S1600000x64_0_1 v14
/-- Product plus bias. -/
def st_v16 (v13 v15 : FVec F S1600000x64 .f32) : FVec F S1600000x64 .f32 :=
  addf v13 v15
/-- Its positive part: the first call's result. -/
def st_v17 (v16 : FVec F S1600000x64 .f32) : FVec F S1600000x64 .f32 :=
  maximumf v16 (broadcastInDim S1600000x64 ![] bcast_S_S1600000x64 (constant S_ .f32 0x00000000#32))
/-- The second edge weight, transposed. -/
def st_v18 (a6 : FVec F S64x64 .f32) : FVec F S64x64 .f32 :=
  transpose S64x64 [1, 0] a6 transposes_S64x64_S64x64_1_0
/-- The second edge layer's product. -/
def st_v19 (v17 : FVec F S1600000x64 .f32) (v18 : FVec F S64x64 .f32) : FVec F S1600000x64 .f32 :=
  Host.dotGeneral dot_S1600000x64_S64x64_S1600000x64_1_0_0_1_n_n none v17 v18
/-- The second edge bias as a row. -/
def st_v20 (a7 : FVec F S64 .f32) : FVec F S1x64 .f32 :=
  broadcastInDim S1x64 ![1] bcast_S64_S1x64_1 a7
/-- That row at every edge. -/
def st_v21 (v20 : FVec F S1x64 .f32) : FVec F S1600000x64 .f32 :=
  broadcastInDim S1600000x64 ![0, 1] bcast_S1x64_S1600000x64_0_1 v20
/-- Product plus bias. -/
def st_v22 (v19 v21 : FVec F S1600000x64 .f32) : FVec F S1600000x64 .f32 :=
  addf v19 v21
/-- Its positive part: the edge messages. -/
def st_v23 (v22 : FVec F S1600000x64 .f32) : FVec F S1600000x64 .f32 :=
  maximumf v22 (broadcastInDim S1600000x64 ![] bcast_S_S1600000x64 (constant S_ .f32 0x00000000#32))
/-- The destinations as an E × 1 index table. -/
def st_v25 (v3 : IVec S1600000 32) : IVec S1600000x1 32 :=
  broadcastInDim S1600000x1 ![0] bcast_S1600000_S1600000x1_0 v3
/-- The messages summed into their destination rows, from zero. -/
def st_v26 (v25 : IVec S1600000x1 32) (v23 : FVec F S1600000x64 .f32) : FVec F S100000x64 .f32 :=
  Host.scatterAdd scatter_S100000x64_S1600000x1_S1600000x64_1_0_0_1
    (broadcastInDim S100000x64 ![] bcast_S_S100000x64 (constant S_ .f32 0x00000000#32)) v25 v23
/-- Node row beside its summed messages. -/
def st_v27 (a0 v26 : FVec F S100000x64 .f32) : FVec F S100000x128 .f32 :=
  concatenate S100000x128 1 [⟨S100000x64, a0⟩, ⟨S100000x64, v26⟩] concatenates_S100000x64_S100000x64_S100000x128_d1
/-- The first node weight, transposed. -/
def st_v28 (a8 : FVec F S128x128 .f32) : FVec F S128x128 .f32 :=
  transpose S128x128 [1, 0] a8 transposes_S128x128_S128x128_1_0
/-- The first node layer's product. -/
def st_v29 (v27 : FVec F S100000x128 .f32) (v28 : FVec F S128x128 .f32) : FVec F S100000x128 .f32 :=
  Host.dotGeneral dot_S100000x128_S128x128_S100000x128_1_0_0_1_n_n none v27 v28
/-- The first node bias as a row. -/
def st_v30 (a9 : FVec F S128 .f32) : FVec F S1x128 .f32 :=
  broadcastInDim S1x128 ![1] bcast_S128_S1x128_1 a9
/-- That row at every node. -/
def st_v31 (v30 : FVec F S1x128 .f32) : FVec F S100000x128 .f32 :=
  broadcastInDim S100000x128 ![0, 1] bcast_S1x128_S100000x128_0_1 v30
/-- Product plus bias. -/
def st_v32 (v29 v31 : FVec F S100000x128 .f32) : FVec F S100000x128 .f32 :=
  addf v29 v31
/-- Its positive part: the third call's result. -/
def st_v33 (v32 : FVec F S100000x128 .f32) : FVec F S100000x128 .f32 :=
  maximumf v32 (broadcastInDim S100000x128 ![] bcast_S_S100000x128 (constant S_ .f32 0x00000000#32))
/-- The second node weight, transposed. -/
def st_v34 (a10 : FVec F S128x128 .f32) : FVec F S128x128 .f32 :=
  transpose S128x128 [1, 0] a10 transposes_S128x128_S128x128_1_0
/-- The second node layer's product. -/
def st_v35 (v33 : FVec F S100000x128 .f32) (v34 : FVec F S128x128 .f32) : FVec F S100000x128 .f32 :=
  Host.dotGeneral dot_S100000x128_S128x128_S100000x128_1_0_0_1_n_n none v33 v34
/-- The second node bias as a row. -/
def st_v36 (a11 : FVec F S128 .f32) : FVec F S1x128 .f32 :=
  broadcastInDim S1x128 ![1] bcast_S128_S1x128_1 a11
/-- That row at every node. -/
def st_v37 (v36 : FVec F S1x128 .f32) : FVec F S100000x128 .f32 :=
  broadcastInDim S100000x128 ![0, 1] bcast_S1x128_S100000x128_0_1 v36
/-- Product plus bias. -/
def st_v38 (v35 v37 : FVec F S100000x128 .f32) : FVec F S100000x128 .f32 :=
  addf v35 v37
/-- Plus the skip connection: what is normalised. -/
def st_v39 (v38 v27 : FVec F S100000x128 .f32) : FVec F S100000x128 .f32 :=
  addf v38 v27
/-- The column sums. -/
def st_v40 (v39 : FVec F S100000x128 .f32) : FVec F S128 .f32 :=
  Host.reduceAdd v39 (constant S_ .f32 0x00000000#32) reducesTo_S100000x128_S128_d0 h_S_
/-- The column means. -/
def st_v42 (v40 : FVec F S128 .f32) : FVec F S128 .f32 :=
  Host.divf v40 (broadcastInDim S128 ![] bcast_S_S128 (constant S_ .f32 0x47C35000#32))

/-! The variance function's values, from the array it is called on (`v39`) and the correction `0`. -/

/-- The column sums again. -/
def st_call3_v0 (v39 : FVec F S100000x128 .f32) : FVec F S128 .f32 :=
  Host.reduceAdd v39 (constant S_ .f32 0x00000000#32) reducesTo_S100000x128_S128_d0 h_S_
/-- As a row. -/
def st_call3_v1 (c0 : FVec F S128 .f32) : FVec F S1x128 .f32 :=
  broadcastInDim S1x128 ![1] bcast_S128_S1x128_1 c0
/-- The means, as a row. -/
def st_call3_v3 (c1 : FVec F S1x128 .f32) : FVec F S1x128 .f32 :=
  Host.divf c1 (broadcastInDim S1x128 ![] bcast_S_S1x128 (constant S_ .f32 0x47C35000#32))
/-- The means at every row. -/
def st_call3_v4 (c3 : FVec F S1x128 .f32) : FVec F S100000x128 .f32 :=
  broadcastInDim S100000x128 ![0, 1] bcast_S1x128_S100000x128_0_1 c3
/-- The deviations. -/
def st_call3_v5 (v39 c4 : FVec F S100000x128 .f32) : FVec F S100000x128 .f32 :=
  subf v39 c4
/-- Their squares. -/
def st_call3_v6 (c5 : FVec F S100000x128 .f32) : FVec F S100000x128 .f32 :=
  mulf c5 c5
/-- The correction `0` as a float. -/
def st_call3_v7 : FVec F S_ .f32 :=
  sitofp .f32 (constantI S_ 32 0#32)
/-- The row count less the correction. -/
def st_call3_v8 (c7 : FVec F S_ .f32) : FVec F S_ .f32 :=
  subf (constant S_ .f32 0x47C35000#32) c7
/-- The column sums of the squares. -/
def st_call3_v9 (c6 : FVec F S100000x128 .f32) : FVec F S128 .f32 :=
  Host.reduceAdd c6 (constant S_ .f32 0x00000000#32) reducesTo_S100000x128_S128_d0 h_S_
/-- The divisor at every column. -/
def st_call3_v10 (c8 : FVec F S_ .f32) : FVec F S128 .f32 :=
  broadcastInDim S128 ![] bcast_S_S128 c8
/-- The mean squares. -/
def st_call3_v11 (c9 c10 : FVec F S128 .f32) : FVec F S128 .f32 :=
  Host.divf c9 c10
/-- Whether the divisor is positive. -/
def st_call3_v12 (c8 : FVec F S_ .f32) : IVec S_ 1 :=
  cmpf .ogt c8 (constant S_ .f32 0x00000000#32)
/-- The variance the call returns: the mean squares where the divisor is positive, else not-a-number. -/
def st_v43 (c12 : IVec S_ 1) (c11 : FVec F S128 .f32) : FVec F S128 .f32 :=
  select (broadcastInDim S128 ![] bcast_S_S128 c12) c11
    (broadcastInDim S128 ![] bcast_S_S128 (id (constant S_ .f32 0x7FC00000#32)))

/-! The normalisation. -/

/-- The means as a row. -/
def st_v44 (v42 : FVec F S128 .f32) : FVec F S1x128 .f32 :=
  broadcastInDim S1x128 ![1] bcast_S128_S1x128_1 v42
/-- At every row. -/
def st_v45 (v44 : FVec F S1x128 .f32) : FVec F S100000x128 .f32 :=
  broadcastInDim S100000x128 ![0, 1] bcast_S1x128_S100000x128_0_1 v44
/-- Centred. -/
def st_v46 (v39 v45 : FVec F S100000x128 .f32) : FVec F S100000x128 .f32 :=
  subf v39 v45
/-- Variance plus epsilon. -/
def st_v48 (v43 : FVec F S128 .f32) : FVec F S128 .f32 :=
  addf v43 (broadcastInDim S128 ![] bcast_S_S128 (constant S_ .f32 0x3727C5AC#32))
/-- Its inverse square root. -/
def st_v49 (v48 : FVec F S128 .f32) : FVec F S128 .f32 :=
  Host.rsqrt v48
/-- As a row. -/
def st_v50 (v49 : FVec F S128 .f32) : FVec F S1x128 .f32 :=
  broadcastInDim S1x128 ![1] bcast_S128_S1x128_1 v49
/-- At every row. -/
def st_v51 (v50 : FVec F S1x128 .f32) : FVec F S100000x128 .f32 :=
  broadcastInDim S100000x128 ![0, 1] bcast_S1x128_S100000x128_0_1 v50
/-- Normalised. -/
def st_v52 (v46 v51 : FVec F S100000x128 .f32) : FVec F S100000x128 .f32 :=
  mulf v46 v51
/-- The scale as a row. -/
def st_v53 (a12 : FVec F S128 .f32) : FVec F S1x128 .f32 :=
  broadcastInDim S1x128 ![1] bcast_S128_S1x128_1 a12
/-- At every row. -/
def st_v54 (v53 : FVec F S1x128 .f32) : FVec F S100000x128 .f32 :=
  broadcastInDim S100000x128 ![0, 1] bcast_S1x128_S100000x128_0_1 v53
/-- Scaled. -/
def st_v55 (v52 v54 : FVec F S100000x128 .f32) : FVec F S100000x128 .f32 :=
  mulf v52 v54
/-- The shift as a row. -/
def st_v56 (a13 : FVec F S128 .f32) : FVec F S1x128 .f32 :=
  broadcastInDim S1x128 ![1] bcast_S128_S1x128_1 a13
/-- At every row. -/
def st_v57 (v56 : FVec F S1x128 .f32) : FVec F S100000x128 .f32 :=
  broadcastInDim S100000x128 ![0, 1] bcast_S1x128_S100000x128_0_1 v56
/-- Shifted: the result. -/
def st_v58 (v55 v57 : FVec F S100000x128 .f32) : FVec F S100000x128 .f32 :=
  addf v55 v57

/-! ## The composition

The values met more than once are named as functions of the arguments they depend on; `refOut` is
the result. -/

/-- The source of each edge. -/
def midSrc (a2 : IVec S2x1600000 32) : IVec S1600000 32 := st_v1 (st_v0 a2)
/-- The destination of each edge. -/
def midDst (a2 : IVec S2x1600000 32) : IVec S1600000 32 := st_v3 (st_v2 a2)
/-- The sources, negative ones wrapped. -/
def midIdx (a2 : IVec S2x1600000 32) : IVec S1600000 32 :=
  st_v8 (st_v5 (midSrc a2)) (st_v7 (midSrc a2)) (midSrc a2)
/-- The edge messages (`v23`). -/
def midMsg (a0 : FVec F S100000x64 .f32) (a1 : FVec F S1600000x64 .f32) (a2 : IVec S2x1600000 32)
    (a4 : FVec F S64x128 .f32) (a5 : FVec F S64 .f32) (a6 : FVec F S64x64 .f32) (a7 : FVec F S64 .f32) :
    FVec F S1600000x64 .f32 :=
  st_v23 (st_v22
    (st_v19 (st_v17 (st_v16 (st_v13 (st_v11 (st_v10 a0 (st_v9 (midIdx a2))) a1) (st_v12 a4)) (st_v15 (st_v14 a5))))
      (st_v18 a6))
    (st_v21 (st_v20 a7)))
/-- Node row beside its summed messages (`v27`). -/
def midCat (a0 : FVec F S100000x64 .f32) (a1 : FVec F S1600000x64 .f32) (a2 : IVec S2x1600000 32)
    (a4 : FVec F S64x128 .f32) (a5 : FVec F S64 .f32) (a6 : FVec F S64x64 .f32) (a7 : FVec F S64 .f32) :
    FVec F S100000x128 .f32 :=
  st_v27 a0 (st_v26 (st_v25 (midDst a2)) (midMsg a0 a1 a2 a4 a5 a6 a7))
/-- What the node network leaves of a concatenated array (`v39` from `v27`). -/
def midNode (x27 : FVec F S100000x128 .f32) (a8 : FVec F S128x128 .f32) (a9 : FVec F S128 .f32)
    (a10 : FVec F S128x128 .f32) (a11 : FVec F S128 .f32) : FVec F S100000x128 .f32 :=
  st_v39 (st_v38
    (st_v35 (st_v33 (st_v32 (st_v29 x27 (st_v28 a8)) (st_v31 (st_v30 a9)))) (st_v34 a10))
    (st_v37 (st_v36 a11))) x27
/-- The divisor of the variance: the row count less the correction. -/
def midDiv : FVec F S_ .f32 := st_call3_v8 (st_call3_v7 (F := F))
/-- The variance of an array's columns (`v43` from `v39`). -/
def midVar (x39 : FVec F S100000x128 .f32) : FVec F S128 .f32 :=
  st_v43 (st_call3_v12 (midDiv (F := F)))
    (st_call3_v11
      (st_call3_v9 (st_call3_v6 (st_call3_v5 x39 (st_call3_v4 (st_call3_v3 (st_call3_v1 (st_call3_v0 x39)))))))
      (st_call3_v10 (midDiv (F := F))))
/-- The normalisation of an array by its columns' means and variances, scaled and shifted (`v58` from `v39`). -/
def midNorm (x39 : FVec F S100000x128 .f32) (a12 a13 : FVec F S128 .f32) : FVec F S100000x128 .f32 :=
  st_v58
    (st_v55
      (st_v52 (st_v46 x39 (st_v45 (st_v44 (st_v42 (st_v40 x39)))))
        (st_v51 (st_v50 (st_v49 (st_v48 (midVar x39))))))
      (st_v54 (st_v53 a12)))
    (st_v57 (st_v56 a13))

/-- The reference's result as a function of its fourteen arguments (`a3` is not read). -/
def refOut (a0 : FVec F S100000x64 .f32) (a1 : FVec F S1600000x64 .f32) (a2 : IVec S2x1600000 32) (a3 : IVec S100000 32)
    (a4 : FVec F S64x128 .f32) (a5 : FVec F S64 .f32) (a6 : FVec F S64x64 .f32) (a7 : FVec F S64 .f32)
    (a8 : FVec F S128x128 .f32) (a9 : FVec F S128 .f32) (a10 : FVec F S128x128 .f32) (a11 : FVec F S128 .f32)
    (a12 a13 : FVec F S128 .f32) : FVec F S100000x128 .f32 :=
  midNorm (midNode (midCat a0 a1 a2 a4 a5 a6 a7) a8 a9 a10 a11) a12 a13

/-! ## The program as a straight line -/

/-- @main's ninety-three operations, in order: its own lines, and at each call the callee's lines over that
    call's buffers (the two `relu`s', `relu_0`'s, and `_var`'s nineteen with `_where`'s three at its end). -/
abbrev ops : List (HloOp τ sig (Elt F)) :=
  [ unary main_arg2 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg2 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_c (constantI S_ 32 0#32),
    unary main_c main_v4 (broadcastInDim S1600000 ![] bcast_S_S1600000 : (⟨S_, .i32⟩ : BufTy).Contents (Elt F) → (⟨S1600000, .i32⟩ : BufTy).Contents (Elt F)),
    binary main_v1 main_v4 main_v5 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v6 (broadcastInDim S1600000 ![] bcast_S_S1600000 : (⟨S_, .i32⟩ : BufTy).Contents (Elt F) → (⟨S1600000, .i32⟩ : BufTy).Contents (Elt F)),
    binary main_v1 main_v6 main_v7 (addi : (⟨S1600000, .i32⟩ : BufTy).Contents (Elt F) → (⟨S1600000, .i32⟩ : BufTy).Contents (Elt F) → (⟨S1600000, .i32⟩ : BufTy).Contents (Elt F)),
    ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v8 main_v9 (broadcastInDim S1600000x1 ![0] bcast_S1600000_S1600000x1_0 : (⟨S1600000, .i32⟩ : BufTy).Contents (Elt F) → (⟨S1600000x1, .i32⟩ : BufTy).Contents (Elt F)),
    binary main_arg0 main_v9 main_v10 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    binary main_v10 main_arg1 main_v11 ((fun a b => concatenate S1600000x128 1 [⟨S1600000x64, a⟩, ⟨S1600000x64, b⟩] concatenates_S1600000x64_S1600000x64_S1600000x128_d1) : (⟨S1600000x64, .f32⟩ : BufTy).Contents (Elt F) → (⟨S1600000x64, .f32⟩ : BufTy).Contents (Elt F) → (⟨S1600000x128, .f32⟩ : BufTy).Contents (Elt F)),
    unary main_arg4 main_v12 ((transpose S128x64 [1, 0] · transposes_S64x128_S128x64_1_0) : (⟨S64x128, .f32⟩ : BufTy).Contents (Elt F) → (⟨S128x64, .f32⟩ : BufTy).Contents (Elt F)),
    binary main_v11 main_v12 main_v13 ((fun l r => Host.dotGeneral dot_S1600000x128_S128x64_S1600000x64_1_0_0_1_n_n none l r) : (⟨S1600000x128, .f32⟩ : BufTy).Contents (Elt F) → (⟨S128x64, .f32⟩ : BufTy).Contents (Elt F) → (⟨S1600000x64, .f32⟩ : BufTy).Contents (Elt F)),
    unary main_arg5 main_v14 (broadcastInDim S1x64 ![1] bcast_S64_S1x64_1 : (⟨S64, .f32⟩ : BufTy).Contents (Elt F) → (⟨S1x64, .f32⟩ : BufTy).Contents (Elt F)),
    unary main_v14 main_v15 (broadcastInDim S1600000x64 ![0, 1] bcast_S1x64_S1600000x64_0_1 : (⟨S1x64, .f32⟩ : BufTy).Contents (Elt F) → (⟨S1600000x64, .f32⟩ : BufTy).Contents (Elt F)),
    binary main_v13 main_v15 main_v16 (addf : (⟨S1600000x64, .f32⟩ : BufTy).Contents (Elt F) → (⟨S1600000x64, .f32⟩ : BufTy).Contents (Elt F) → (⟨S1600000x64, .f32⟩ : BufTy).Contents (Elt F)),
    TRef.nullary main_call0.cst (constant S_ .f32 0x00000000#32),
    TRef.unary main_call0.cst main_call0.v0 (broadcastInDim S1600000x64 ![] bcast_S_S1600000x64),
    TRef.binary (.of main_v16 : TRef sig ⟨S1600000x64, .f32⟩) main_call0.v0 main_call0.v1 maximumf,
    unary main_arg6 main_v18 ((transpose S64x64 [1, 0] · transposes_S64x64_S64x64_1_0) : (⟨S64x64, .f32⟩ : BufTy).Contents (Elt F) → (⟨S64x64, .f32⟩ : BufTy).Contents (Elt F)),
    binary main_v17 main_v18 main_v19 ((fun l r => Host.dotGeneral dot_S1600000x64_S64x64_S1600000x64_1_0_0_1_n_n none l r) : (⟨S1600000x64, .f32⟩ : BufTy).Contents (Elt F) → (⟨S64x64, .f32⟩ : BufTy).Contents (Elt F) → (⟨S1600000x64, .f32⟩ : BufTy).Contents (Elt F)),
    unary main_arg7 main_v20 (broadcastInDim S1x64 ![1] bcast_S64_S1x64_1 : (⟨S64, .f32⟩ : BufTy).Contents (Elt F) → (⟨S1x64, .f32⟩ : BufTy).Contents (Elt F)),
    unary main_v20 main_v21 (broadcastInDim S1600000x64 ![0, 1] bcast_S1x64_S1600000x64_0_1 : (⟨S1x64, .f32⟩ : BufTy).Contents (Elt F) → (⟨S1600000x64, .f32⟩ : BufTy).Contents (Elt F)),
    binary main_v19 main_v21 main_v22 (addf : (⟨S1600000x64, .f32⟩ : BufTy).Contents (Elt F) → (⟨S1600000x64, .f32⟩ : BufTy).Contents (Elt F) → (⟨S1600000x64, .f32⟩ : BufTy).Contents (Elt F)),
    TRef.nullary main_call1.cst (constant S_ .f32 0x00000000#32),
    TRef.unary main_call1.cst main_call1.v0 (broadcastInDim S1600000x64 ![] bcast_S_S1600000x64),
    TRef.binary (.of main_v22 : TRef sig ⟨S1600000x64, .f32⟩) main_call1.v0 main_call1.v1 maximumf,
    nullary main_cst (constant S_ .f32 0x00000000#32),
    unary main_cst main_v24 (broadcastInDim S100000x64 ![] bcast_S_S100000x64 : (⟨S_, .f32⟩ : BufTy).Contents (Elt F) → (⟨S100000x64, .f32⟩ : BufTy).Contents (Elt F)),
    unary main_v3 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    binary main_arg0 main_v26 main_v27 ((fun a b => concatenate S100000x128 1 [⟨S100000x64, a⟩, ⟨S100000x64, b⟩] concatenates_S100000x64_S100000x64_S100000x128_d1) : (⟨S100000x64, .f32⟩ : BufTy).Contents (Elt F) → (⟨S100000x64, .f32⟩ : BufTy).Contents (Elt F) → (⟨S100000x128, .f32⟩ : BufTy).Contents (Elt F)),
    unary main_arg8 main_v28 ((transpose S128x128 [1, 0] · transposes_S128x128_S128x128_1_0) : (⟨S128x128, .f32⟩ : BufTy).Contents (Elt F) → (⟨S128x128, .f32⟩ : BufTy).Contents (Elt F)),
    binary main_v27 main_v28 main_v29 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg9 main_v30 (broadcastInDim S1x128 ![1] bcast_S128_S1x128_1 : (⟨S128, .f32⟩ : BufTy).Contents (Elt F) → (⟨S1x128, .f32⟩ : BufTy).Contents (Elt F)),
    unary main_v30 main_v31 (broadcastInDim S100000x128 ![0, 1] bcast_S1x128_S100000x128_0_1 : (⟨S1x128, .f32⟩ : BufTy).Contents (Elt F) → (⟨S100000x128, .f32⟩ : BufTy).Contents (Elt F)),
    binary main_v29 main_v31 main_v32 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v32 : TRef sig ⟨S100000x128, .f32⟩) main_call2.v0 main_call2.v1 maximumf,
    unary main_arg10 main_v34 ((transpose S128x128 [1, 0] · transposes_S128x128_S128x128_1_0) : (⟨S128x128, .f32⟩ : BufTy).Contents (Elt F) → (⟨S128x128, .f32⟩ : BufTy).Contents (Elt F)),
    binary main_v33 main_v34 main_v35 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg11 main_v36 (broadcastInDim S1x128 ![1] bcast_S128_S1x128_1 : (⟨S128, .f32⟩ : BufTy).Contents (Elt F) → (⟨S1x128, .f32⟩ : BufTy).Contents (Elt F)),
    unary main_v36 main_v37 (broadcastInDim S100000x128 ![0, 1] bcast_S1x128_S100000x128_0_1 : (⟨S1x128, .f32⟩ : BufTy).Contents (Elt F) → (⟨S100000x128, .f32⟩ : BufTy).Contents (Elt F)),
    binary main_v35 main_v37 main_v38 (addf : (⟨S100000x128, .f32⟩ : BufTy).Contents (Elt F) → (⟨S100000x128, .f32⟩ : BufTy).Contents (Elt F) → (⟨S100000x128, .f32⟩ : BufTy).Contents (Elt F)),
    binary main_v38 main_v27 main_v39 (addf : (⟨S100000x128, .f32⟩ : BufTy).Contents (Elt F) → (⟨S100000x128, .f32⟩ : BufTy).Contents (Elt F) → (⟨S100000x128, .f32⟩ : BufTy).Contents (Elt F)),
    nullary main_cst_1 (constant S_ .f32 0x00000000#32),
    binary main_v39 main_cst_1 main_v40 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    nullary main_cst_2 (constant S_ .f32 0x47C35000#32),
    unary main_cst_2 main_v41 (broadcastInDim S128 ![] bcast_S_S128 : (⟨S_, .f32⟩ : BufTy).Contents (Elt F) → (⟨S128, .f32⟩ : BufTy).Contents (Elt F)),
    binary main_v40 main_v41 main_v42 (Host.divf : (⟨S128, .f32⟩ : BufTy).Contents (Elt F) → (⟨S128, .f32⟩ : BufTy).Contents (Elt F) → (⟨S128, .f32⟩ : BufTy).Contents (Elt F)),
    nullary main_c_3 (constantI S_ 32 0#32),
    TRef.nullary main_call3.cst (constant S_ .f32 0x00000000#32),
    TRef.binary (.of main_v39 : TRef sig ⟨S100000x128, .f32⟩) main_call3.cst main_call3.v0 (fun x v => Host.reduceAdd x v reducesTo_S100000x128_S128_d0 h_S_),
    TRef.unary main_call3.v0 main_call3.v1 (broadcastInDim S1x128 ![1] bcast_S128_S1x128_1),
    TRef.nullary main_call3.cst_0 (constant S_ .f32 0x47C35000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S100000x128 ![0, 1] bcast_S1x128_S100000x128_0_1),
    TRef.binary (.of main_v39 : TRef sig ⟨S100000x128, .f32⟩) main_call3.v4 main_call3.v5 subf,
    TRef.binary main_call3.v5 main_call3.v5 main_call3.v6 mulf,
    TRef.unary (.of main_c_3 : TRef sig ⟨S_, .i32⟩) main_call3.v7 (sitofp .f32),
    TRef.nullary main_call3.cst_1 (constant S_ .f32 0x47C35000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S100000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v42 main_v44 (broadcastInDim S1x128 ![1] bcast_S128_S1x128_1 : (⟨S128, .f32⟩ : BufTy).Contents (Elt F) → (⟨S1x128, .f32⟩ : BufTy).Contents (Elt F)),
    unary main_v44 main_v45 (broadcastInDim S100000x128 ![0, 1] bcast_S1x128_S100000x128_0_1 : (⟨S1x128, .f32⟩ : BufTy).Contents (Elt F) → (⟨S100000x128, .f32⟩ : BufTy).Contents (Elt F)),
    binary main_v39 main_v45 main_v46 (subf : (⟨S100000x128, .f32⟩ : BufTy).Contents (Elt F) → (⟨S100000x128, .f32⟩ : BufTy).Contents (Elt F) → (⟨S100000x128, .f32⟩ : BufTy).Contents (Elt F)),
    nullary main_cst_4 (constant S_ .f32 0x3727C5AC#32),
    unary main_cst_4 main_v47 (broadcastInDim S128 ![] bcast_S_S128 : (⟨S_, .f32⟩ : BufTy).Contents (Elt F) → (⟨S128, .f32⟩ : BufTy).Contents (Elt F)),
    binary main_v43 main_v47 main_v48 (addf : (⟨S128, .f32⟩ : BufTy).Contents (Elt F) → (⟨S128, .f32⟩ : BufTy).Contents (Elt F) → (⟨S128, .f32⟩ : BufTy).Contents (Elt F)),
    unary main_v48 main_v49 (Host.rsqrt : (⟨S128, .f32⟩ : BufTy).Contents (Elt F) → (⟨S128, .f32⟩ : BufTy).Contents (Elt F)),
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v46 main_v51 main_v52 (mulf : (⟨S100000x128, .f32⟩ : BufTy).Contents (Elt F) → (⟨S100000x128, .f32⟩ : BufTy).Contents (Elt F) → (⟨S100000x128, .f32⟩ : BufTy).Contents (Elt F)),
    unary main_arg12 main_v53 (broadcastInDim S1x128 ![1] bcast_S128_S1x128_1 : (⟨S128, .f32⟩ : BufTy).Contents (Elt F) → (⟨S1x128, .f32⟩ : BufTy).Contents (Elt F)),
    unary main_v53 main_v54 (broadcastInDim S100000x128 ![0, 1] bcast_S1x128_S100000x128_0_1 : (⟨S1x128, .f32⟩ : BufTy).Contents (Elt F) → (⟨S100000x128, .f32⟩ : BufTy).Contents (Elt F)),
    binary main_v52 main_v54 main_v55 (mulf : (⟨S100000x128, .f32⟩ : BufTy).Contents (Elt F) → (⟨S100000x128, .f32⟩ : BufTy).Contents (Elt F) → (⟨S100000x128, .f32⟩ : BufTy).Contents (Elt F)),
    unary main_arg13 main_v56 (broadcastInDim S1x128 ![1] bcast_S128_S1x128_1 : (⟨S128, .f32⟩ : BufTy).Contents (Elt F) → (⟨S1x128, .f32⟩ : BufTy).Contents (Elt F)),
    unary main_v56 main_v57 (broadcastInDim S100000x128 ![0, 1] bcast_S1x128_S100000x128_0_1 : (⟨S1x128, .f32⟩ : BufTy).Contents (Elt F) → (⟨S100000x128, .f32⟩ : BufTy).Contents (Elt F)),
    binary main_v55 main_v57 main_v58 (addf : (⟨S100000x128, .f32⟩ : BufTy).Contents (Elt F) → (⟨S100000x128, .f32⟩ : BufTy).Contents (Elt F) → (⟨S100000x128, .f32⟩ : BufTy).Contents (Elt F)) ]

-- ninety-three binds re-associated: the rewrite under the chain recurses once per statement
set_option maxRecDepth 4096 in
set_option maxHeartbeats 4000000 in
/-- @main is that straight line: its two windows and the four functions' definitions unfolded at their calls, both
    sides are one chain of host steps once sequencing is reassociated. -/
theorem main_eq (c : Dev nD) : main (F := F) c = seq ops := by
  simp only [main, main_part0, main_part1, fn_relu.body, fn_relu_0.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., binary_bufs_sub .., unary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., unary_bufs_sub .., ternary_bufs_sub .., binary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub .., unary_bufs_sub ..,
    unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub ..⟩

/-! ## The arguments are not written -/

/-- The references the line writes: one per operation, each of the ninety-three buffers that is no argument. -/
abbrev opsW : List (Ref sig .tc) :=
  [main_v0, main_v1, main_v2, main_v3, main_c, main_v4, main_v5, main_c_0, main_v6, main_v7,
   main_v8, main_v9, main_v10, main_v11, main_v12, main_v13, main_v14, main_v15, main_v16, main_call0_cst,
   main_call0_v0, main_v17, main_v18, main_v19, main_v20, main_v21, main_v22, main_call1_cst, main_call1_v0, main_v23,
   main_cst, main_v24, main_v25, main_v26, main_v27, main_v28, main_v29, main_v30, main_v31, main_v32,
   main_call2_cst, main_call2_v0, main_v33, main_v34, main_v35, main_v36, main_v37, main_v38, main_v39, main_cst_1,
   main_v40, main_cst_2, main_v41, main_v42, main_c_3, main_call3_cst, main_call3_v0, main_call3_v1, main_call3_cst_0, main_call3_v2,
   main_call3_v3, main_call3_v4, main_call3_v5, main_call3_v6, main_call3_v7, main_call3_cst_1, main_call3_v8, main_call3_cst_2, main_call3_v9, main_call3_v10,
   main_call3_v11, main_call3_cst_3, main_call3_v12, main_call3_cst_4, main_call3_call0_v0, main_call3_call0_v1, main_v43, main_v44, main_v45, main_v46,
   main_cst_4, main_v47, main_v48, main_v49, main_v50, main_v51, main_v52, main_v53, main_v54, main_v55,
   main_v56, main_v57, main_v58]

set_option maxRecDepth 8192 in
set_option maxHeartbeats 4000000 in
theorem ops_writes : (ops : List (HloOp τ sig (Elt F))).Forall fun op =>
    op.writes ⊆ (opsW.map (Proc.devRef (τ := τ) .tc)).toFinset := by
  simp only [List.Forall, nullary_writes, unary_writes, binary_writes, ternary_writes, reshape_writes,
    Finset.singleton_subset_iff, List.mem_toFinset]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    exact List.mem_map_of_mem (by decide)

/-- A reference outside that list keeps its contents through the line. -/
theorem arg_eq (V : Valuation τ sig (Elt F)) (r : Ref sig .tc) (h : r ∉ opsW) :
    after ops V (Proc.devRef .tc r) = V (Proc.devRef .tc r) :=
  after_of_writes_sub ops V ops_writes h

/-! ## What the line leaves, window by window

The line is read in three stretches, cut where a single computed buffer is still to be read: after the thirty-fifth
operation only `v27` (node row beside summed messages), after the forty-ninth only `v39` (the array that is normalised). -/

/-- A line run in two parts. -/
theorem after_app (l₁ l₂ : List (HloOp τ sig (Elt F))) (V : Valuation τ sig (Elt F)) :
    after (l₁ ++ l₂) V = after l₂ (after l₁ V) := by
  induction l₁ generalizing V with
  | nil => rfl
  | cons op l ih => rw [List.cons_append, after_cons, after_cons, ih]

/-- The three stretches run one after the other are the line. -/
theorem after_split (V : Valuation τ sig (Elt F)) :
    after ops V = after (ops.drop 49) (after ((ops.drop 35).take 14) (after (ops.take 35) V)) := by
  rw [← after_app, ← after_app]
  rfl

attribute [local irreducible] Host.reduceAdd Host.gather Host.scatterAdd in
set_option maxRecDepth 16384 in
set_option maxHeartbeats 16000000 in
/-- The first stretch leaves `v27` at the concatenation of the node rows and the summed messages. -/
theorem win1 (V : Valuation τ sig (Elt F)) :
    after (ops.take 35) V (Proc.devRef .tc main_v27)
      = midCat (V (Proc.devRef .tc main_arg0)) (V (Proc.devRef .tc main_arg1)) (V (Proc.devRef .tc main_arg2))
          (V (Proc.devRef .tc main_arg4)) (V (Proc.devRef .tc main_arg5)) (V (Proc.devRef .tc main_arg6))
          (V (Proc.devRef .tc main_arg7)) := by
  simp only [ops, List.take_succ_cons, List.take_zero]
  after_results_simp
  rfl

attribute [local irreducible] Host.reduceAdd Host.gather Host.scatterAdd in
set_option maxRecDepth 16384 in
set_option maxHeartbeats 16000000 in
/-- The second stretch leaves `v39` at the node network of what it finds in `v27`. -/
theorem win2 (V : Valuation τ sig (Elt F)) :
    after ((ops.drop 35).take 14) V (Proc.devRef .tc main_v39)
      = midNode (V (Proc.devRef .tc main_v27)) (V (Proc.devRef .tc main_arg8)) (V (Proc.devRef .tc main_arg9))
          (V (Proc.devRef .tc main_arg10)) (V (Proc.devRef .tc main_arg11)) := by
  simp only [ops, List.drop_succ_cons, List.drop_zero, List.take_succ_cons, List.take_zero]
  after_results_simp
  rfl

attribute [local irreducible] Host.reduceAdd Host.gather Host.scatterAdd in
set_option maxRecDepth 16384 in
set_option maxHeartbeats 16000000 in
/-- The third stretch leaves the result at the normalisation of what it finds in `v39`. -/
theorem win3 (V : Valuation τ sig (Elt F)) :
    after (ops.drop 49) V (Proc.devRef .tc main_v58)
      = midNorm (V (Proc.devRef .tc main_v39)) (V (Proc.devRef .tc main_arg12)) (V (Proc.devRef .tc main_arg13)) := by
  simp only [ops, List.drop_succ_cons, List.drop_zero]
  after_results_simp
  rfl

/-- A stretch of the line writes only what the line writes. -/
theorem writes_of_sub {l : List (HloOp τ sig (Elt F))} (h : ∀ op ∈ l, op ∈ (ops : List (HloOp τ sig (Elt F)))) :
    l.Forall fun op => op.writes ⊆ (opsW.map (Proc.devRef (τ := τ) .tc)).toFinset :=
  List.forall_iff_forall_mem.mpr fun op hop => List.forall_iff_forall_mem.mp ops_writes op (h op hop)

/-- The first stretch leaves an argument as it found it. -/
theorem keep1 (V : Valuation τ sig (Elt F)) (r : Ref sig .tc) (h : r ∉ opsW) :
    after (ops.take 35) V (Proc.devRef .tc r) = V (Proc.devRef .tc r) :=
  after_of_writes_sub _ V (writes_of_sub fun _ ho => List.mem_of_mem_take ho) h

/-- So does the second. -/
theorem keep2 (V : Valuation τ sig (Elt F)) (r : Ref sig .tc) (h : r ∉ opsW) :
    after ((ops.drop 35).take 14) V (Proc.devRef .tc r) = V (Proc.devRef .tc r) :=
  after_of_writes_sub _ V (writes_of_sub fun _ ho => List.mem_of_mem_drop (List.mem_of_mem_take ho)) h

set_option maxRecDepth 8192 in
/-- The result buffer after the whole line: the three stretches' values composed, the arguments read through the
    stretches that do not write them. -/
theorem out_eq (V : Valuation τ sig (Elt F)) :
    after ops V (Proc.devRef .tc main_v58)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) := by
  rw [after_split, win3, win2, win1,
    keep2 _ main_arg12 (by decide), keep1 _ main_arg12 (by decide),
    keep2 _ main_arg13 (by decide), keep1 _ main_arg13 (by decide),
    keep1 _ main_arg8 (by decide), keep1 _ main_arg9 (by decide),
    keep1 _ main_arg10 (by decide), keep1 _ main_arg11 (by decide)]
  rfl

/-! ## The run -/

set_option maxRecDepth 8192 in
set_option maxHeartbeats 4000000 in
/-- From any memory with zero counters, every weakly fair execution of the reference terminates with the result buffer
    at `refOut` of the fourteen arguments' launch contents and every argument as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v58)
        = refOut (F := Ideal) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
            (m ((c.tc : Thread nD τ).loc main_arg10)) (m ((c.tc : Thread nD τ).loc main_arg11))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(h c main_v58).trans (out_eq (launchContents m c)),
      (h c main_arg0).trans (arg_eq (launchContents m c) main_arg0 (by decide)),
      (h c main_arg1).trans (arg_eq (launchContents m c) main_arg1 (by decide)),
      (h c main_arg2).trans (arg_eq (launchContents m c) main_arg2 (by decide)),
      (h c main_arg3).trans (arg_eq (launchContents m c) main_arg3 (by decide)),
      (h c main_arg4).trans (arg_eq (launchContents m c) main_arg4 (by decide)),
      (h c main_arg5).trans (arg_eq (launchContents m c) main_arg5 (by decide)),
      (h c main_arg6).trans (arg_eq (launchContents m c) main_arg6 (by decide)),
      (h c main_arg7).trans (arg_eq (launchContents m c) main_arg7 (by decide)),
      (h c main_arg8).trans (arg_eq (launchContents m c) main_arg8 (by decide)),
      (h c main_arg9).trans (arg_eq (launchContents m c) main_arg9 (by decide)),
      (h c main_arg10).trans (arg_eq (launchContents m c) main_arg10 (by decide)),
      (h c main_arg11).trans (arg_eq (launchContents m c) main_arg11 (by decide)),
      (h c main_arg12).trans (arg_eq (launchContents m c) main_arg12 (by decide)),
      (h c main_arg13).trans (arg_eq (launchContents m c) main_arg13 (by decide))⟩)
    (run_seq scopedRefs_eq scopedSems_eq defs main (fun _ => ops) main_eq (fun _ => ops_sub) m ρ)

end Cert.ReferenceIdeal.Hand

end
-- ==== Proof.Spec.lean ====
/-
  The mathematics both programs compute, index by index over the extended reals, on literal shapes.

  A graph layer on N = 100000 nodes and E = 1600000 edges:
    msg   (edge e, unit j)  : relu( Σ_k relu( Σ_l xs[e,l]·W0[k,l] + Σ_l ef[e,l]·W0[k,64+l] + b0[k] ) · W1[j,k] + b1[j] )
    z     (node r, l<128)   : x[r,l] for l < 64, agg[r,l−64] otherwise   (agg: the messages summed into their target nodes)
    opre  (node r, unit j)  : Σ_k relu( Σ_l z[r,l]·U0[k,l] + c0[k] ) · U1[j,k] + c1[j] + z[r,j]
    then batch normalisation over the node axis with the biased variance:
    out[r,j] = (opre[r,j] − mean[j]) · rsqrt(var[j] + ε) · γ[j] + β[j].
  One program takes the variance as E[o²] − E[o]², the other as E[(o − E[o])²]; they agree where every o[r,j] is a
  real number (var_eq), which is the only place finiteness of the inputs is used.
-/
import Idealize.ShloMosaic.PureOps.Ideal
import Idealize.ShloMosaic.Lib.ValueIdx

noncomputable section

open scoped BigOperators

namespace Cert.Spec

open Idealize.ShloMosaic Idealize.ShloMosaic.ValueIdx

abbrev SE64 : Shape := ⟨2, ![1600000, 64]⟩
abbrev SN64 : Shape := ⟨2, ![100000, 64]⟩
abbrev SN128 : Shape := ⟨2, ![100000, 128]⟩
abbrev T64x128 : Shape := ⟨2, ![64, 128]⟩
abbrev T64x64 : Shape := ⟨2, ![64, 64]⟩
abbrev T128x128 : Shape := ⟨2, ![128, 128]⟩
abbrev T1x64 : Shape := ⟨2, ![1, 64]⟩
abbrev T1x128 : Shape := ⟨2, ![1, 128]⟩
abbrev T64 : Shape := ⟨1, ![64]⟩
abbrev T128 : Shape := ⟨1, ![128]⟩

/-- The number of nodes, as the float constant both programs divide by. -/
abbrev cN : EReal := Ideal.ofBits .f32 0x47C35000#32
/-- The variance's ε, as the float constant both programs add. -/
abbrev cEps : EReal := Ideal.ofBits .f32 0x3727C5AC#32

/-! ## Arguments in the forms the programs hand them on -/

/-- A length-n vector as a 1×n row. -/
def row {n : Nat} (a : (⟨1, ![n]⟩ : Shape).Idx → EReal) : (⟨2, ![1, n]⟩ : Shape).Idx → EReal := fun i => a (ix1 (i 1))
theorem row_apply {n : Nat} (a : (⟨1, ![n]⟩ : Shape).Idx → EReal) (z : Fin 1) (k : Fin n) : row a (ix2 z k) = a (ix1 k) := rfl

/-- The first 64 columns of the 64×128 first-layer weight matrix (those that meet the source node's features). -/
def lo (w : T64x128.Idx → EReal) : T64x64.Idx → EReal := fun i => w (ix2 (i 0) (Fin.castAdd 64 (i 1)))
/-- Its last 64 columns (those that meet the edge's features). -/
def hi (w : T64x128.Idx → EReal) : T64x64.Idx → EReal := fun i => w (ix2 (i 0) (Fin.natAdd 64 (i 1)))
theorem lo_apply (w : T64x128.Idx → EReal) (k l : Fin 64) : lo w (ix2 k l) = w (ix2 k (Fin.castAdd 64 l)) := rfl
theorem hi_apply (w : T64x128.Idx → EReal) (k l : Fin 64) : hi w (ix2 k l) = w (ix2 k (Fin.natAdd 64 l)) := rfl

/-! ## The edge messages -/

/-- First message layer at edge e, unit k, the first weight matrix given as its two 64-column halves and the
    bias as a row. -/
def msg0 (xs ef : SE64.Idx → EReal) (wx we : T64x64.Idx → EReal) (b0 : T1x64.Idx → EReal) (e : Fin 1600000) (k : Fin 64) : EReal :=
  max (((∑ l : Fin 64, xs (ix2 e l) * wx (ix2 k l)) + (∑ l : Fin 64, ef (ix2 e l) * we (ix2 k l))) + b0 (ix2 0 k)) 0

/-- Second message layer at edge e, unit j. -/
def msg1 (y0 : Fin 1600000 → Fin 64 → EReal) (w1 : T64x64.Idx → EReal) (b1 : T1x64.Idx → EReal) (e : Fin 1600000) (j : Fin 64) : EReal :=
  max ((∑ k : Fin 64, y0 e k * w1 (ix2 j k)) + b1 (ix2 0 j)) 0

/-- The message array. -/
def msgArr (xs ef : SE64.Idx → EReal) (wx we : T64x64.Idx → EReal) (b0 : T1x64.Idx → EReal) (w1 : T64x64.Idx → EReal) (b1 : T1x64.Idx → EReal) : SE64.Idx → EReal :=
  fun i => msg1 (msg0 xs ef wx we b0) w1 b1 (i 0) (i 1)

theorem msgArr_apply (xs ef : SE64.Idx → EReal) (wx we : T64x64.Idx → EReal) (b0 : T1x64.Idx → EReal) (w1 : T64x64.Idx → EReal) (b1 : T1x64.Idx → EReal)
    (e : Fin 1600000) (j : Fin 64) : msgArr xs ef wx we b0 w1 b1 (ix2 e j) = msg1 (msg0 xs ef wx we b0) w1 b1 e j := rfl

/-! ## The node update -/

/-- A node's features beside its aggregated messages: column l of the 128. -/
def zcat (x agg : SN64.Idx → EReal) (r : Fin 100000) (l : Fin 128) : EReal :=
  if h : l.val < 64 then x (ix2 r ⟨l.val, h⟩) else agg (ix2 r ⟨l.val - 64, by omega⟩)

/-- The update network's hidden layer at node r, unit k. -/
def hid (x agg : SN64.Idx → EReal) (u0 : T128x128.Idx → EReal) (c0 : T1x128.Idx → EReal) (r : Fin 100000) (k : Fin 128) : EReal :=
  max ((∑ l : Fin 128, zcat x agg r l * u0 (ix2 k l)) + c0 (ix2 0 k)) 0

/-- The update network's output plus the residual, at node r, unit j: what is normalised. -/
def opre (x agg : SN64.Idx → EReal) (u0 : T128x128.Idx → EReal) (c0 : T1x128.Idx → EReal) (u1 : T128x128.Idx → EReal) (c1 : T1x128.Idx → EReal)
    (r : Fin 100000) (j : Fin 128) : EReal :=
  ((∑ k : Fin 128, hid x agg u0 c0 r k * u1 (ix2 j k)) + c1 (ix2 0 j)) + zcat x agg r j

def opreArr (x agg : SN64.Idx → EReal) (u0 : T128x128.Idx → EReal) (c0 : T1x128.Idx → EReal) (u1 : T128x128.Idx → EReal) (c1 : T1x128.Idx → EReal) : SN128.Idx → EReal :=
  fun i => opre x agg u0 c0 u1 c1 (i 0) (i 1)

theorem opreArr_apply (x agg : SN64.Idx → EReal) (u0 : T128x128.Idx → EReal) (c0 : T1x128.Idx → EReal) (u1 : T128x128.Idx → EReal) (c1 : T1x128.Idx → EReal)
    (r : Fin 100000) (j : Fin 128) : opreArr x agg u0 c0 u1 c1 (ix2 r j) = opre x agg u0 c0 u1 c1 r j := rfl

/-! ## Column statistics and the normalisation -/

/-- Column sums of an N×128 array, as a 1×128 row. -/
def colSum (o : SN128.Idx → EReal) : T1x128.Idx → EReal := fun i => ∑ r : Fin 100000, o (ix2 r (i 1))
/-- Column sums of squares. -/
def colSumSq (o : SN128.Idx → EReal) : T1x128.Idx → EReal := fun i => ∑ r : Fin 100000, o (ix2 r (i 1)) * o (ix2 r (i 1))

theorem colSum_apply (o : SN128.Idx → EReal) (j : Fin 128) : colSum o (ix2 0 j) = ∑ r : Fin 100000, o (ix2 r j) := rfl
theorem colSumSq_apply (o : SN128.Idx → EReal) (j : Fin 128) : colSumSq o (ix2 0 j) = ∑ r : Fin 100000, o (ix2 r j) * o (ix2 r j) := rfl

/-- The mean as the kernel's host code takes it: the column sum over N. -/
def meanK (s1 : T1x128.Idx → EReal) : T1x128.Idx → EReal := fun i => Ideal.div (s1 i) cN
/-- The variance as the kernel's host code takes it: E[o²] − E[o]². -/
def varK (s1 s2 : T1x128.Idx → EReal) : T1x128.Idx → EReal := fun i => Ideal.div (s2 i) cN - meanK s1 i * meanK s1 i

/-- The normalisation of one entry given the column's mean and variance (rows γ, β). -/
def bn (o : SN128.Idx → EReal) (mean var g b : T1x128.Idx → EReal) : SN128.Idx → EReal :=
  fun i => (o i - mean (ix2 0 (i 1))) * Ideal.rsqrt (var (ix2 0 (i 1)) + cEps) * g (ix2 0 (i 1)) + b (ix2 0 (i 1))

theorem bn_apply (o : SN128.Idx → EReal) (mean var g b : T1x128.Idx → EReal) (r : Fin 100000) (j : Fin 128) :
    bn o mean var g b (ix2 r j) = (o (ix2 r j) - mean (ix2 0 j)) * Ideal.rsqrt (var (ix2 0 j) + cEps) * g (ix2 0 j) + b (ix2 0 j) := rfl

/-- The kernel program's result from the pre-normalisation array: statistics by E[o²] − E[o]². -/
def finalK (o : SN128.Idx → EReal) (g b : T1x128.Idx → EReal) : SN128.Idx → EReal :=
  bn o (meanK (colSum o)) (varK (colSum o) (colSumSq o)) g b

/-- The mean as the reference takes it (its sum starts from the constant 0). -/
def meanR (o : SN128.Idx → EReal) : T1x128.Idx → EReal := fun i => Ideal.div (0 + ∑ r : Fin 100000, o (ix2 r (i 1))) cN
/-- The variance as the reference takes it: the mean of the squared deviations, the divisor N − 0. -/
def varR (o : SN128.Idx → EReal) (n0 : EReal) : T1x128.Idx → EReal :=
  fun i => Ideal.div (0 + ∑ r : Fin 100000, (o (ix2 r (i 1)) - meanR o i) * (o (ix2 r (i 1)) - meanR o i)) (cN - n0)

/-- The reference's result from the pre-normalisation array. -/
def finalR (o : SN128.Idx → EReal) (g b : T1x128.Idx → EReal) : SN128.Idx → EReal :=
  bn o (meanR o) (varR o 0) g b

/-- An array all of whose entries are real numbers. -/
def AllReal {s : Shape} (a : s.Idx → EReal) : Prop := ∀ i, ∃ r : ℝ, a i = (r : EReal)

end Cert.Spec

end
-- ==== Proof.KIVal0.lean ====
/- Region 0's output array at the exact instance: the edge messages, index by index. -/
import proofs.«153742_j79508434583745_1_alg».proof.Proof.KIData
import proofs.«153742_j79508434583745_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

namespace Val0

/-! ## A 6400×64 by 64×64 product at an index -/

/-- The left operand's row coordinate is the output's row. -/
theorem mm_lhs_0 (i : S6400x64.Idx) (q : dot_S6400x64_S64x64_S6400x64_1_0_0_1_n_n.contr.Idx) :
    (dot_S6400x64_S64x64_S6400x64_1_0_0_1_n_n.lhsIdx i q 0).val = (i 0).val := by
  unfold DotDims.lhsIdx
  rw [dif_neg (show ¬(0 : Fin S6400x64.rank) ∈ dot_S6400x64_S64x64_S6400x64_1_0_0_1_n_n.lhsBatch by decide),
    dif_pos (show (0 : Fin S6400x64.rank) ∈ dot_S6400x64_S64x64_S6400x64_1_0_0_1_n_n.lhsNonContracting by decide)]
  rfl

/-- The left operand's column coordinate is the summation position. -/
theorem mm_lhs_1 (i : S6400x64.Idx) (q : dot_S6400x64_S64x64_S6400x64_1_0_0_1_n_n.contr.Idx) :
    (dot_S6400x64_S64x64_S6400x64_1_0_0_1_n_n.lhsIdx i q 1).val = (q ⟨0, by decide⟩).val :=
  dot_S6400x64_S64x64_S6400x64_1_0_0_1_n_n.lhsIdx_val_of_single rfl i q

/-- The right operand's row coordinate is the summation position. -/
theorem mm_rhs_0 (i : S6400x64.Idx) (q : dot_S6400x64_S64x64_S6400x64_1_0_0_1_n_n.contr.Idx) :
    (dot_S6400x64_S64x64_S6400x64_1_0_0_1_n_n.rhsIdx i q 0).val = (q ⟨0, by decide⟩).val :=
  dot_S6400x64_S64x64_S6400x64_1_0_0_1_n_n.rhsIdx_val_of_single rfl i q

/-- The right operand's column coordinate is the output's column. -/
theorem mm_rhs_1 (i : S6400x64.Idx) (q : dot_S6400x64_S64x64_S6400x64_1_0_0_1_n_n.contr.Idx) :
    (dot_S6400x64_S64x64_S6400x64_1_0_0_1_n_n.rhsIdx i q 1).val = (i 1).val := by
  unfold DotDims.rhsIdx
  rw [dif_neg (show ¬(1 : Fin S64x64.rank) ∈ dot_S6400x64_S64x64_S6400x64_1_0_0_1_n_n.rhsBatch by decide),
    dif_pos (show (1 : Fin S64x64.rank) ∈ dot_S6400x64_S64x64_S6400x64_1_0_0_1_n_n.rhsNonContracting by decide)]
  rfl

/-- The product into the zero accumulator, entry (p, q): the sum over the shared axis of the entries' products. -/
theorem mm_apply (A : FVec Ideal S6400x64 .bf16) (B : FVec Ideal S64x64 .bf16) (p : Fin 6400) (q : Fin 64) :
    matmul dot_S6400x64_S64x64_S6400x64_1_0_0_1_n_n none A B (constant (F := Ideal) S6400x64 .f32 0x00000000#32) (ix2 p q)
      = ∑ k : Fin 64, A (ix2 p k) * B (ix2 k q) := by
  show FloatOps.matmul dot_S6400x64_S64x64_S6400x64_1_0_0_1_n_n none A B (constant (F := Ideal) S6400x64 .f32 0x00000000#32) (ix2 p q) = _
  rw [Ideal.matmul_constant_zero_apply,
    ← Equiv.sum_comp (contrEquiv1 dot_S6400x64_S64x64_S6400x64_1_0_0_1_n_n 64 rfl rfl).symm]
  refine Finset.sum_congr rfl fun k _ => ?_
  have hk := contrEquiv1_symm_val dot_S6400x64_S64x64_S6400x64_1_0_0_1_n_n 64 rfl rfl k
  have el : dot_S6400x64_S64x64_S6400x64_1_0_0_1_n_n.lhsIdx (ix2 p q)
      ((contrEquiv1 dot_S6400x64_S64x64_S6400x64_1_0_0_1_n_n 64 rfl rfl).symm k) = ix2 p k :=
    funext fun a => Fin.ext (by
      match a with
      | ⟨0, _⟩ => exact mm_lhs_0 _ _
      | ⟨1, _⟩ => exact (mm_lhs_1 _ _).trans hk)
  have er : dot_S6400x64_S64x64_S6400x64_1_0_0_1_n_n.rhsIdx (ix2 p q)
      ((contrEquiv1 dot_S6400x64_S64x64_S6400x64_1_0_0_1_n_n 64 rfl rfl).symm k) = ix2 k q :=
    funext fun a => Fin.ext (by
      match a with
      | ⟨0, _⟩ => exact (mm_rhs_0 _ _).trans hk
      | ⟨1, _⟩ => exact mm_rhs_1 _ _)
  rw [el, er]

/-- A weight matrix narrowed and transposed, read at (k, q): the matrix at (q, k) (narrowing changes no value here). -/
theorem wT_apply (w : FVec Ideal S64x64 .f32) (k q : Fin 64) :
    transpose S64x64 [1, 0] (truncf (F := Ideal) .bf16 w bitsLt_bf16_f32) transposes_S64x64_p1_0_S64x64 (ix2 k q) = w (ix2 q k) := by
  rw [transpose_ix2_apply, truncf_apply]

/-- A block times a transposed weight matrix, entry (p, q): Σ_k A[p,k]·w[q,k]. -/
theorem mmT_apply (A : FVec Ideal S6400x64 .bf16) (w : FVec Ideal S64x64 .f32) (p : Fin 6400) (q : Fin 64) :
    matmul dot_S6400x64_S64x64_S6400x64_1_0_0_1_n_n none A
        (transpose S64x64 [1, 0] (truncf (F := Ideal) .bf16 w bitsLt_bf16_f32) transposes_S64x64_p1_0_S64x64)
        (constant (F := Ideal) S6400x64 .f32 0x00000000#32) (ix2 p q)
      = ∑ k : Fin 64, A (ix2 p k) * w (ix2 q k) := by
  rw [mm_apply]
  refine Finset.sum_congr rfl fun k _ => ?_
  rw [wT_apply]

/-- The float zero both rectifiers compare with is the number 0. -/
theorem zero_word : (FloatOps.ofBits (F := Ideal) .f32 0x00000000#32) = (0 : EReal) := Ideal.ofBits_zero_f32

/-! ## The body's stored value at an index -/

/-- Entry (p, q) of what the body stores: both layers of the message network on row p of the two edge blocks. -/
theorem pay0_apply (x0 x1 : Vec Ideal S6400x64 .f32) (x2 x3 : Vec Ideal S64x64 .f32) (x4 : Vec Ideal S1x64 .f32)
    (x5 : Vec Ideal S64x64 .f32) (x6 : Vec Ideal S1x64 .f32) (p : Fin 6400) (q : Fin 64) :
    k0_pay1 x0 x1 x2 x3 x4 x5 x6 (ix2 p q)
      = max ((∑ k : Fin 64, max (((∑ l : Fin 64, x0 (ix2 p l) * x2 (ix2 k l)) + (∑ l : Fin 64, x1 (ix2 p l) * x3 (ix2 k l))) + x4 (ix2 0 k)) 0
            * x5 (ix2 q k)) + x6 (ix2 0 q)) 0 := by
  unfold k0_pay1
  simp only [shapeCast_self]
  rw [maximumf_apply, addf_apply, broadcast_apply, broadcastTo_1b_ab_apply, mmT_apply, zero_word]
  refine congrArg (fun s => max (s + x6 (ix2 0 q)) 0) (Finset.sum_congr rfl fun k _ => ?_)
  refine congrArg (· * x5 (ix2 q k)) ?_
  rw [truncf_apply, maximumf_apply, addf_apply, addf_apply, broadcast_apply, broadcastTo_1b_ab_apply, mmT_apply, mmT_apply]
  rfl

/-! ## The point's blocks and the arrays they are cut from, at their literal types -/

variable (V : (c : Dev nD) → (b : Ref sig .tc) → Buf (Elt Ideal) ((c : Thread nD τ).loc b))

abbrev xsBlk (c : Dev nD) (t : Fin cfg0.N) : Vec Ideal S6400x64 .f32 := iblk0 V c 0 t
abbrev efBlk (c : Dev nD) (t : Fin cfg0.N) : Vec Ideal S6400x64 .f32 := iblk0 V c 1 t
abbrev wxBlk (c : Dev nD) (t : Fin cfg0.N) : Vec Ideal S64x64 .f32 := iblk0 V c 2 t
abbrev weBlk (c : Dev nD) (t : Fin cfg0.N) : Vec Ideal S64x64 .f32 := iblk0 V c 3 t
abbrev b0Blk (c : Dev nD) (t : Fin cfg0.N) : Vec Ideal S1x64 .f32 := iblk0 V c 4 t
abbrev w1Blk (c : Dev nD) (t : Fin cfg0.N) : Vec Ideal S64x64 .f32 := iblk0 V c 5 t
abbrev b1Blk (c : Dev nD) (t : Fin cfg0.N) : Vec Ideal S1x64 .f32 := iblk0 V c 6 t

abbrev xsArr (c : Dev nD) : Vec Ideal S1600000x64 .f32 := V c main_v10
abbrev efArr (c : Dev nD) : Vec Ideal S1600000x64 .f32 := V c main_arg1
abbrev wxArr (c : Dev nD) : Vec Ideal S64x64 .f32 := V c main_v11
abbrev weArr (c : Dev nD) : Vec Ideal S64x64 .f32 := V c main_v12
abbrev b0Arr (c : Dev nD) : Vec Ideal S1x64 .f32 := V c main_v13
abbrev w1Arr (c : Dev nD) : Vec Ideal S64x64 .f32 := V c main_arg6
abbrev b1Arr (c : Dev nD) : Vec Ideal S1x64 .f32 := V c main_v14

/-- The message array of the arrays region 0 finds. -/
abbrev msgOf (c : Dev nD) : Vec Ideal S1600000x64 .f32 :=
  Cert.Spec.msgArr (xsArr V c) (efArr V c) (wxArr V c) (weArr V c) (b0Arr V c) (w1Arr V c) (b1Arr V c)

/-! ## Where each block lies in its array -/

/-- The grid has 250 points. -/
theorem lt_250 (t : Fin cfg0.N) : t.val < 250 := Nat.lt_of_lt_of_eq t.isLt N_0

/-- The printed index maps over the grid: the two edge inputs and the output take row block t at point t, the
    five small arrays their one block at every point. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Row p of point t's block is edge 6400·t + p. -/
def erow (t : Fin cfg0.N) (p : Fin 6400) : Fin 1600000 := ⟨t.val * 6400 + p.val, by have := lt_250 t; have := p.isLt; omega⟩

theorem erow_val (t : Fin cfg0.N) (p : Fin 6400) : (erow t p).val = t.val * 6400 + p.val := rfl

theorem xs_read (c : Dev nD) (t : Fin cfg0.N) (p : Fin 6400) (l : Fin 64) :
    xsBlk V c t (ix2 p l) = xsArr V c (ix2 (erow t p) l) := by
  obtain ⟨a0, a1, -⟩ := idx_facts0 t
  show V c main_v10 (((cfg0.win 0).blk t).view.emb (ix2 p l)) = V c main_v10 (ix2 (erow t p) l)
  refine congrArg (V c main_v10) (funext fun a => Fin.ext ?_)
  match a with
  | ⟨0, _⟩ => show win0_0.index t (0 : Fin 2) * 6400 + 1 * p.val = t.val * 6400 + p.val; omega
  | ⟨1, _⟩ => show win0_0.index t (1 : Fin 2) * 64 + 1 * l.val = l.val; omega

theorem ef_read (c : Dev nD) (t : Fin cfg0.N) (p : Fin 6400) (l : Fin 64) :
    efBlk V c t (ix2 p l) = efArr V c (ix2 (erow t p) l) := by
  obtain ⟨-, -, a0, a1, -⟩ := idx_facts0 t
  show V c main_arg1 (((cfg0.win 1).blk t).view.emb (ix2 p l)) = V c main_arg1 (ix2 (erow t p) l)
  refine congrArg (V c main_arg1) (funext fun a => Fin.ext ?_)
  match a with
  | ⟨0, _⟩ => show win0_1.index t (0 : Fin 2) * 6400 + 1 * p.val = t.val * 6400 + p.val; omega
  | ⟨1, _⟩ => show win0_1.index t (1 : Fin 2) * 64 + 1 * l.val = l.val; omega

theorem wx_read (c : Dev nD) (t : Fin cfg0.N) (k l : Fin 64) : wxBlk V c t (ix2 k l) = wxArr V c (ix2 k l) := by
  obtain ⟨-, -, -, -, a0, a1, -⟩ := idx_facts0 t
  show V c main_v11 (((cfg0.win 2).blk t).view.emb (ix2 k l)) = V c main_v11 (ix2 k l)
  refine congrArg (V c main_v11) (funext fun a => Fin.ext ?_)
  match a with
  | ⟨0, _⟩ => show win0_2.index t (0 : Fin 2) * 64 + 1 * k.val = k.val; omega
  | ⟨1, _⟩ => show win0_2.index t (1 : Fin 2) * 64 + 1 * l.val = l.val; omega

theorem we_read (c : Dev nD) (t : Fin cfg0.N) (k l : Fin 64) : weBlk V c t (ix2 k l) = weArr V c (ix2 k l) := by
  obtain ⟨-, -, -, -, -, -, a0, a1, -⟩ := idx_facts0 t
  show V c main_v12 (((cfg0.win 3).blk t).view.emb (ix2 k l)) = V c main_v12 (ix2 k l)
  refine congrArg (V c main_v12) (funext fun a => Fin.ext ?_)
  match a with
  | ⟨0, _⟩ => show win0_3.index t (0 : Fin 2) * 64 + 1 * k.val = k.val; omega
  | ⟨1, _⟩ => show win0_3.index t (1 : Fin 2) * 64 + 1 * l.val = l.val; omega

theorem b0_read (c : Dev nD) (t : Fin cfg0.N) (k : Fin 64) : b0Blk V c t (ix2 0 k) = b0Arr V c (ix2 0 k) := by
  obtain ⟨-, -, -, -, -, -, -, -, a0, a1, -⟩ := idx_facts0 t
  show V c main_v13 (((cfg0.win 4).blk t).view.emb (ix2 0 k)) = V c main_v13 (ix2 0 k)
  refine congrArg (V c main_v13) (funext fun a => Fin.ext ?_)
  match a with
  | ⟨0, _⟩ => show win0_4.index t (0 : Fin 2) * 1 + 1 * 0 = 0; omega
  | ⟨1, _⟩ => show win0_4.index t (1 : Fin 2) * 64 + 1 * k.val = k.val; omega

theorem w1_read (c : Dev nD) (t : Fin cfg0.N) (k l : Fin 64) : w1Blk V c t (ix2 k l) = w1Arr V c (ix2 k l) := by
  obtain ⟨-, -, -, -, -, -, -, -, -, -, a0, a1, -⟩ := idx_facts0 t
  show V c main_arg6 (((cfg0.win 5).blk t).view.emb (ix2 k l)) = V c main_arg6 (ix2 k l)
  refine congrArg (V c main_arg6) (funext fun a => Fin.ext ?_)
  match a with
  | ⟨0, _⟩ => show win0_5.index t (0 : Fin 2) * 64 + 1 * k.val = k.val; omega
  | ⟨1, _⟩ => show win0_5.index t (1 : Fin 2) * 64 + 1 * l.val = l.val; omega

theorem b1_read (c : Dev nD) (t : Fin cfg0.N) (k : Fin 64) : b1Blk V c t (ix2 0 k) = b1Arr V c (ix2 0 k) := by
  obtain ⟨-, -, -, -, -, -, -, -, -, -, -, -, a0, a1, -⟩ := idx_facts0 t
  show V c main_v14 (((cfg0.win 6).blk t).view.emb (ix2 0 k)) = V c main_v14 (ix2 0 k)
  refine congrArg (V c main_v14) (funext fun a => Fin.ext ?_)
  match a with
  | ⟨0, _⟩ => show win0_6.index t (0 : Fin 2) * 1 + 1 * 0 = 0; omega
  | ⟨1, _⟩ => show win0_6.index t (1 : Fin 2) * 64 + 1 * k.val = k.val; omega

/-- Entry (p, q) of the output's block at point t sits at (6400·t + p, q) of the array. -/
theorem out_emb (t : Fin cfg0.N) (p : Fin 6400) (q : Fin 64) :
    ((cfg0.win 7).blk t).view.emb (ix2 p q) = (ix2 (erow t p) q : S1600000x64.Idx) := by
  obtain ⟨-, -, -, -, -, -, -, -, -, -, -, -, -, -, a0, a1⟩ := idx_facts0 t
  refine funext fun a => Fin.ext ?_
  match a with
  | ⟨0, _⟩ => show win0_7.index t (0 : Fin 2) * 6400 + 1 * p.val = t.val * 6400 + p.val; omega
  | ⟨1, _⟩ => show win0_7.index t (1 : Fin 2) * 64 + 1 * q.val = q.val; omega

/-! ## What a point writes back, the cover, the array -/

/-- What point t writes back is block t of the message array. -/
theorem flushed0_eq (c : Dev nD) (t : Fin cfg0.N) :
    (dat0 (F := Ideal) V c).flushed 7 t = ((cfg0.win 7).blk t).view.read (Elt Ideal) (msgOf V c) := by
  show (cfg0.win 7).cut (grid0.coords t) ((dat0 (F := Ideal) V c).after 7 t) = _
  rw [after0_7]
  funext j
  obtain ⟨p, q, rfl⟩ : ∃ (p : Fin 6400) (q : Fin 64), j = ix2 p q := ⟨j 0, j 1, eq_ix2 j⟩
  show k0_pay1 (xsBlk V c t) (efBlk V c t) (wxBlk V c t) (weBlk V c t) (b0Blk V c t) (w1Blk V c t) (b1Blk V c t) (ix2 p q)
    = Cert.Spec.msgArr (xsArr V c) (efArr V c) (wxArr V c) (weArr V c) (b0Arr V c) (w1Arr V c) (b1Arr V c)
        (((cfg0.win 7).blk t).view.emb (ix2 p q))
  rw [out_emb t p q, Cert.Spec.msgArr_apply]
  refine (pay0_apply (xsBlk V c t) (efBlk V c t) (wxBlk V c t) (weBlk V c t) (b0Blk V c t) (w1Blk V c t) (b1Blk V c t) p q).trans ?_
  unfold Cert.Spec.msg1 Cert.Spec.msg0
  simp only [xs_read V c t, ef_read V c t, wx_read V c t, we_read V c t, b0_read V c t, w1_read V c t, b1_read V c t]

/-- An index of the array is in point t's block iff each coordinate is in the block's range on its axis. -/
theorem mem_blk7 (t : Fin cfg0.N) (i : S1600000x64.Idx) :
    i ∈ ((cfg0.win 7).blk t).view.set
      ↔ ∀ a : Fin 2, win0_7.index t a * S6400x64.size a ≤ (i a).val ∧ (i a).val < win0_7.index t a * S6400x64.size a + S6400x64.size a := by
  show i ∈ ((View.whole main_v15).slice (win0_7.rect t)).set ↔ _
  rw [View.set_slice_whole, Rect.mem_set_unit]
  exact Iff.rfl

/-- Edge row r lies in the block of point r / 6400: the 250 blocks tile the array. -/
theorem cover0 (i : S1600000x64.Idx) :
    ∃ t : Fin cfg0.N, (cfg0.win 7).flush t = true ∧ i ∈ ((cfg0.win 7).blk t).view.set := by
  have hi0 : (i 0).val < 1600000 := (i 0).isLt
  have hi1 : (i 1).val < 64 := (i 1).isLt
  obtain ⟨t, ht⟩ : ∃ t : Fin cfg0.N, t.val = (i 0).val / 6400 :=
    ⟨⟨(i 0).val / 6400, Nat.lt_of_lt_of_eq (show (i 0).val / 6400 < 250 by omega) N_0.symm⟩, rfl⟩
  obtain ⟨-, -, -, -, -, -, -, -, -, -, -, -, -, -, a0, a1⟩ := idx_facts0 t
  refine ⟨t, flush0_7 t, ?_⟩
  rw [mem_blk7]
  intro a
  match a with
  | ⟨0, _⟩ =>
    show win0_7.index t (0 : Fin 2) * 6400 ≤ (i 0).val ∧ (i 0).val < win0_7.index t (0 : Fin 2) * 6400 + 6400
    omega
  | ⟨1, _⟩ =>
    show win0_7.index t (1 : Fin 2) * 64 ≤ (i 1).val ∧ (i 1).val < win0_7.index t (1 : Fin 2) * 64 + 64
    omega

end Val0

variable (V : (c : Dev nD) → (b : Ref sig .tc) → Buf (Elt Ideal) ((c : Thread nD τ).loc b))

/-- Every 6400-edge block the grid writes back is the restriction of one whole-array function, and the 250 blocks
    tile the array: the array region 0 leaves is the message array of the arrays it found. -/
theorem val0 (c : Dev nD) :
    (dat0 (F := Ideal) V c).arrAt 7 cfg0.N
      = Cert.Spec.msgArr (V c main_v10) (V c main_arg1) (V c main_v11) (V c main_v12) (V c main_v13) (V c main_arg6) (V c main_v14) :=
  (dat0 (F := Ideal) V c).arrAt_eq_of_cover 7 (Val0.msgOf V c) (fun t _ => Val0.flushed0_eq V c t) (fun i => Val0.cover0 i)

end Cert.KernelIdeal.Hand

end
-- ==== Proof.KIVal1a.lean ====
/- Region 1's first output array at the exact instance: the updated node rows before normalisation. -/
import proofs.«153742_j79508434583745_1_alg».proof.Proof.KIData
import proofs.«153742_j79508434583745_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators

theorem mm_lhs_0 (j : S5000x128.Idx) (k : dot_S5000x128_S128x128_S5000x128_1_0_0_1_n_n.contr.Idx) :
    (dot_S5000x128_S128x128_S5000x128_1_0_0_1_n_n.lhsIdx j k (0 : Fin S5000x128.rank)).val = (j 0).val := by
  simp [DotDims.lhsIdx, dot_S5000x128_S128x128_S5000x128_1_0_0_1_n_n]; rfl

theorem mm_lhs_1 (j : S5000x128.Idx) (k : dot_S5000x128_S128x128_S5000x128_1_0_0_1_n_n.contr.Idx) :
    (dot_S5000x128_S128x128_S5000x128_1_0_0_1_n_n.lhsIdx j k (1 : Fin S5000x128.rank)).val = (k ⟨0, by decide⟩).val :=
  DotDims.lhsIdx_val_of_single _ rfl j k

theorem mm_rhs_0 (j : S5000x128.Idx) (k : dot_S5000x128_S128x128_S5000x128_1_0_0_1_n_n.contr.Idx) :
    (dot_S5000x128_S128x128_S5000x128_1_0_0_1_n_n.rhsIdx j k (0 : Fin S128x128.rank)).val = (k ⟨0, by decide⟩).val :=
  DotDims.rhsIdx_val_of_single _ rfl j k

theorem mm_rhs_1 (j : S5000x128.Idx) (k : dot_S5000x128_S128x128_S5000x128_1_0_0_1_n_n.contr.Idx) :
    (dot_S5000x128_S128x128_S5000x128_1_0_0_1_n_n.rhsIdx j k (1 : Fin S128x128.rank)).val = (j 1).val := by
  simp [DotDims.rhsIdx, dot_S5000x128_S128x128_S5000x128_1_0_0_1_n_n]; rfl

/-- The block product into the zero accumulator, entry by entry: row r of the left factor against column j of the right. -/
theorem mm_apply (lhs : FVec Ideal S5000x128 .bf16) (rhs : FVec Ideal S128x128 .bf16) (r : Fin 5000) (j : Fin 128) :
    matmul dot_S5000x128_S128x128_S5000x128_1_0_0_1_n_n none lhs rhs (constant (F := Ideal) S5000x128 .f32 0x00000000#32) (ix2 r j)
      = ∑ k : Fin 128, lhs (ix2 r k) * rhs (ix2 k j) := by
  show FloatOps.matmul _ none lhs rhs _ (ix2 r j) = _
  rw [Ideal.matmul_constant_zero_apply,
    ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 r j)
      ((contrEquiv1 dot_S5000x128_S128x128_S5000x128_1_0_0_1_n_n 128 rfl rfl).symm k) = ix2 r k := by
    funext ax; apply Fin.ext
    match ax with
    | ⟨0, _⟩ => exact mm_lhs_0 _ _
    | ⟨1, _⟩ => exact (mm_lhs_1 _ _).trans hk
  have er : dot_S5000x128_S128x128_S5000x128_1_0_0_1_n_n.rhsIdx (ix2 r j)
      ((contrEquiv1 dot_S5000x128_S128x128_S5000x128_1_0_0_1_n_n 128 rfl rfl).symm k) = ix2 k j := by
    funext ax; apply Fin.ext
    match ax with
    | ⟨0, _⟩ => exact (mm_rhs_0 _ _).trans hk
    | ⟨1, _⟩ => exact mm_rhs_1 _ _
  rw [el, er]

/-- Two 64-column blocks side by side, entry by entry. -/
theorem cat_apply (x a : FVec Ideal S5000x64 .f32) (r : Fin 5000) (l : Fin 128) :
    concatenate S5000x128 1 [⟨S5000x64, x⟩, ⟨S5000x64, a⟩] concatenates_S5000x64_S5000x64_S5000x128_d1 (ix2 r l)
      = if h : l.val < 64 then x (ix2 r ⟨l.val, h⟩) else a (ix2 r ⟨l.val - 64, by have := l.isLt; omega⟩) := by
  by_cases h : l.val < 64
  · rw [dif_pos h]
    refine concatenate_pair_apply_left (1 : Fin S5000x128.rank) x a _ (ix2 r l) rfl (ix2 r ⟨l.val, h⟩) fun b => ?_
    match b with
    | ⟨0, _⟩ => rfl
    | ⟨1, _⟩ => rfl
  · rw [dif_neg h]
    refine concatenate_pair_apply_right (1 : Fin S5000x128.rank) x a _ (ix2 r l) rfl rfl (ix2 r ⟨l.val - 64, by have := l.isLt; omega⟩) (fun b hb => ?_) ?_
    · match b with
      | ⟨0, _⟩ => rfl
      | ⟨1, _⟩ => exact absurd rfl hb
    · show (l.val - 64) + 64 = l.val
      omega

/-- Column l of two 64-column blocks side by side, at row r. -/
def zc (x a : FVec Ideal S5000x64 .f32) (r : Fin 5000) (l : Fin 128) : EReal :=
  if h : l.val < 64 then x (ix2 r ⟨l.val, h⟩) else a (ix2 r ⟨l.val - 64, by have := l.isLt; omega⟩)

/-- The stored block of the node update, entry by entry, over any six input blocks. -/
theorem pay5_apply (v3 v4 : Vec Ideal S5000x64 .f32) (v8 : Vec Ideal S128x128 .f32) (v12 : Vec Ideal S1x128 .f32)
    (v19 : Vec Ideal S128x128 .f32) (v23 : Vec Ideal S1x128 .f32) (r : Fin 5000) (j : Fin 128) :
    (k1_pay5 (F := Ideal) v3 v4 v8 v12 v19 v23 : S5000x128.Idx → EReal) (ix2 r j)
      = ((∑ k : Fin 128, max ((∑ l : Fin 128, zc v3 v4 r l * v8 (ix2 k l)) + v12 (ix2 0 k)) 0 * v19 (ix2 j k)) + v23 (ix2 0 j))
          + zc v3 v4 r j := by
  unfold k1_pay5
  have e4 : shapeCast S5000x64 v4 shapeCasts_S5000x64_S5000x64 = v4 := shapeCast_self _ _
  have e12 : shapeCast S1x128 v12 shapeCasts_S1x128_S1x128 = v12 := shapeCast_self _ _
  have e23 : shapeCast S1x128 v23 shapeCasts_S1x128_S1x128 = v23 := shapeCast_self _ _
  rw [e4, e12, e23]
  rw [addf_apply, addf_apply, mm_apply, broadcastTo_1b_ab_apply, cat_apply]
  refine congrArg₂ (· + ·) (congrArg₂ (· + ·) (Finset.sum_congr rfl fun k _ => ?_) rfl) rfl
  rw [truncf_apply, maximumf_apply, addf_apply, mm_apply, broadcastTo_1b_ab_apply, broadcast_apply,
    transpose_ix2_apply, truncf_apply]
  refine congrArg₂ (· * ·) (congrArg₂ max (congrArg₂ (· + ·) (Finset.sum_congr rfl fun l _ => ?_) rfl) Ideal.ofBits_zero_f32) rfl
  rw [truncf_apply, cat_apply, transpose_ix2_apply, truncf_apply]
  rfl

variable (V : (c : Dev nD) → (b : Ref sig .tc) → Buf (Elt Ideal) ((c : Thread nD τ).loc b))

/-- Row 5000·t + r of the whole array, as an index of the 100000 rows. -/
abbrev rowOf (t : Fin cfg1.N) (r : Fin 5000) : Fin 100000 := ⟨5000 * t.val + r.val, by have := t.isLt; have h : cfg1.N = 20 := N_1; omega⟩

/-- Region 1's index maps, decided once over the twenty points: the row-block windows sit at block (t, 0), the
    small arrays' windows at block (0, 0). -/
theorem idx1 : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = t.val ∧ win1_6.index t (1 : Fin 2) = 0) :=
  (by decide +kernel : ∀ t : Fin grid1.N, _)

/-- The six input blocks at a point and the six arrays they are cut from, under their literal types. -/
abbrev xb (c : Dev nD) (t : Fin cfg1.N) : Vec Ideal S5000x64 .f32 := iblk1 V c 0 t
abbrev ab (c : Dev nD) (t : Fin cfg1.N) : Vec Ideal S5000x64 .f32 := iblk1 V c 1 t
abbrev u0b (c : Dev nD) (t : Fin cfg1.N) : Vec Ideal S128x128 .f32 := iblk1 V c 2 t
abbrev c0b (c : Dev nD) (t : Fin cfg1.N) : Vec Ideal S1x128 .f32 := iblk1 V c 3 t
abbrev u1b (c : Dev nD) (t : Fin cfg1.N) : Vec Ideal S128x128 .f32 := iblk1 V c 4 t
abbrev c1b (c : Dev nD) (t : Fin cfg1.N) : Vec Ideal S1x128 .f32 := iblk1 V c 5 t
abbrev xarr (c : Dev nD) : Cert.Spec.SN64.Idx → EReal := V c main_arg0
abbrev aarr (c : Dev nD) : Cert.Spec.SN64.Idx → EReal := V c main_v18
abbrev u0arr (c : Dev nD) : Cert.Spec.T128x128.Idx → EReal := V c main_arg8
abbrev c0arr (c : Dev nD) : Cert.Spec.T1x128.Idx → EReal := V c main_v19
abbrev u1arr (c : Dev nD) : Cert.Spec.T128x128.Idx → EReal := V c main_arg10
abbrev c1arr (c : Dev nD) : Cert.Spec.T1x128.Idx → EReal := V c main_v20

/-- The node-feature block at point t is rows 5000·t … of the node features. -/
theorem xb_apply (c : Dev nD) (t : Fin cfg1.N) (r : Fin 5000) (l : Fin 64) :
    xb V c t (ix2 r l) = xarr V c (ix2 (rowOf t r) l) := by
  show V c main_arg0 (((cfg1.win 0).blk t).view.emb (ix2 r l)) = V c main_arg0 (ix2 (rowOf t r) l)
  refine congrArg (V c main_arg0) (funext fun a => Fin.ext ?_)
  obtain ⟨⟨e0, e1⟩, -⟩ := idx1 t
  match a with
  | ⟨0, _⟩ => show win1_0.index t (0 : Fin 2) * 5000 + 1 * r.val = 5000 * t.val + r.val; omega
  | ⟨1, _⟩ => show win1_0.index t (1 : Fin 2) * 64 + 1 * l.val = l.val; omega

/-- The aggregated-message block likewise. -/
theorem ab_apply (c : Dev nD) (t : Fin cfg1.N) (r : Fin 5000) (l : Fin 64) :
    ab V c t (ix2 r l) = aarr V c (ix2 (rowOf t r) l) := by
  show V c main_v18 (((cfg1.win 1).blk t).view.emb (ix2 r l)) = V c main_v18 (ix2 (rowOf t r) l)
  refine congrArg (V c main_v18) (funext fun a => Fin.ext ?_)
  obtain ⟨-, ⟨e0, e1⟩, -⟩ := idx1 t
  match a with
  | ⟨0, _⟩ => show win1_1.index t (0 : Fin 2) * 5000 + 1 * r.val = 5000 * t.val + r.val; omega
  | ⟨1, _⟩ => show win1_1.index t (1 : Fin 2) * 64 + 1 * l.val = l.val; omega

/-- The four small arrays are read whole at every point. -/
theorem u0b_apply (c : Dev nD) (t : Fin cfg1.N) (k l : Fin 128) : u0b V c t (ix2 k l) = u0arr V c (ix2 k l) := by
  show V c main_arg8 (((cfg1.win 2).blk t).view.emb (ix2 k l)) = V c main_arg8 (ix2 k l)
  refine congrArg (V c main_arg8) (funext fun a => Fin.ext ?_)
  obtain ⟨-, -, ⟨e0, e1⟩, -⟩ := idx1 t
  match a with
  | ⟨0, _⟩ => show win1_2.index t (0 : Fin 2) * 128 + 1 * k.val = k.val; omega
  | ⟨1, _⟩ => show win1_2.index t (1 : Fin 2) * 128 + 1 * l.val = l.val; omega

theorem c0b_apply (c : Dev nD) (t : Fin cfg1.N) (z : Fin 1) (k : Fin 128) : c0b V c t (ix2 z k) = c0arr V c (ix2 z k) := by
  show V c main_v19 (((cfg1.win 3).blk t).view.emb (ix2 z k)) = V c main_v19 (ix2 z k)
  refine congrArg (V c main_v19) (funext fun a => Fin.ext ?_)
  obtain ⟨-, -, -, ⟨e0, e1⟩, -⟩ := idx1 t
  match a with
  | ⟨0, _⟩ => show win1_3.index t (0 : Fin 2) * 1 + 1 * z.val = z.val; omega
  | ⟨1, _⟩ => show win1_3.index t (1 : Fin 2) * 128 + 1 * k.val = k.val; omega

theorem u1b_apply (c : Dev nD) (t : Fin cfg1.N) (k l : Fin 128) : u1b V c t (ix2 k l) = u1arr V c (ix2 k l) := by
  show V c main_arg10 (((cfg1.win 4).blk t).view.emb (ix2 k l)) = V c main_arg10 (ix2 k l)
  refine congrArg (V c main_arg10) (funext fun a => Fin.ext ?_)
  obtain ⟨-, -, -, -, ⟨e0, e1⟩, -⟩ := idx1 t
  match a with
  | ⟨0, _⟩ => show win1_4.index t (0 : Fin 2) * 128 + 1 * k.val = k.val; omega
  | ⟨1, _⟩ => show win1_4.index t (1 : Fin 2) * 128 + 1 * l.val = l.val; omega

theorem c1b_apply (c : Dev nD) (t : Fin cfg1.N) (z : Fin 1) (k : Fin 128) : c1b V c t (ix2 z k) = c1arr V c (ix2 z k) := by
  show V c main_v20 (((cfg1.win 5).blk t).view.emb (ix2 z k)) = V c main_v20 (ix2 z k)
  refine congrArg (V c main_v20) (funext fun a => Fin.ext ?_)
  obtain ⟨-, -, -, -, -, ⟨e0, e1⟩, -⟩ := idx1 t
  match a with
  | ⟨0, _⟩ => show win1_5.index t (0 : Fin 2) * 1 + 1 * z.val = z.val; omega
  | ⟨1, _⟩ => show win1_5.index t (1 : Fin 2) * 128 + 1 * k.val = k.val; omega

/-- The two blocks side by side are the block's rows of the two arrays side by side. -/
theorem zc_blk (c : Dev nD) (t : Fin cfg1.N) (r : Fin 5000) (l : Fin 128) :
    zc (xb V c t) (ab V c t) r l = Cert.Spec.zcat (xarr V c) (aarr V c) (rowOf t r) l := by
  unfold zc Cert.Spec.zcat
  by_cases h : l.val < 64
  · rw [dif_pos h, dif_pos h]; exact xb_apply V c t r _
  · rw [dif_neg h, dif_neg h]; exact ab_apply V c t r _

/-- One point's stored block, entry by entry: the node update at the block's rows. -/
theorem blk1_apply (c : Dev nD) (t : Fin cfg1.N) (r : Fin 5000) (j : Fin 128) :
    (out1_6 (F := Ideal) V c t : S5000x128.Idx → EReal) (ix2 r j)
      = Cert.Spec.opre (V c main_arg0) (V c main_v18) (V c main_arg8) (V c main_v19) (V c main_arg10) (V c main_v20) (rowOf t r) j := by
  show (k1_pay5 (F := Ideal) (xb V c t) (ab V c t) (u0b V c t) (c0b V c t) (u1b V c t) (c1b V c t) : S5000x128.Idx → EReal) (ix2 r j)
    = Cert.Spec.opre (xarr V c) (aarr V c) (u0arr V c) (c0arr V c) (u1arr V c) (c1arr V c) (rowOf t r) j
  refine (pay5_apply (xb V c t) (ab V c t) (u0b V c t) (c0b V c t) (u1b V c t) (c1b V c t) r j).trans ?_
  unfold Cert.Spec.opre Cert.Spec.hid
  refine congrArg₂ (· + ·) (congrArg₂ (· + ·) (Finset.sum_congr rfl fun k _ => ?_) (c1b_apply V c t 0 j)) (zc_blk V c t r j)
  refine congrArg₂ (· * ·) (congrArg₂ max (congrArg₂ (· + ·) (Finset.sum_congr rfl fun l _ => ?_) (c0b_apply V c t 0 k)) rfl) (u1b_apply V c t j k)
  exact congrArg₂ (· * ·) (zc_blk V c t r l) (u0b_apply V c t k l)

/-- The output block's place in the array: row 5000·t + r, the same column. -/
theorem emb6 (t : Fin cfg1.N) (r : Fin 5000) (j : Fin 128) :
    ((cfg1.win 6).blk t).view.emb (ix2 r j) = ix2 (rowOf t r) j := by
  funext a; apply Fin.ext
  obtain ⟨-, -, -, -, -, -, e0, e1⟩ := idx1 t
  match a with
  | ⟨0, _⟩ => show win1_6.index t (0 : Fin 2) * 5000 + 1 * r.val = 5000 * t.val + r.val; omega
  | ⟨1, _⟩ => show win1_6.index t (1 : Fin 2) * 128 + 1 * j.val = j.val; omega

/-- What point t writes back is block t of the node-update array. -/
theorem flushed1_6_eq (c : Dev nD) (t : Fin cfg1.N) :
    (dat1 (F := Ideal) V c).flushed 6 t = ((cfg1.win 6).blk t).view.read (Elt Ideal)
      (Cert.Spec.opreArr (V c main_arg0) (V c main_v18) (V c main_arg8) (V c main_v19) (V c main_arg10) (V c main_v20)) := by
  show (cfg1.win 6).cut (grid1.coords t) ((dat1 (F := Ideal) V c).after 6 t) = _
  rw [after1_6]
  funext y
  obtain ⟨r, j, rfl⟩ : ∃ (r : Fin 5000) (j : Fin 128), y = ix2 r j := ⟨y 0, y 1, eq_ix2 y⟩
  show (out1_6 (F := Ideal) V c t : S5000x128.Idx → EReal) (ix2 r j)
    = Cert.Spec.opreArr (V c main_arg0) (V c main_v18) (V c main_arg8) (V c main_v19) (V c main_arg10) (V c main_v20)
        (((cfg1.win 6).blk t).view.emb (ix2 r j))
  rw [blk1_apply, emb6, Cert.Spec.opreArr_apply]

/-- An index of the array is in point t's block iff each coordinate is in the block's range on its axis. -/
theorem mem_blk6 (t : Fin cfg1.N) (i : S100000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v21_0).slice (win1_6.rect t)).set ↔ _
  rw [View.set_slice_whole, Rect.mem_set_unit]
  exact Iff.rfl

/-- The twenty 5000-row blocks tile the array. -/
theorem val1_6 (c : Dev nD) :
    (dat1 (F := Ideal) V c).arrAt 6 cfg1.N
      = Cert.Spec.opreArr (V c main_arg0) (V c main_v18) (V c main_arg8) (V c main_v19) (V c main_arg10) (V c main_v20) :=
  (dat1 (F := Ideal) V c).arrAt_eq_of_cover 6 _ (fun t _ => flushed1_6_eq V c t) fun i => by
    have hi0 : (i 0).val < 100000 := (i 0).isLt
    have hi1 : (i 1).val < 128 := (i 1).isLt
    -- row q lies in the block of point q / 5000
    obtain ⟨t0, ht0⟩ : ∃ t0 : Fin cfg1.N, t0.val = (i 0).val / 5000 :=
      ⟨⟨(i 0).val / 5000, by have hN : cfg1.N = 20 := N_1; rw [hN]; omega⟩, rfl⟩
    refine ⟨t0, flush1_6 t0, ?_⟩
    rw [mem_blk6]
    obtain ⟨-, -, -, -, -, -, e0, e1⟩ := idx1 t0
    intro a
    match a with
    | ⟨0, _⟩ =>
      show win1_6.index t0 (0 : Fin 2) * 5000 ≤ (i 0).val ∧ (i 0).val < win1_6.index t0 (0 : Fin 2) * 5000 + 5000
      omega
    | ⟨1, _⟩ =>
      show win1_6.index t0 (1 : Fin 2) * 128 ≤ (i 1).val ∧ (i 1).val < win1_6.index t0 (1 : Fin 2) * 128 + 128
      omega

end Cert.KernelIdeal.Hand

end
-- ==== Proof.KIVal1b.lean ====
/- Region 1's two small output arrays at the exact instance: the column sums and the column sums of squares, accumulated over the grid. -/
import proofs.«153742_j79508434583745_1_alg».proof.Proof.KIData
import proofs.«153742_j79508434583745_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators
variable (V : (c : Dev nD) → (b : Ref sig .tc) → Buf (Elt Ideal) ((c : Thread nD τ).loc b))

/-! ## One point's additions, read at a column -/

/-- A 5000×128 block's column sums, laid out as a 1×128 row and added to a running row s: at column j,
    s's entry plus the sum of the block's column j. -/
theorem addCols_apply (o : Vec Ideal S5000x128 .f32) (s : Vec Ideal S1x128 .f32) (j : Fin 128) :
    (addf (F := Ideal) s (shapeCast S1x128 (multiReduction (F := Ideal) .add [0] S128 o 0x00000000#32 reduces_S5000x128_S128 (.inl rfl) rfl) shapeCasts_S128_S1x128) : Vec Ideal S1x128 .f32) (ix2 0 j)
      = s (ix2 0 j) + ∑ r : Fin 5000, o (ix2 r j) := by
  show s (ix2 0 j) + shapeCast S1x128 (multiReduction (F := Ideal) .add [0] S128 o 0x00000000#32 reduces_S5000x128_S128 (.inl rfl) rfl) shapeCasts_S128_S1x128 (ix2 0 j) = _
  congr 1
  refine (shapeCast_addUnit_apply ![128] _ shapeCasts_S128_S1x128 (ix2 0 j)).trans ?_
  refine (Ideal.multiReduction_add_single o 0x00000000#32 reduces_S5000x128_S128 (.inl rfl) rfl _).trans ?_
  refine Finset.sum_congr rfl fun k _ => congrArg o (funext fun a => Fin.ext ?_)
  match a with
  | ⟨0, _⟩ => rfl
  | ⟨1, _⟩ => rfl

/-- The first running sum after a point: at column j, what it held plus the sum of the point's block's column j. -/
theorem sum1_apply (c : Dev nD) (t : Fin cfg1.N) (s : Vec Ideal S1x128 .f32) (j : Fin 128) :
    sum1 (F := Ideal) V c t s (ix2 0 j) = s (ix2 0 j) + ∑ r : Fin 5000, out1_6 (F := Ideal) V c t (ix2 r j) :=
  (congrFun (shapeCast_self _ shapeCasts_S1x128_S1x128) (ix2 0 j)).trans (addCols_apply (out1_6 (F := Ideal) V c t) s j)

/-- The second running sum after a point: at column j, what it held plus the sum of the squares of the block's column j. -/
theorem sumsq1_apply (c : Dev nD) (t : Fin cfg1.N) (s : Vec Ideal S1x128 .f32) (j : Fin 128) :
    sumsq1 (F := Ideal) V c t s (ix2 0 j)
      = s (ix2 0 j) + ∑ r : Fin 5000, out1_6 (F := Ideal) V c t (ix2 r j) * out1_6 (F := Ideal) V c t (ix2 r j) :=
  (congrFun (shapeCast_self _ shapeCasts_S1x128_S1x128) (ix2 0 j)).trans
    (addCols_apply (mulf (F := Ideal) (out1_6 (F := Ideal) V c t) (out1_6 (F := Ideal) V c t)) s j)

/-- Both running sums start from the zero row. -/
theorem k1_pay3_apply (i : S1x128.Idx) : k1_pay3 (F := Ideal) i = 0 := by
  show shapeCast S1x128 (broadcast S1x128 (Scalar.ofBits (F := Ideal) .f32 0x00000000#32)) shapeCasts_S1x128_S1x128 i = 0
  rw [shapeCast_self]
  exact Ideal.ofBits_zero_f32

theorem k1_pay4_apply (i : S1x128.Idx) : k1_pay4 (F := Ideal) i = 0 := by
  show shapeCast S1x128 (broadcast S1x128 (Scalar.ofBits (F := Ideal) .f32 0x00000000#32)) shapeCasts_S1x128_S1x128 i = 0
  rw [shapeCast_self]
  exact Ideal.ofBits_zero_f32

/-! ## The running sums after each point -/

/-- Column j of O summed over the 5000 rows of block t. -/
def blkSum (O : Cert.Spec.SN128.Idx → EReal) (j : Fin 128) (t : ℕ) (ht : t < 20) : EReal :=
  ∑ r : Fin 5000, O (ix2 (⟨5000 * t + r.val, by have := r.isLt; omega⟩ : Fin 100000) j)

/-- Column j of O·O summed over the 5000 rows of block t. -/
def blkSumSq (O : Cert.Spec.SN128.Idx → EReal) (j : Fin 128) (t : ℕ) (ht : t < 20) : EReal :=
  ∑ r : Fin 5000, O (ix2 (⟨5000 * t + r.val, by have := r.isLt; omega⟩ : Fin 100000) j)
    * O (ix2 (⟨5000 * t + r.val, by have := r.isLt; omega⟩ : Fin 100000) j)

theorem lt20 {n : ℕ} (hn : n < cfg1.N) (t : Fin (n + 1)) : t.val < 20 := by
  have := t.isLt; have h : cfg1.N = 20 := N_1; omega

/-- After point n the first running sum holds, at column j, the sum of the blocks 0 … n of O's column j. -/
theorem sAfter_fst_apply (c : Dev nD) (O : Cert.Spec.SN128.Idx → EReal)
    (hblk : ∀ (t : Fin cfg1.N) (r : Fin 5000) (j : Fin 128),
      (out1_6 (F := Ideal) V c t : S5000x128.Idx → EReal) (ix2 r j)
        = O (ix2 (⟨5000 * t.val + r.val, by have := t.isLt; have h : cfg1.N = 20 := N_1; omega⟩ : Fin 100000) j))
    (j : Fin 128) : ∀ (n : ℕ) (hn : n < cfg1.N),
      (sAfter (F := Ideal) V c n hn).1 (ix2 0 j) = ∑ t : Fin (n + 1), blkSum O j t.val (lt20 hn t)
  | 0, hn => by
    show sum1 (F := Ideal) V c ⟨0, hn⟩ (k1_pay3 (F := Ideal)) (ix2 0 j) = _
    rw [sum1_apply, k1_pay3_apply, zero_add, Fin.sum_univ_one]
    exact Finset.sum_congr rfl fun r _ => hblk ⟨0, hn⟩ r j
  | n + 1, hn => by
    show sum1 (F := Ideal) V c ⟨n + 1, hn⟩ (sAfter (F := Ideal) V c n (Nat.lt_of_succ_lt hn)).1 (ix2 0 j) = _
    rw [sum1_apply, sAfter_fst_apply c O hblk j n (Nat.lt_of_succ_lt hn), Fin.sum_univ_castSucc (n := n + 1)]
    refine congrArg₂ (· + ·) rfl ?_
    exact Finset.sum_congr rfl fun r _ => hblk ⟨n + 1, hn⟩ r j

/-- After point n the second holds the sum of the blocks 0 … n of the squares of O's column j. -/
theorem sAfter_snd_apply (c : Dev nD) (O : Cert.Spec.SN128.Idx → EReal)
    (hblk : ∀ (t : Fin cfg1.N) (r : Fin 5000) (j : Fin 128),
      (out1_6 (F := Ideal) V c t : S5000x128.Idx → EReal) (ix2 r j)
        = O (ix2 (⟨5000 * t.val + r.val, by have := t.isLt; have h : cfg1.N = 20 := N_1; omega⟩ : Fin 100000) j))
    (j : Fin 128) : ∀ (n : ℕ) (hn : n < cfg1.N),
      (sAfter (F := Ideal) V c n hn).2 (ix2 0 j) = ∑ t : Fin (n + 1), blkSumSq O j t.val (lt20 hn t)
  | 0, hn => by
    show sumsq1 (F := Ideal) V c ⟨0, hn⟩ (k1_pay4 (F := Ideal)) (ix2 0 j) = _
    rw [sumsq1_apply, k1_pay4_apply, zero_add, Fin.sum_univ_one]
    exact Finset.sum_congr rfl fun r _ => by rw [hblk ⟨0, hn⟩ r j]; rfl
  | n + 1, hn => by
    show sumsq1 (F := Ideal) V c ⟨n + 1, hn⟩ (sAfter (F := Ideal) V c n (Nat.lt_of_succ_lt hn)).2 (ix2 0 j) = _
    rw [sumsq1_apply, sAfter_snd_apply c O hblk j n (Nat.lt_of_succ_lt hn), Fin.sum_univ_castSucc (n := n + 1)]
    refine congrArg₂ (· + ·) rfl ?_
    exact Finset.sum_congr rfl fun r _ => by rw [hblk ⟨n + 1, hn⟩ r j]; rfl

/-! ## Twenty blocks of 5000 rows are the 100000 rows -/

theorem sum_blocks (f : Fin 100000 → EReal) :
    ∑ t : Fin 20, ∑ r : Fin 5000, f ⟨5000 * t.val + r.val, by have := t.isLt; have := r.isLt; omega⟩ = ∑ R : Fin 100000, f R := by
  have e := Equiv.sum_comp (finProdFinEquiv : Fin 20 × Fin 5000 ≃ Fin (20 * 5000)) f
  rw [← e, Fintype.sum_prod_type]
  refine Finset.sum_congr rfl fun t _ => Finset.sum_congr rfl fun r _ => congrArg f (Fin.ext ?_)
  show 5000 * t.val + r.val = r.val + 5000 * t.val
  omega

/-! ## The two small outputs after the grid: the last point's write-back is the whole array -/

/-- The last grid point. -/
abbrev tLast : Fin cfg1.N := ⟨19, by have h : cfg1.N = 20 := N_1; omega⟩

/-- What the first running sum holds after the last point, as contents of the first small output. -/
abbrev res7 (c : Dev nD) : Buf (Elt Ideal) ((c : Thread nD τ).loc main_v21_1) := (sAfter (F := Ideal) V c 19 tLast.isLt).1
/-- Likewise the second. -/
abbrev res8 (c : Dev nD) : Buf (Elt Ideal) ((c : Thread nD τ).loc main_v21_2) := (sAfter (F := Ideal) V c 19 tLast.isLt).2

/-- Only the last point writes window 7 back. -/
theorem eq_tLast_of_flush7 (t : Fin cfg1.N) (hf : (cfg1.win 7).flush t = true) : t = tLast := by
  have hN : cfg1.N = 20 := N_1
  have := (flush1_7 t).mp hf; have := t.isLt
  exact Fin.ext (by show t.val = 19; omega)

theorem eq_tLast_of_flush8 (t : Fin cfg1.N) (hf : (cfg1.win 8).flush t = true) : t = tLast := by
  have hN : cfg1.N = 20 := N_1
  have := (flush1_8 t).mp hf; have := t.isLt
  exact Fin.ext (by show t.val = 19; omega)

/-- Window 7's block sits at offset zero on both axes (its index map is constant). -/
theorem off7 : (fun a => win1_7.index tLast a * main_v21_1.ty.shape.size a) = fun _ => 0 :=
  funext fun a => by fin_cases a <;> decide

theorem off8 : (fun a => win1_8.index tLast a * main_v21_2.ty.shape.size a) = fun _ => 0 :=
  funext fun a => by fin_cases a <;> decide

/-- What the one write-back of window 7 writes is the whole of res7, read through the block's rectangle. -/
theorem flushed7 (c : Dev nD) (t : Fin cfg1.N) (hf : (cfg1.win 7).flush t = true) :
    (dat1 (F := Ideal) V c).flushed 7 t = ((cfg1.win 7).blk t).view.read (Elt Ideal) (res7 V c) := by
  obtain rfl := eq_tLast_of_flush7 t hf
  show (cfg1.win 7).cut (grid1.coords tLast) ((dat1 (F := Ideal) V c).after 7 tLast) = _
  rw [after1_7]
  exact (Memref.read_access_unit_zero (Elt Ideal) main_v21_1 off7 (fun a => by rw [congrFun off7 a]; simp) (res7 V c)).symm

theorem flushed8 (c : Dev nD) (t : Fin cfg1.N) (hf : (cfg1.win 8).flush t = true) :
    (dat1 (F := Ideal) V c).flushed 8 t = ((cfg1.win 8).blk t).view.read (Elt Ideal) (res8 V c) := by
  obtain rfl := eq_tLast_of_flush8 t hf
  show (cfg1.win 8).cut (grid1.coords tLast) ((dat1 (F := Ideal) V c).after 8 tLast) = _
  rw [after1_8]
  exact (Memref.read_access_unit_zero (Elt Ideal) main_v21_2 off8 (fun a => by rw [congrFun off8 a]; simp) (res8 V c)).symm

/-- Every index of the 1×128 array lies in window 7's block at the last point. -/
theorem cover7 {c : Dev nD} (i : ((cfg1.win 7).arr.view.loc ((c : Dev nD).tc : Thread nD τ)).2.ty.Idx) :
    i ∈ ((cfg1.win 7).blk tLast).view.set := by
  show i ∈ ((View.whole main_v21_1).slice (win1_7.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win1_7.index tLast 0 * win1_7.size 0 ≤ (i 0 : Nat) ∧ (i 0 : Nat) < win1_7.index tLast 0 * win1_7.size 0 + win1_7.xsize (grid1.coords tLast) 0
    rw [show win1_7.index tLast 0 * win1_7.size 0 = 0 from by decide, show win1_7.xsize (grid1.coords tLast) 0 = 1 from by decide]
    omega
  | ⟨1, _⟩ =>
    show win1_7.index tLast 1 * win1_7.size 1 ≤ (i 1 : Nat) ∧ (i 1 : Nat) < win1_7.index tLast 1 * win1_7.size 1 + win1_7.xsize (grid1.coords tLast) 1
    rw [show win1_7.index tLast 1 * win1_7.size 1 = 0 from by decide, show win1_7.xsize (grid1.coords tLast) 1 = 128 from by decide]
    omega

theorem cover8 {c : Dev nD} (i : ((cfg1.win 8).arr.view.loc ((c : Dev nD).tc : Thread nD τ)).2.ty.Idx) :
    i ∈ ((cfg1.win 8).blk tLast).view.set := by
  show i ∈ ((View.whole main_v21_2).slice (win1_8.rect tLast)).set
  rw [View.set_slice_whole, Rect.mem_set_unit]
  intro a
  have h0 : (i 0 : Nat) < 1 := (i 0).isLt
  have h1 : (i 1 : Nat) < 128 := (i 1).isLt
  match a with
  | ⟨0, _⟩ =>
    show win1_8.index tLast 0 * win1_8.size 0 ≤ (i 0 : Nat) ∧ (i 0 : Nat) < win1_8.index tLast 0 * win1_8.size 0 + win1_8.xsize (grid1.coords tLast) 0
    rw [show win1_8.index tLast 0 * win1_8.size 0 = 0 from by decide, show win1_8.xsize (grid1.coords tLast) 0 = 1 from by decide]
    omega
  | ⟨1, _⟩ =>
    show win1_8.index tLast 1 * win1_8.size 1 ≤ (i 1 : Nat) ∧ (i 1 : Nat) < win1_8.index tLast 1 * win1_8.size 1 + win1_8.xsize (grid1.coords tLast) 1
    rw [show win1_8.index tLast 1 * win1_8.size 1 = 0 from by decide, show win1_8.xsize (grid1.coords tLast) 1 = 128 from by decide]
    omega

/-- So the first small output ends holding the first running sum after the last point, -/
theorem final7 (c : Dev nD) : (dat1 (F := Ideal) V c).arrAt 7 cfg1.N = res7 V c :=
  (dat1 (F := Ideal) V c).arrAt_eq_of_cover 7 (res7 V c) (flushed7 V c) fun i =>
    ⟨tLast, (flush1_7 tLast).mpr rfl, cover7 (c := c) i⟩

/-- and the second the second. -/
theorem final8 (c : Dev nD) : (dat1 (F := Ideal) V c).arrAt 8 cfg1.N = res8 V c :=
  (dat1 (F := Ideal) V c).arrAt_eq_of_cover 8 (res8 V c) (flushed8 V c) fun i =>
    ⟨tLast, (flush1_8 tLast).mpr rfl, cover8 (c := c) i⟩

/-! ## The claim -/

/-- Two 1×128 rows that agree at every column are equal. -/
theorem row_ext {f g : S1x128.Idx → EReal} (h : ∀ j : Fin 128, f (ix2 0 j) = g (ix2 0 j)) : f = g := by
  funext i
  have hlt : (i 0 : Nat) < 1 := (i 0).isLt
  have h0 : (i 0 : Fin 1) = (0 : Fin 1) := Fin.ext (Nat.lt_one_iff.mp hlt)
  have hi : i = ix2 0 (i 1) := (eq_ix2 i).trans (congrArg (fun z : Fin 1 => ix2 z (i 1)) h0)
  rw [hi]
  exact h (i 1)

/-- If every point's stored block is the restriction of one whole array O to the block's 5000 rows, the two running
    sums after the last point — what the last point copies to the two small outputs, the only write-back of those
    windows — are O's column sums and column sums of squares: a sum over 100000 rows taken 5000 at a time. -/
theorem val1_78 (c : Dev nD) (O : Cert.Spec.SN128.Idx → EReal)
    (hblk : ∀ (t : Fin cfg1.N) (r : Fin 5000) (j : Fin 128),
      (out1_6 (F := Ideal) V c t : S5000x128.Idx → EReal) (ix2 r j)
        = O (ix2 (⟨5000 * t.val + r.val, by have := t.isLt; have h : cfg1.N = 20 := N_1; omega⟩ : Fin 100000) j)) :
    (dat1 (F := Ideal) V c).arrAt 7 cfg1.N = Cert.Spec.colSum O
    ∧ (dat1 (F := Ideal) V c).arrAt 8 cfg1.N = Cert.Spec.colSumSq O := by
  refine ⟨(final7 V c).trans (row_ext fun j => ?_), (final8 V c).trans (row_ext fun j => ?_)⟩
  · rw [Cert.Spec.colSum_apply]
    exact (sAfter_fst_apply V c O hblk j 19 tLast.isLt).trans (sum_blocks fun R => O (ix2 R j))
  · rw [Cert.Spec.colSumSq_apply]
    exact (sAfter_snd_apply V c O hblk j 19 tLast.isLt).trans (sum_blocks fun R => O (ix2 R j) * O (ix2 R j))

end Cert.KernelIdeal.Hand

end
-- ==== Proof.KIVal2.lean ====
/- Region 2's output array at the exact instance: the normalised rows. -/
import proofs.«153742_j79508434583745_1_alg».proof.Proof.KIData
import proofs.«153742_j79508434583745_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open scoped BigOperators
variable (V : (c : Dev nD) → (b : Ref sig .tc) → Buf (Elt Ideal) ((c : Thread nD τ).loc b))

namespace Val2

/-! ## The normalisation of one block, entry by entry -/

/-- A 1×128 row broadcast down 5000 rows reads, at row p and column q, the row's entry q. -/
theorem bcastRow_apply (x : Vec Ideal S1x128 .f32) (p : Fin 5000) (q : Fin 128) :
    broadcastTo S5000x128 x broadcasts_S1x128_S5000x128 (ix2 p q) = x (ix2 0 q) := by
  refine broadcastTo_apply x _ (ix2 p q) (ix2 0 q) fun a => ?_
  match a with
  | ⟨0, _⟩ => rfl
  | ⟨1, _⟩ => rfl

/-- The stored block at (p, q): the block's entry less the column's mean, times the reciprocal square root of the
    column's variance plus ε, times the column's scale, plus the column's shift. -/
theorem pay_apply (vr : Vec Ideal S1x128 .f32) (blk : Vec Ideal S5000x128 .f32) (mu g b : Vec Ideal S1x128 .f32)
    (p : Fin 5000) (q : Fin 128) :
    k2_pay1 vr blk mu g b (ix2 p q)
      = (blk (ix2 p q) - mu (ix2 0 q)) * Ideal.rsqrt (vr (ix2 0 q) + Cert.Spec.cEps) * g (ix2 0 q) + b (ix2 0 q) := by
  unfold k2_pay1
  simp only [shapeCast_self]
  rw [addf_apply, mulf_apply, mulf_apply, subf_apply, bcastRow_apply, bcastRow_apply, bcastRow_apply, bcastRow_apply]
  rfl

/-! ## Which rows each grid point's blocks are -/

/-- The blocks' index maps over the 20 grid points: the node block and the output block are block t of the rows, and
    each per-column row is the one block of its 1×128 array. -/
theorem idx_facts : ∀ t : Fin cfg2.N,
    win2_0.index t (0 : Fin 2) = t.val ∧ win2_0.index t (1 : Fin 2) = 0
    ∧ win2_5.index t (0 : Fin 2) = t.val ∧ win2_5.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-! ## The blocks a point is handed, as entries of the arrays -/

/-- Point t's node block at (p, q) is the array's row 5000·t + p, column q. -/
theorem node_read (c : Dev nD) (t : Fin cfg2.N) (p : Fin 5000) (q : Fin 128) (r : Fin 100000)
    (hr : r.val = t.val * 5000 + p.val) :
    (iblk2 V c 0 t : Vec Ideal S5000x128 .f32) (ix2 p q) = (V c main_v21_0 : Cert.Spec.SN128.Idx → EReal) (ix2 r q) := by
  obtain ⟨e0, e1, -⟩ := idx_facts t
  unfold iblk2
  rw [View.read_apply]
  show V c main_v21_0 _ = V c main_v21_0 _
  congr 1
  funext a
  apply Fin.ext
  match a with
  | ⟨0, _⟩ => show win2_0.index t (0 : Fin 2) * 5000 + 1 * p.val = r.val; rw [e0, hr]; omega
  | ⟨1, _⟩ => show win2_0.index t (1 : Fin 2) * 128 + 1 * q.val = q.val; rw [e1]; omega

/-- Point t's block of column means is the whole row of means. -/
theorem mean_read (c : Dev nD) (t : Fin cfg2.N) (q : Fin 128) :
    (iblk2 V c 1 t : Vec Ideal S1x128 .f32) (ix2 0 q) = (V c main_v23 : Cert.Spec.T1x128.Idx → EReal) (ix2 0 q) := by
  obtain ⟨-, -, -, -, e0, e1, -⟩ := idx_facts t
  unfold iblk2
  rw [View.read_apply]
  show V c main_v23 _ = V c main_v23 _
  congr 1
  funext a
  apply Fin.ext
  match a with
  | ⟨0, _⟩ => show win2_1.index t (0 : Fin 2) * 1 + 1 * 0 = 0; rw [e0]
  | ⟨1, _⟩ => show win2_1.index t (1 : Fin 2) * 128 + 1 * q.val = q.val; rw [e1]; omega

/-- Point t's block of column variances is the whole row of variances. -/
theorem var_read (c : Dev nD) (t : Fin cfg2.N) (q : Fin 128) :
    (iblk2 V c 2 t : Vec Ideal S1x128 .f32) (ix2 0 q) = (V c main_v27 : Cert.Spec.T1x128.Idx → EReal) (ix2 0 q) := by
  obtain ⟨-, -, -, -, -, -, e0, e1, -⟩ := idx_facts t
  unfold iblk2
  rw [View.read_apply]
  show V c main_v27 _ = V c main_v27 _
  congr 1
  funext a
  apply Fin.ext
  match a with
  | ⟨0, _⟩ => show win2_2.index t (0 : Fin 2) * 1 + 1 * 0 = 0; rw [e0]
  | ⟨1, _⟩ => show win2_2.index t (1 : Fin 2) * 128 + 1 * q.val = q.val; rw [e1]; omega

/-- Point t's block of scales is the whole row γ. -/
theorem scale_read (c : Dev nD) (t : Fin cfg2.N) (q : Fin 128) :
    (iblk2 V c 3 t : Vec Ideal S1x128 .f32) (ix2 0 q) = (V c main_v28 : Cert.Spec.T1x128.Idx → EReal) (ix2 0 q) := by
  obtain ⟨-, -, -, -, -, -, -, -, e0, e1, -⟩ := idx_facts t
  unfold iblk2
  rw [View.read_apply]
  show V c main_v28 _ = V c main_v28 _
  congr 1
  funext a
  apply Fin.ext
  match a with
  | ⟨0, _⟩ => show win2_3.index t (0 : Fin 2) * 1 + 1 * 0 = 0; rw [e0]
  | ⟨1, _⟩ => show win2_3.index t (1 : Fin 2) * 128 + 1 * q.val = q.val; rw [e1]; omega

/-- Point t's block of shifts is the whole row β. -/
theorem shift_read (c : Dev nD) (t : Fin cfg2.N) (q : Fin 128) :
    (iblk2 V c 4 t : Vec Ideal S1x128 .f32) (ix2 0 q) = (V c main_v29 : Cert.Spec.T1x128.Idx → EReal) (ix2 0 q) := by
  obtain ⟨-, -, -, -, -, -, -, -, -, -, e0, e1⟩ := idx_facts t
  unfold iblk2
  rw [View.read_apply]
  show V c main_v29 _ = V c main_v29 _
  congr 1
  funext a
  apply Fin.ext
  match a with
  | ⟨0, _⟩ => show win2_4.index t (0 : Fin 2) * 1 + 1 * 0 = 0; rw [e0]
  | ⟨1, _⟩ => show win2_4.index t (1 : Fin 2) * 128 + 1 * q.val = q.val; rw [e1]; omega

/-! ## What a point writes back, and the array after the last point -/

/-- The normalised entry from its five ingredients, each named as the array entry it is. -/
theorem bn_entry (o : Cert.Spec.SN128.Idx → EReal) (mean var g b : Cert.Spec.T1x128.Idx → EReal)
    (i : Cert.Spec.SN128.Idx) (r : Fin 100000) (q : Fin 128) (hi : i = ix2 r q)
    (x m v s d : EReal) (hx : x = o (ix2 r q)) (hm : m = mean (ix2 0 q)) (hv : v = var (ix2 0 q))
    (hs : s = g (ix2 0 q)) (hd : d = b (ix2 0 q)) :
    (x - m) * Ideal.rsqrt (v + Cert.Spec.cEps) * s + d = Cert.Spec.bn o mean var g b i := by
  subst hi hx hm hv hs hd
  rfl

/-- The output block's entry (p, q) sits at row 5000·t + p, column q of the output array. -/
theorem out_emb (t : Fin cfg2.N) (p : Fin 5000) (q : Fin 128) (r : Fin 100000) (hr : r.val = t.val * 5000 + p.val) :
    ((cfg2.win 5).blk t).view.emb (ix2 p q) = (ix2 r q : Cert.Spec.SN128.Idx) := by
  obtain ⟨-, -, e0, e1, -⟩ := idx_facts t
  funext a
  apply Fin.ext
  match a with
  | ⟨0, _⟩ => show win2_5.index t (0 : Fin 2) * 5000 + 1 * p.val = r.val; rw [e0, hr]; omega
  | ⟨1, _⟩ => show win2_5.index t (1 : Fin 2) * 128 + 1 * q.val = q.val; rw [e1]; omega

/-- What point t writes back is block t of the normalised array. -/
theorem flushed_eq (c : Dev nD) (t : Fin cfg2.N) :
    (dat2 (F := Ideal) V c).flushed 5 t
      = ((cfg2.win 5).blk t).view.read (Elt Ideal)
          (Cert.Spec.bn (V c main_v21_0) (V c main_v23) (V c main_v27) (V c main_v28) (V c main_v29)) := by
  show (cfg2.win 5).cut (grid2.coords t) ((dat2 (F := Ideal) V c).after 5 t) = _
  rw [after2_5]
  unfold out2_5
  funext j
  obtain ⟨p, q, rfl⟩ : ∃ (p : Fin 5000) (q : Fin 128), j = ix2 p q := ⟨j 0, j 1, eq_ix2 j⟩
  have hlt : t.val * 5000 + p.val < 100000 := by
    have := t.isLt; have := p.isLt; have hN : cfg2.N = 20 := N_2; omega
  rw [View.read_apply]
  show k2_pay1 (iblk2 V c 2 t) (iblk2 V c 0 t) (iblk2 V c 1 t) (iblk2 V c 3 t) (iblk2 V c 4 t) (ix2 p q) = Cert.Spec.bn (V c main_v21_0) (V c main_v23) (V c main_v27) (V c main_v28) (V c main_v29) (((cfg2.win 5).blk t).view.emb (ix2 p q))
  refine (pay_apply (iblk2 V c 2 t) (iblk2 V c 0 t) (iblk2 V c 1 t) (iblk2 V c 3 t) (iblk2 V c 4 t) p q).trans ?_
  exact bn_entry _ _ _ _ _ _ ⟨t.val * 5000 + p.val, hlt⟩ q (out_emb t p q _ rfl) _ _ _ _ _
    (node_read V c t p q _ rfl) (mean_read V c t q) (var_read V c t q) (scale_read V c t q) (shift_read V c t q)

/-- An index of the output array is in point t's block iff each coordinate lies in the block's range on its axis. -/
theorem mem_blk (t : Fin cfg2.N) (i : Cert.Spec.SN128.Idx) :
    i ∈ ((cfg2.win 5).blk t).view.set
      ↔ ∀ a : Fin 2, win2_5.index t a * S5000x128.size a ≤ (i a).val
          ∧ (i a).val < win2_5.index t a * S5000x128.size a + S5000x128.size a := by
  show i ∈ ((View.whole main_v30).slice (win2_5.rect t)).set ↔ _
  rw [View.set_slice_whole, Rect.mem_set_unit]
  exact Iff.rfl

/-- Row r of the output array lies in the block of point r / 5000: the twenty blocks tile the 100000 rows. -/
theorem cover (i : Cert.Spec.SN128.Idx) :
    ∃ t : Fin cfg2.N, (cfg2.win 5).flush t = true ∧ i ∈ ((cfg2.win 5).blk t).view.set := by
  have h0 : (i 0).val < 100000 := (i 0).isLt
  have h1 : (i 1).val < 128 := (i 1).isLt
  have hN : cfg2.N = 20 := N_2
  have ht : (i 0).val / 5000 < cfg2.N := by omega
  obtain ⟨-, -, e0, e1, -⟩ := idx_facts ⟨(i 0).val / 5000, ht⟩
  refine ⟨⟨(i 0).val / 5000, ht⟩, flush2_5 _, ?_⟩
  rw [mem_blk]
  intro a
  match a with
  | ⟨0, _⟩ =>
    show win2_5.index ⟨(i 0).val / 5000, ht⟩ (0 : Fin 2) * 5000 ≤ (i 0).val
      ∧ (i 0).val < win2_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win2_5.index ⟨(i 0).val / 5000, ht⟩ (1 : Fin 2) * 128 ≤ (i 1).val
      ∧ (i 1).val < win2_5.index ⟨(i 0).val / 5000, ht⟩ (1 : Fin 2) * 128 + 128
    rw [e1]
    omega

end Val2

/-- Every 5000-row block is normalised entry by entry with the row vectors it was handed, and the blocks tile the array. -/
theorem val2 (c : Dev nD) :
    (dat2 (F := Ideal) V c).arrAt 5 cfg2.N
      = Cert.Spec.bn (V c main_v21_0) (V c main_v23) (V c main_v27) (V c main_v28) (V c main_v29) :=
  (dat2 (F := Ideal) V c).arrAt_eq_of_cover 5
    (Cert.Spec.bn (V c main_v21_0) (V c main_v23) (V c main_v27) (V c main_v28) (V c main_v29))
    (fun t _ => Val2.flushed_eq V c t) Val2.cover

end Cert.KernelIdeal.Hand

end
-- ==== Proof.KIHost.lean ====
/- What the kernel program's host stretches compute, read at the exact instance: the arrays each region is handed, in terms of the launch arrays and of what the regions before left. -/
import proofs.«153742_j79508434583745_1_alg».proof.Proof.KIW
import proofs.«153742_j79508434583745_1_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.Spec (row lo hi meanK varK)
open Cert.KernelIdeal Cert.KernelIdeal.Gen
open scoped BigOperators

variable (m : (ℓ : Loc nD τ sig) → Buf (Elt Ideal) ℓ)

/-- A launch array on core c. -/
abbrev A (c : Dev nD) (r : Ref sig .tc) : Buf (Elt Ideal) ((c : Thread nD τ).loc r) := m ((c.tc : Thread nD τ).loc r)

/-- Each edge's source node as a gather index: row 0 of the edge list, negative entries wrapped by the node count. -/
def srcIdx (e : IVec S2x1600000 32) : IVec S1600000x1 32 :=
  let v1 : IVec S1600000 32 := shapeCast S1600000 (extractStridedSlice S1x1600000 ![0, 0] e slices_S2x1600000_S1x1600000_0_0) shapeCasts_S1x1600000_S1600000
  let v4 : IVec S1600000 32 := broadcastInDim S1600000 ![] bcast_S_S1600000 (constantI S_ 32 0#32)
  let v6 : IVec S1600000 32 := broadcastInDim S1600000 ![] bcast_S_S1600000 (constantI S_ 32 100000#32)
  broadcastInDim S1600000x1 ![0] bcast_S1600000_S1600000x1_0 (select (cmpi .slt v1 v4) (addi v1 v6) v1)

/-- Each edge's target node as a scatter index: row 1 of the edge list. -/
def dstIdx (e : IVec S2x1600000 32) : IVec S1600000x1 32 :=
  broadcastInDim S1600000x1 ![0] bcast_S1600000_S1600000x1_0
    (shapeCast S1600000 (extractStridedSlice S1x1600000 ![1, 0] e slices_S2x1600000_S1x1600000_1_0) shapeCasts_S1x1600000_S1600000)

/-- The scatter's operand: the zero array. -/
def zeros64 : FVec Ideal S100000x64 .f32 := broadcastInDim S100000x64 ![] bcast_S_S100000x64 (constant (F := Ideal) S_ .f32 0x00000000#32)

/-! ### Reading the forms -/

/-- A length-n vector reshaped to one row is that vector as a row. -/
theorem shapeCast_eq_row {n : Nat} (x : (⟨1, ![n]⟩ : Shape).Idx → EReal) (h : (⟨1, ![n]⟩ : Shape).ShapeCasts ⟨2, ![1, n]⟩) :
    shapeCast ⟨2, ![1, n]⟩ x h = row x := by
  funext i
  obtain ⟨u, k, rfl⟩ : ∃ (u : Fin 1) (k : Fin n), i = ix2 u k := ⟨i 0, i 1, eq_ix2 i⟩
  exact shapeCast_a_1a_apply x h u k

/-- The slice of a 64×128 matrix at column offset 0 is its first 64 columns. -/
theorem slice_eq_lo (w : Cert.Spec.T64x128.Idx → EReal) (h : Cert.Spec.T64x128.Slices ![0, 0] Cert.Spec.T64x64) :
    extractStridedSlice Cert.Spec.T64x64 ![0, 0] w h = lo w := by
  funext i
  obtain ⟨a, j, rfl⟩ : ∃ (a : Fin 64) (j : Fin 64), i = ix2 a j := ⟨i 0, i 1, eq_ix2 i⟩
  exact slice2_axis1_apply 0 w h a j (Fin.castAdd 64 j) (by rw [Fin.coe_castAdd, Nat.zero_add])

/-- The slice at column offset 64 is its last 64 columns. -/
theorem slice_eq_hi (w : Cert.Spec.T64x128.Idx → EReal) (h : Cert.Spec.T64x128.Slices ![0, 64] Cert.Spec.T64x64) :
    extractStridedSlice Cert.Spec.T64x64 ![0, 64] w h = hi w := by
  funext i
  obtain ⟨a, j, rfl⟩ : ∃ (a : Fin 64) (j : Fin 64), i = ix2 a j := ⟨i 0, i 1, eq_ix2 i⟩
  exact slice2_axis1_apply 64 w h a j (Fin.natAdd 64 j) (by rw [Fin.coe_natAdd])

/-! ### The valuations between the stretches, read at one reference -/

theorem W2_of_ne (c : Dev nD) (r : Ref sig .tc) (h : r ≠ main_v15) : W2 m c r = W1 m c r := by
  unfold W2
  exact Function.update_of_ne (StableHlo.devRef_ne_of_ne h) _ _

theorem W2_v15 (c : Dev nD) : W2 m c main_v15 = o2 m c := by
  unfold W2
  exact Function.update_self _ _ _

theorem W4_of_ne (c : Dev nD) (r : Ref sig .tc) (h0 : r ≠ main_v21_0) (h1 : r ≠ main_v21_1) (h2 : r ≠ main_v21_2) : W4 m c r = W3 m c r := by
  unfold W4
  rw [Function.update_of_ne (StableHlo.devRef_ne_of_ne h2), Function.update_of_ne (StableHlo.devRef_ne_of_ne h1), Function.update_of_ne (StableHlo.devRef_ne_of_ne h0)]

theorem W4_v21_0 (c : Dev nD) : W4 m c main_v21_0 = o4_0 m c := by
  unfold W4
  rw [Function.update_of_ne (StableHlo.devRef_ne_of_ne (by decide)), Function.update_of_ne (StableHlo.devRef_ne_of_ne (by decide)), Function.update_self]

theorem W4_v21_1 (c : Dev nD) : W4 m c main_v21_1 = o4_1 m c := by
  unfold W4
  rw [Function.update_of_ne (StableHlo.devRef_ne_of_ne (by decide)), Function.update_self]

theorem W4_v21_2 (c : Dev nD) : W4 m c main_v21_2 = o4_2 m c := by
  unfold W4
  rw [Function.update_self]

/-- A launch array no stretch before region 1 writes, read at region 1's entry. -/
theorem W3_arg (c : Dev nD) (r : Ref sig .tc) (h0 : r ∉ hostOps0_W) (h1 : r ∉ hostOps1_W) (h : r ≠ main_v15) : W3 m c r = A m c r :=
  (StableHlo.after_of_writes_sub hostOps1 _ hostOps1_writes h1).trans ((W2_of_ne m c r h).trans (V1_of m c r h0))

/-- The same one stretch earlier. -/
theorem W2_arg (c : Dev nD) (r : Ref sig .tc) (h0 : r ∉ hostOps0_W) (h : r ≠ main_v15) : W2 m c r = A m c r :=
  (W2_of_ne m c r h).trans (V1_of m c r h0)

/-- And two stretches later. -/
theorem W4_arg (c : Dev nD) (r : Ref sig .tc) (h0 : r ∉ hostOps0_W) (h1 : r ∉ hostOps1_W) (h : r ≠ main_v15)
    (k0 : r ≠ main_v21_0) (k1 : r ≠ main_v21_1) (k2 : r ≠ main_v21_2) : W4 m c r = A m c r :=
  (W4_of_ne m c r k0 k1 k2).trans (W3_arg m c r h0 h1 h)

/-- Row 1 of the edge list as a vector, as the first stretch leaves it. -/
theorem W1_v3 (c : Dev nD) : W1 m c main_v3 = (shapeCast S1600000 (extractStridedSlice S1x1600000 ![1, 0] (A m c main_arg2) slices_S2x1600000_S1x1600000_1_0) shapeCasts_S1x1600000_S1600000 : IVec S1600000 32) := by
  show StableHlo.after hostOps0 _ (Proc.devRef .tc main_v3) = _
  after_results
  rfl

/-! ### Region 0's entry -/
theorem W1_v10 (c : Dev nD) : W1 m c main_v10 = Host.gather gather_S100000x64_S1600000x1_S1600000x64_1_0_n_n_0_1_164 (A m c main_arg0) (srcIdx (A m c main_arg2)) := by
  show StableHlo.after hostOps0 _ (Proc.devRef .tc main_v10) = _
  after_results
  rfl
theorem W1_v11 (c : Dev nD) : W1 m c main_v11 = lo (A m c main_arg4) := by
  show StableHlo.after hostOps0 _ (Proc.devRef .tc main_v11) = _
  after_results
  exact slice_eq_lo _ _
theorem W1_v12 (c : Dev nD) : W1 m c main_v12 = hi (A m c main_arg4) := by
  show StableHlo.after hostOps0 _ (Proc.devRef .tc main_v12) = _
  after_results
  exact slice_eq_hi _ _
theorem W1_v13 (c : Dev nD) : W1 m c main_v13 = row (A m c main_arg5) := by
  show StableHlo.after hostOps0 _ (Proc.devRef .tc main_v13) = _
  after_results
  exact shapeCast_eq_row _ _
theorem W1_v14 (c : Dev nD) : W1 m c main_v14 = row (A m c main_arg7) := by
  show StableHlo.after hostOps0 _ (Proc.devRef .tc main_v14) = _
  after_results
  exact shapeCast_eq_row _ _
theorem W1_arg1 (c : Dev nD) : W1 m c main_arg1 = A m c main_arg1 := V1_of m c main_arg1 (by decide)
theorem W1_arg6 (c : Dev nD) : W1 m c main_arg6 = A m c main_arg6 := V1_of m c main_arg6 (by decide)

/-! ### Region 1's entry -/
theorem W3_v18 (c : Dev nD) : W3 m c main_v18 = Host.scatterAdd scatter_S100000x64_S1600000x1_S1600000x64_1_0_0_1 zeros64 (dstIdx (A m c main_arg2)) (o2 m c) := by
  show StableHlo.after hostOps1 _ (Proc.devRef .tc main_v18) = _
  after_results
  rw [W2_v15, W2_of_ne m c main_v3 (by decide), W1_v3]
  rfl
theorem W3_v19 (c : Dev nD) : W3 m c main_v19 = row (A m c main_arg9) := by
  show StableHlo.after hostOps1 _ (Proc.devRef .tc main_v19) = _
  after_results
  rw [W2_arg m c main_arg9 (by decide) (by decide)]
  exact shapeCast_eq_row _ _
theorem W3_v20 (c : Dev nD) : W3 m c main_v20 = row (A m c main_arg11) := by
  show StableHlo.after hostOps1 _ (Proc.devRef .tc main_v20) = _
  after_results
  rw [W2_arg m c main_arg11 (by decide) (by decide)]
  exact shapeCast_eq_row _ _
theorem W3_arg0 (c : Dev nD) : W3 m c main_arg0 = A m c main_arg0 := W3_arg m c main_arg0 (by decide) (by decide) (by decide)
theorem W3_arg8 (c : Dev nD) : W3 m c main_arg8 = A m c main_arg8 := W3_arg m c main_arg8 (by decide) (by decide) (by decide)
theorem W3_arg10 (c : Dev nD) : W3 m c main_arg10 = A m c main_arg10 := W3_arg m c main_arg10 (by decide) (by decide) (by decide)

/-! ### Region 2's entry -/
theorem W5_v21_0 (c : Dev nD) : W5 m c main_v21_0 = o4_0 m c :=
  (StableHlo.after_of_writes_sub hostOps2 _ hostOps2_writes (by decide)).trans (W4_v21_0 m c)
theorem W5_v23 (c : Dev nD) : W5 m c main_v23 = meanK (o4_1 m c) := by
  show StableHlo.after hostOps2 _ (Proc.devRef .tc main_v23) = _
  after_results
  rw [W4_v21_1]
  rfl
theorem W5_v27 (c : Dev nD) : W5 m c main_v27 = varK (o4_1 m c) (o4_2 m c) := by
  show StableHlo.after hostOps2 _ (Proc.devRef .tc main_v27) = _
  after_results
  rw [W4_v21_1, W4_v21_2]
  rfl
theorem W5_v28 (c : Dev nD) : W5 m c main_v28 = row (A m c main_arg12) := by
  show StableHlo.after hostOps2 _ (Proc.devRef .tc main_v28) = _
  after_results
  rw [W4_arg m c main_arg12 (by decide) (by decide) (by decide) (by decide) (by decide) (by decide)]
  exact shapeCast_eq_row _ _
theorem W5_v29 (c : Dev nD) : W5 m c main_v29 = row (A m c main_arg13) := by
  show StableHlo.after hostOps2 _ (Proc.devRef .tc main_v29) = _
  after_results
  rw [W4_arg m c main_arg13 (by decide) (by decide) (by decide) (by decide) (by decide) (by decide)]
  exact shapeCast_eq_row _ _

end Cert.KernelIdeal.Hand

end
-- ==== Proof.KIBridge.lean ====
/-
  The kernel program's result array, as one function of the launch arrays: the three regions' values chained through
  the host stretches between them. The edge messages (region 0) are summed into their target nodes by the host
  scatter; the node update (region 1) leaves the pre-normalisation rows with their column sums and column sums of
  squares; the host takes mean and variance from the two sums; region 2 normalises.
-/
import proofs.«153742_j79508434583745_1_alg».proof.Proof.KIW
import proofs.«153742_j79508434583745_1_alg».proof.Proof.KIVal0
import proofs.«153742_j79508434583745_1_alg».proof.Proof.KIVal1a
import proofs.«153742_j79508434583745_1_alg».proof.Proof.KIVal1b
import proofs.«153742_j79508434583745_1_alg».proof.Proof.KIVal2
import proofs.«153742_j79508434583745_1_alg».proof.Proof.KIHost
import proofs.«153742_j79508434583745_1_alg».proof.Proof.Spec

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open Cert.Spec (row lo hi meanK varK msgArr opreArr colSum colSumSq bn finalK)

variable (m : (ℓ : Loc nD τ sig) → Buf (Elt Ideal) ℓ)

/-- The source-node rows the gather hands region 0. -/
def xsK (c : Dev nD) : FVec Ideal S1600000x64 .f32 :=
  Host.gather gather_S100000x64_S1600000x1_S1600000x64_1_0_n_n_0_1_164 (A m c main_arg0) (srcIdx (A m c main_arg2))

/-- The edge messages, from the launch arrays. -/
def msgK (c : Dev nD) : Cert.Spec.SE64.Idx → EReal :=
  msgArr (xsK m c) (A m c main_arg1) (lo (A m c main_arg4)) (hi (A m c main_arg4)) (row (A m c main_arg5)) (A m c main_arg6) (row (A m c main_arg7))

/-- The messages summed into their target nodes. -/
def aggK (c : Dev nD) : FVec Ideal S100000x64 .f32 :=
  Host.scatterAdd scatter_S100000x64_S1600000x1_S1600000x64_1_0_0_1 zeros64 (dstIdx (A m c main_arg2)) (msgK m c)

/-- The pre-normalisation rows, from the launch arrays. -/
def opreK (c : Dev nD) : Cert.Spec.SN128.Idx → EReal :=
  opreArr (A m c main_arg0) (aggK m c) (A m c main_arg8) (row (A m c main_arg9)) (A m c main_arg10) (row (A m c main_arg11))

theorem o2_eq (c : Dev nD) : o2 m c = msgK m c := by
  unfold o2 msgK xsK
  rw [val0 (U1 m) c]
  show msgArr (W1 m c main_v10) (W1 m c main_arg1) (W1 m c main_v11) (W1 m c main_v12) (W1 m c main_v13) (W1 m c main_arg6) (W1 m c main_v14) = _
  rw [W1_v10, W1_arg1, W1_v11, W1_v12, W1_v13, W1_arg6, W1_v14]

theorem U3_v18 (c : Dev nD) : W3 m c main_v18 = aggK m c := by
  rw [W3_v18, o2_eq]; rfl

theorem o4_0_eq (c : Dev nD) : o4_0 m c = opreK m c := by
  unfold o4_0 opreK
  rw [val1_6 (U3 m) c]
  show opreArr (W3 m c main_arg0) (W3 m c main_v18) (W3 m c main_arg8) (W3 m c main_v19) (W3 m c main_arg10) (W3 m c main_v20) = _
  rw [W3_arg0, U3_v18, W3_arg8, W3_v19, W3_arg10, W3_v20]

theorem o4_12_eq (c : Dev nD) : o4_1 m c = colSum (opreK m c) ∧ o4_2 m c = colSumSq (opreK m c) := by
  have h := val1_78 (U3 m) c (opreK m c) (fun t r j => by
    rw [blk1_apply (U3 m) c t r j]
    show Cert.Spec.opre (W3 m c main_arg0) (W3 m c main_v18) (W3 m c main_arg8) (W3 m c main_v19) (W3 m c main_arg10) (W3 m c main_v20) _ j = _
    rw [W3_arg0, U3_v18, W3_arg8, W3_v19, W3_arg10, W3_v20]
    rfl)
  exact h

/-- The kernel program's result: the normalisation, with the variance as E[o²] − E[o]², of the pre-normalisation rows. -/
theorem o6_eq (c : Dev nD) : o6 m c = finalK (opreK m c) (row (A m c main_arg12)) (row (A m c main_arg13)) := by
  unfold o6 finalK
  rw [val2 (U5 m) c]
  show bn (W5 m c main_v21_0) (W5 m c main_v23) (W5 m c main_v27) (W5 m c main_v28) (W5 m c main_v29) = _
  rw [W5_v21_0, W5_v23, W5_v27, W5_v28, W5_v29, o4_0_eq, (o4_12_eq m c).1, (o4_12_eq m c).2]

end Cert.KernelIdeal.Hand

end
-- ==== Proof.RefRead.lean ====
/-
  The reference program read at an index, over the extended reals.

  Each stretch of the reference is a chain of whole-array operations; read at one index it is a formula in the entries
  of the arrays it starts from.  The first part reads each kind of stretch once, over arbitrary arrays of the program's
  literal shapes: a broadcast reads one entry of its operand; a transposed matrix reads the mirrored entry; two arrays
  side by side read the left one on the first 64 columns and the right one on the last 64; a product of two matrices
  contracted over one axis is the sum over that axis of the products of the entries.  From these: the two message layers
  and the two layers of the node update with its skip connection, each equal to the formula of the same name in the
  specification.  The second part composes them along the program: the edge messages, their sum into the destination
  nodes, the array that is normalised, and the result as the normalisation stage of that array (the normalisation stage
  itself, the column statistics, is read in a module of its own).
-/
import proofs.«153742_j79508434583745_1_alg».proof.Proof.RefRun
import proofs.«153742_j79508434583745_1_alg».proof.Proof.Spec
import Idealize.ShloMosaic.PureOps.Ideal.Laws
import Idealize.ShloMosaic.Lib.ValueLayout

noncomputable section

open scoped BigOperators

namespace Cert.ReferenceIdeal.Read

open Cert.ReferenceIdeal Idealize.ShloMosaic Idealize.ShloMosaic.ValueIdx

/-! ## Broadcasts, a transposed matrix, and two arrays side by side, at an index -/

/-- A scalar spread over any shape reads the scalar. -/
theorem bcast_scalar_apply {α : Type} {t : Shape} (h : S_.BroadcastsInDim t (![] : Fin 0 → Fin t.rank)) (x : S_.Idx → α) (j : t.Idx) :
    broadcastInDim t ![] h x j = x ix0 :=
  broadcastInDim_apply _ h x j ix0 fun a => a.elim0

/-- The constant whose word is all zeros, spread over any shape, reads 0. -/
theorem bcast_zero_apply {t : Shape} (h : S_.BroadcastsInDim t (![] : Fin 0 → Fin t.rank)) (j : t.Idx) :
    broadcastInDim t ![] h (constant (F := Ideal) S_ .f32 0x00000000#32) j = 0 := by
  rw [bcast_scalar_apply, constant_apply, Ideal.ofBits_zero_f32]

/-- A vector of 64 made a 1 × 64 array is the row of the specification. -/
theorem bcast_row64 (h : S64.BroadcastsInDim S1x64 (![1] : Fin 1 → Fin S1x64.rank)) (b : FVec Ideal S64 .f32) :
    broadcastInDim S1x64 ![1] h b = Spec.row b := by
  funext i
  refine broadcastInDim_apply _ h b i (ix1 (i 1)) fun a => ?_
  match a with
  | ⟨0, _⟩ => rfl

/-- A vector of 128 made a 1 × 128 array is the row of the specification. -/
theorem bcast_row128 (h : S128.BroadcastsInDim S1x128 (![1] : Fin 1 → Fin S1x128.rank)) (b : FVec Ideal S128 .f32) :
    broadcastInDim S1x128 ![1] h b = Spec.row b := by
  funext i
  refine broadcastInDim_apply _ h b i (ix1 (i 1)) fun a => ?_
  match a with
  | ⟨0, _⟩ => rfl

/-- A 1 × 64 array repeated at every edge reads its one row. -/
theorem bcast_rows64 {α : Type} (h : S1x64.BroadcastsInDim S1600000x64 (![0, 1] : Fin 2 → Fin S1600000x64.rank)) (v : S1x64.Idx → α)
    (e : Fin 1600000) (k : Fin 64) : broadcastInDim S1600000x64 ![0, 1] h v (ix2 e k) = v (ix2 0 k) :=
  broadcastInDim_apply _ h v _ _ fun a => match a with | ⟨0, _⟩ => rfl | ⟨1, _⟩ => rfl

/-- A 1 × 128 array repeated at every node reads its one row. -/
theorem bcast_rows128 {α : Type} (h : S1x128.BroadcastsInDim S100000x128 (![0, 1] : Fin 2 → Fin S100000x128.rank)) (v : S1x128.Idx → α)
    (r : Fin 100000) (j : Fin 128) : broadcastInDim S100000x128 ![0, 1] h v (ix2 r j) = v (ix2 0 j) :=
  broadcastInDim_apply _ h v _ _ fun a => match a with | ⟨0, _⟩ => rfl | ⟨1, _⟩ => rfl

/-- Two m × 64 arrays side by side, at a column below 64: the left one. -/
theorem cat_lt {α : Type} {m : Nat} (x y : (⟨2, ![m, 64]⟩ : Shape).Idx → α)
    (h : Shape.Concatenates [(⟨2, ![m, 64]⟩ : Shape), ⟨2, ![m, 64]⟩] ⟨2, ![m, 128]⟩ 1) (e : Fin m) (c : Fin 128) (hc : c.val < 64) :
    concatenate ⟨2, ![m, 128]⟩ 1 [⟨⟨2, ![m, 64]⟩, x⟩, ⟨⟨2, ![m, 64]⟩, y⟩] h (ix2 e c) = x (ix2 e ⟨c.val, hc⟩) :=
  concatenate_pair_apply_left 1 x y h (ix2 e c) rfl (ix2 e ⟨c.val, hc⟩) fun b => match b with | ⟨0, _⟩ => rfl | ⟨1, _⟩ => rfl

/-- Two m × 64 arrays side by side, at a column from 64 on: the right one, 64 columns back. -/
theorem cat_ge {α : Type} {m : Nat} (x y : (⟨2, ![m, 64]⟩ : Shape).Idx → α)
    (h : Shape.Concatenates [(⟨2, ![m, 64]⟩ : Shape), ⟨2, ![m, 64]⟩] ⟨2, ![m, 128]⟩ 1) (e : Fin m) (c : Fin 128) (hc : ¬c.val < 64) :
    concatenate ⟨2, ![m, 128]⟩ 1 [⟨⟨2, ![m, 64]⟩, x⟩, ⟨⟨2, ![m, 64]⟩, y⟩] h (ix2 e c)
      = y (ix2 e ⟨c.val - 64, by have := c.isLt; omega⟩) :=
  concatenate_pair_apply_right 1 x y h (ix2 e c) rfl rfl (ix2 e ⟨c.val - 64, by have := c.isLt; omega⟩)
    (fun b hb => match b, hb with
      | ⟨0, _⟩, _ => rfl
      | ⟨1, _⟩, hb => absurd rfl hb)
    (by show c.val - 64 + 64 = c.val; omega)

/-- At a column that is one of the first 64. -/
theorem cat_castAdd {α : Type} {m : Nat} (x y : (⟨2, ![m, 64]⟩ : Shape).Idx → α)
    (h : Shape.Concatenates [(⟨2, ![m, 64]⟩ : Shape), ⟨2, ![m, 64]⟩] ⟨2, ![m, 128]⟩ 1) (e : Fin m) (l : Fin 64) :
    concatenate ⟨2, ![m, 128]⟩ 1 [⟨⟨2, ![m, 64]⟩, x⟩, ⟨⟨2, ![m, 64]⟩, y⟩] h (ix2 e (Fin.castAdd 64 l)) = x (ix2 e l) :=
  cat_lt x y h e (Fin.castAdd 64 l) l.isLt

/-- At a column that is one of the last 64. -/
theorem cat_natAdd {α : Type} {m : Nat} (x y : (⟨2, ![m, 64]⟩ : Shape).Idx → α)
    (h : Shape.Concatenates [(⟨2, ![m, 64]⟩ : Shape), ⟨2, ![m, 64]⟩] ⟨2, ![m, 128]⟩ 1) (e : Fin m) (l : Fin 64) :
    concatenate ⟨2, ![m, 128]⟩ 1 [⟨⟨2, ![m, 64]⟩, x⟩, ⟨⟨2, ![m, 64]⟩, y⟩] h (ix2 e (Fin.natAdd 64 l)) = y (ix2 e l) := by
  rw [cat_ge x y h e (Fin.natAdd 64 l) (by show ¬(64 + l.val < 64); omega)]
  exact congrArg (fun q => y (ix2 e q)) (Fin.ext (by show 64 + l.val - 64 = l.val; omega))

/-- A node's features beside its summed messages are the specification's column selector. -/
theorem cat_zcat (x agg : FVec Ideal S100000x64 .f32)
    (h : Shape.Concatenates [S100000x64, S100000x64] S100000x128 1) (r : Fin 100000) (l : Fin 128) :
    concatenate S100000x128 1 [⟨S100000x64, x⟩, ⟨S100000x64, agg⟩] h (ix2 r l) = Spec.zcat x agg r l := by
  unfold Spec.zcat
  by_cases hl : l.val < 64
  · rw [dif_pos hl]; exact cat_lt x agg h r l hl
  · rw [dif_neg hl]; exact cat_ge x agg h r l hl

/-! ## The three matrix products at an index

Each contracts the second axis of its left operand with the first axis of its right operand: at (p, k) it is the sum
over c of left(p, c) · right(c, k).  First the operand indices the product's definition computes, read axis by axis
(the free axis reads the result's coordinate, the contracted axis the contraction's); then the sum re-indexed by the
contracted coordinate. -/

/-- The first message layer's product, 1600000 × 128 by 128 × 64: its operand indices. -/
theorem lhs_e0_0 (i : S1600000x64.Idx) (q : (dot_S1600000x128_S128x64_S1600000x64_1_0_0_1_n_n).contr.Idx) :
    ((dot_S1600000x128_S128x64_S1600000x64_1_0_0_1_n_n).lhsIdx i q 0).val = (i 0).val := by
  unfold DotDims.lhsIdx
  rw [dif_neg (show ¬(0 : Fin S1600000x128.rank) ∈ (dot_S1600000x128_S128x64_S1600000x64_1_0_0_1_n_n).lhsBatch by decide),
    dif_pos (show (0 : Fin S1600000x128.rank) ∈ (dot_S1600000x128_S128x64_S1600000x64_1_0_0_1_n_n).lhsNonContracting by decide)]
  rfl
theorem lhs_e0_1 (i : S1600000x64.Idx) (q : (dot_S1600000x128_S128x64_S1600000x64_1_0_0_1_n_n).contr.Idx) :
    ((dot_S1600000x128_S128x64_S1600000x64_1_0_0_1_n_n).lhsIdx i q 1).val = (q ⟨0, by decide⟩).val :=
  (dot_S1600000x128_S128x64_S1600000x64_1_0_0_1_n_n).lhsIdx_val_of_single rfl i q
theorem rhs_e0_0 (i : S1600000x64.Idx) (q : (dot_S1600000x128_S128x64_S1600000x64_1_0_0_1_n_n).contr.Idx) :
    ((dot_S1600000x128_S128x64_S1600000x64_1_0_0_1_n_n).rhsIdx i q 0).val = (q ⟨0, by decide⟩).val :=
  (dot_S1600000x128_S128x64_S1600000x64_1_0_0_1_n_n).rhsIdx_val_of_single rfl i q
theorem rhs_e0_1 (i : S1600000x64.Idx) (q : (dot_S1600000x128_S128x64_S1600000x64_1_0_0_1_n_n).contr.Idx) :
    ((dot_S1600000x128_S128x64_S1600000x64_1_0_0_1_n_n).rhsIdx i q 1).val = (i 1).val := by
  unfold DotDims.rhsIdx
  rw [dif_neg (show ¬(1 : Fin S128x64.rank) ∈ (dot_S1600000x128_S128x64_S1600000x64_1_0_0_1_n_n).rhsBatch by decide),
    dif_pos (show (1 : Fin S128x64.rank) ∈ (dot_S1600000x128_S128x64_S1600000x64_1_0_0_1_n_n).rhsNonContracting by decide)]
  rfl

theorem dot_e0_apply (l : FVec Ideal S1600000x128 .f32) (r : FVec Ideal S128x64 .f32) (p : Fin 1600000) (k : Fin 64) :
    Host.dotGeneral (F := Ideal) dot_S1600000x128_S128x64_S1600000x64_1_0_0_1_n_n none l r (ix2 p k)
      = ∑ c : Fin 128, l (ix2 p c) * r (ix2 c k) := by
  simp only [Host.dotGeneral]
  rw [Ideal.dotGeneral_apply, ← Equiv.sum_comp (contrEquiv1 dot_S1600000x128_S128x64_S1600000x64_1_0_0_1_n_n 128 rfl rfl).symm]
  refine Finset.sum_congr rfl fun c _ => ?_
  have hk := contrEquiv1_symm_val dot_S1600000x128_S128x64_S1600000x64_1_0_0_1_n_n 128 rfl rfl c
  have el : (dot_S1600000x128_S128x64_S1600000x64_1_0_0_1_n_n).lhsIdx (ix2 p k) ((contrEquiv1 dot_S1600000x128_S128x64_S1600000x64_1_0_0_1_n_n 128 rfl rfl).symm c) = ix2 p c :=
    funext fun a => Fin.ext (by
      match a with
      | ⟨0, _⟩ => exact lhs_e0_0 _ _
      | ⟨1, _⟩ => exact (lhs_e0_1 _ _).trans hk)
  have er : (dot_S1600000x128_S128x64_S1600000x64_1_0_0_1_n_n).rhsIdx (ix2 p k) ((contrEquiv1 dot_S1600000x128_S128x64_S1600000x64_1_0_0_1_n_n 128 rfl rfl).symm c) = ix2 c k :=
    funext fun a => Fin.ext (by
      match a with
      | ⟨0, _⟩ => exact (rhs_e0_0 _ _).trans hk
      | ⟨1, _⟩ => exact rhs_e0_1 _ _)
  rw [el, er]

/-- The second message layer's product, 1600000 × 64 by 64 × 64: its operand indices. -/
theorem lhs_e1_0 (i : S1600000x64.Idx) (q : (dot_S1600000x64_S64x64_S1600000x64_1_0_0_1_n_n).contr.Idx) :
    ((dot_S1600000x64_S64x64_S1600000x64_1_0_0_1_n_n).lhsIdx i q 0).val = (i 0).val := by
  unfold DotDims.lhsIdx
  rw [dif_neg (show ¬(0 : Fin S1600000x64.rank) ∈ (dot_S1600000x64_S64x64_S1600000x64_1_0_0_1_n_n).lhsBatch by decide),
    dif_pos (show (0 : Fin S1600000x64.rank) ∈ (dot_S1600000x64_S64x64_S1600000x64_1_0_0_1_n_n).lhsNonContracting by decide)]
  rfl
theorem lhs_e1_1 (i : S1600000x64.Idx) (q : (dot_S1600000x64_S64x64_S1600000x64_1_0_0_1_n_n).contr.Idx) :
    ((dot_S1600000x64_S64x64_S1600000x64_1_0_0_1_n_n).lhsIdx i q 1).val = (q ⟨0, by decide⟩).val :=
  (dot_S1600000x64_S64x64_S1600000x64_1_0_0_1_n_n).lhsIdx_val_of_single rfl i q
theorem rhs_e1_0 (i : S1600000x64.Idx) (q : (dot_S1600000x64_S64x64_S1600000x64_1_0_0_1_n_n).contr.Idx) :
    ((dot_S1600000x64_S64x64_S1600000x64_1_0_0_1_n_n).rhsIdx i q 0).val = (q ⟨0, by decide⟩).val :=
  (dot_S1600000x64_S64x64_S1600000x64_1_0_0_1_n_n).rhsIdx_val_of_single rfl i q
theorem rhs_e1_1 (i : S1600000x64.Idx) (q : (dot_S1600000x64_S64x64_S1600000x64_1_0_0_1_n_n).contr.Idx) :
    ((dot_S1600000x64_S64x64_S1600000x64_1_0_0_1_n_n).rhsIdx i q 1).val = (i 1).val := by
  unfold DotDims.rhsIdx
  rw [dif_neg (show ¬(1 : Fin S64x64.rank) ∈ (dot_S1600000x64_S64x64_S1600000x64_1_0_0_1_n_n).rhsBatch by decide),
    dif_pos (show (1 : Fin S64x64.rank) ∈ (dot_S1600000x64_S64x64_S1600000x64_1_0_0_1_n_n).rhsNonContracting by decide)]
  rfl

theorem dot_e1_apply (l : FVec Ideal S1600000x64 .f32) (r : FVec Ideal S64x64 .f32) (p : Fin 1600000) (k : Fin 64) :
    Host.dotGeneral (F := Ideal) dot_S1600000x64_S64x64_S1600000x64_1_0_0_1_n_n none l r (ix2 p k)
      = ∑ c : Fin 64, l (ix2 p c) * r (ix2 c k) := by
  simp only [Host.dotGeneral]
  rw [Ideal.dotGeneral_apply, ← Equiv.sum_comp (contrEquiv1 dot_S1600000x64_S64x64_S1600000x64_1_0_0_1_n_n 64 rfl rfl).symm]
  refine Finset.sum_congr rfl fun c _ => ?_
  have hk := contrEquiv1_symm_val dot_S1600000x64_S64x64_S1600000x64_1_0_0_1_n_n 64 rfl rfl c
  have el : (dot_S1600000x64_S64x64_S1600000x64_1_0_0_1_n_n).lhsIdx (ix2 p k) ((contrEquiv1 dot_S1600000x64_S64x64_S1600000x64_1_0_0_1_n_n 64 rfl rfl).symm c) = ix2 p c :=
    funext fun a => Fin.ext (by
      match a with
      | ⟨0, _⟩ => exact lhs_e1_0 _ _
      | ⟨1, _⟩ => exact (lhs_e1_1 _ _).trans hk)
  have er : (dot_S1600000x64_S64x64_S1600000x64_1_0_0_1_n_n).rhsIdx (ix2 p k) ((contrEquiv1 dot_S1600000x64_S64x64_S1600000x64_1_0_0_1_n_n 64 rfl rfl).symm c) = ix2 c k :=
    funext fun a => Fin.ext (by
      match a with
      | ⟨0, _⟩ => exact (rhs_e1_0 _ _).trans hk
      | ⟨1, _⟩ => exact rhs_e1_1 _ _)
  rw [el, er]

/-- The node update's two products, 100000 × 128 by 128 × 128: their operand indices. -/
theorem lhs_n_0 (i : S100000x128.Idx) (q : (dot_S100000x128_S128x128_S100000x128_1_0_0_1_n_n).contr.Idx) :
    ((dot_S100000x128_S128x128_S100000x128_1_0_0_1_n_n).lhsIdx i q 0).val = (i 0).val := by
  unfold DotDims.lhsIdx
  rw [dif_neg (show ¬(0 : Fin S100000x128.rank) ∈ (dot_S100000x128_S128x128_S100000x128_1_0_0_1_n_n).lhsBatch by decide),
    dif_pos (show (0 : Fin S100000x128.rank) ∈ (dot_S100000x128_S128x128_S100000x128_1_0_0_1_n_n).lhsNonContracting by decide)]
  rfl
theorem lhs_n_1 (i : S100000x128.Idx) (q : (dot_S100000x128_S128x128_S100000x128_1_0_0_1_n_n).contr.Idx) :
    ((dot_S100000x128_S128x128_S100000x128_1_0_0_1_n_n).lhsIdx i q 1).val = (q ⟨0, by decide⟩).val :=
  (dot_S100000x128_S128x128_S100000x128_1_0_0_1_n_n).lhsIdx_val_of_single rfl i q
theorem rhs_n_0 (i : S100000x128.Idx) (q : (dot_S100000x128_S128x128_S100000x128_1_0_0_1_n_n).contr.Idx) :
    ((dot_S100000x128_S128x128_S100000x128_1_0_0_1_n_n).rhsIdx i q 0).val = (q ⟨0, by decide⟩).val :=
  (dot_S100000x128_S128x128_S100000x128_1_0_0_1_n_n).rhsIdx_val_of_single rfl i q
theorem rhs_n_1 (i : S100000x128.Idx) (q : (dot_S100000x128_S128x128_S100000x128_1_0_0_1_n_n).contr.Idx) :
    ((dot_S100000x128_S128x128_S100000x128_1_0_0_1_n_n).rhsIdx i q 1).val = (i 1).val := by
  unfold DotDims.rhsIdx
  rw [dif_neg (show ¬(1 : Fin S128x128.rank) ∈ (dot_S100000x128_S128x128_S100000x128_1_0_0_1_n_n).rhsBatch by decide),
    dif_pos (show (1 : Fin S128x128.rank) ∈ (dot_S100000x128_S128x128_S100000x128_1_0_0_1_n_n).rhsNonContracting by decide)]
  rfl

theorem dot_n_apply (l : FVec Ideal S100000x128 .f32) (r : FVec Ideal S128x128 .f32) (p : Fin 100000) (k : Fin 128) :
    Host.dotGeneral (F := Ideal) dot_S100000x128_S128x128_S100000x128_1_0_0_1_n_n none l r (ix2 p k)
      = ∑ c : Fin 128, l (ix2 p c) * r (ix2 c k) := by
  simp only [Host.dotGeneral]
  rw [Ideal.dotGeneral_apply, ← Equiv.sum_comp (contrEquiv1 dot_S100000x128_S128x128_S100000x128_1_0_0_1_n_n 128 rfl rfl).symm]
  refine Finset.sum_congr rfl fun c _ => ?_
  have hk := contrEquiv1_symm_val dot_S100000x128_S128x128_S100000x128_1_0_0_1_n_n 128 rfl rfl c
  have el : (dot_S100000x128_S128x128_S100000x128_1_0_0_1_n_n).lhsIdx (ix2 p k) ((contrEquiv1 dot_S100000x128_S128x128_S100000x128_1_0_0_1_n_n 128 rfl rfl).symm c) = ix2 p c :=
    funext fun a => Fin.ext (by
      match a with
      | ⟨0, _⟩ => exact lhs_n_0 _ _
      | ⟨1, _⟩ => exact (lhs_n_1 _ _).trans hk)
  have er : (dot_S100000x128_S128x128_S100000x128_1_0_0_1_n_n).rhsIdx (ix2 p k) ((contrEquiv1 dot_S100000x128_S128x128_S100000x128_1_0_0_1_n_n 128 rfl rfl).symm c) = ix2 c k :=
    funext fun a => Fin.ext (by
      match a with
      | ⟨0, _⟩ => exact (rhs_n_0 _ _).trans hk
      | ⟨1, _⟩ => exact rhs_n_1 _ _)
  rw [el, er]

/-! ## The message layers and the node update at an index -/

/-- The first message layer at (e, k): the 128-term contraction splits into the 64 terms that meet the source node's
    features and the 64 that meet the edge's. -/
theorem msg0_read (xs ef : FVec Ideal S1600000x64 .f32) (w : FVec Ideal S64x128 .f32) (b : FVec Ideal S64 .f32)
    (hc : Shape.Concatenates [S1600000x64, S1600000x64] S1600000x128 1) (ht : S64x128.Transposes [1, 0] S128x64)
    (hb1 : S64.BroadcastsInDim S1x64 (![1] : Fin 1 → Fin S1x64.rank))
    (hb2 : S1x64.BroadcastsInDim S1600000x64 (![0, 1] : Fin 2 → Fin S1600000x64.rank))
    (hz : S_.BroadcastsInDim S1600000x64 (![] : Fin 0 → Fin S1600000x64.rank)) (e : Fin 1600000) (k : Fin 64) :
    maximumf
        (addf
          (Host.dotGeneral (F := Ideal) dot_S1600000x128_S128x64_S1600000x64_1_0_0_1_n_n none
            (concatenate S1600000x128 1 [⟨S1600000x64, xs⟩, ⟨S1600000x64, ef⟩] hc) (transpose S128x64 [1, 0] w ht))
          (broadcastInDim S1600000x64 ![0, 1] hb2 (broadcastInDim S1x64 ![1] hb1 b)))
        (broadcastInDim S1600000x64 ![] hz (constant (F := Ideal) S_ .f32 0x00000000#32)) (ix2 e k)
      = Spec.msg0 xs ef (Spec.lo w) (Spec.hi w) (Spec.row b) e k := by
  rw [maximumf_apply, addf_apply, dot_e0_apply, bcast_rows64, bcast_row64, bcast_zero_apply]
  unfold Spec.msg0
  refine congrArg (fun t => max (t + Spec.row b (ix2 0 k)) 0) ?_
  refine (Fin.sum_univ_add (a := 64) (b := 64) fun c =>
    concatenate S1600000x128 1 [⟨S1600000x64, xs⟩, ⟨S1600000x64, ef⟩] hc (ix2 e c) * transpose S128x64 [1, 0] w ht (ix2 c k)).trans ?_
  congr 1 <;> refine Finset.sum_congr rfl fun l _ => ?_
  · rw [cat_castAdd, transpose_ix2_apply]; rfl
  · rw [cat_natAdd, transpose_ix2_apply]; rfl

/-- The second message layer at (e, j), over the first layer's array. -/
theorem msg1_read (y : FVec Ideal S1600000x64 .f32) (w : FVec Ideal S64x64 .f32) (b : FVec Ideal S64 .f32)
    (ht : S64x64.Transposes [1, 0] S64x64)
    (hb1 : S64.BroadcastsInDim S1x64 (![1] : Fin 1 → Fin S1x64.rank))
    (hb2 : S1x64.BroadcastsInDim S1600000x64 (![0, 1] : Fin 2 → Fin S1600000x64.rank))
    (hz : S_.BroadcastsInDim S1600000x64 (![] : Fin 0 → Fin S1600000x64.rank)) (e : Fin 1600000) (j : Fin 64) :
    maximumf
        (addf
          (Host.dotGeneral (F := Ideal) dot_S1600000x64_S64x64_S1600000x64_1_0_0_1_n_n none y (transpose S64x64 [1, 0] w ht))
          (broadcastInDim S1600000x64 ![0, 1] hb2 (broadcastInDim S1x64 ![1] hb1 b)))
        (broadcastInDim S1600000x64 ![] hz (constant (F := Ideal) S_ .f32 0x00000000#32)) (ix2 e j)
      = Spec.msg1 (fun e k => y (ix2 e k)) w (Spec.row b) e j := by
  rw [maximumf_apply, addf_apply, dot_e1_apply, bcast_rows64, bcast_row64, bcast_zero_apply]
  unfold Spec.msg1
  refine congrArg (fun t => max (t + Spec.row b (ix2 0 j)) 0) (Finset.sum_congr rfl fun k _ => ?_)
  rw [transpose_ix2_apply]

/-- The node update's hidden layer at (r, k). -/
theorem hid_read (x agg : FVec Ideal S100000x64 .f32) (u : FVec Ideal S128x128 .f32) (c : FVec Ideal S128 .f32)
    (hc : Shape.Concatenates [S100000x64, S100000x64] S100000x128 1) (ht : S128x128.Transposes [1, 0] S128x128)
    (hb1 : S128.BroadcastsInDim S1x128 (![1] : Fin 1 → Fin S1x128.rank))
    (hb2 : S1x128.BroadcastsInDim S100000x128 (![0, 1] : Fin 2 → Fin S100000x128.rank))
    (hz : S_.BroadcastsInDim S100000x128 (![] : Fin 0 → Fin S100000x128.rank)) (r : Fin 100000) (k : Fin 128) :
    maximumf
        (addf
          (Host.dotGeneral (F := Ideal) dot_S100000x128_S128x128_S100000x128_1_0_0_1_n_n none
            (concatenate S100000x128 1 [⟨S100000x64, x⟩, ⟨S100000x64, agg⟩] hc) (transpose S128x128 [1, 0] u ht))
          (broadcastInDim S100000x128 ![0, 1] hb2 (broadcastInDim S1x128 ![1] hb1 c)))
        (broadcastInDim S100000x128 ![] hz (constant (F := Ideal) S_ .f32 0x00000000#32)) (ix2 r k)
      = Spec.hid x agg u (Spec.row c) r k := by
  rw [maximumf_apply, addf_apply, dot_n_apply, bcast_rows128, bcast_row128, bcast_zero_apply]
  unfold Spec.hid
  refine congrArg (fun t => max (t + Spec.row c (ix2 0 k)) 0) (Finset.sum_congr rfl fun l _ => ?_)
  rw [cat_zcat, transpose_ix2_apply]

/-- The node update's output layer plus the skip connection at (r, j), over the hidden layer's array. -/
theorem out_read (x agg : FVec Ideal S100000x64 .f32) (h : FVec Ideal S100000x128 .f32) (u : FVec Ideal S128x128 .f32)
    (c : FVec Ideal S128 .f32)
    (hc : Shape.Concatenates [S100000x64, S100000x64] S100000x128 1) (ht : S128x128.Transposes [1, 0] S128x128)
    (hb1 : S128.BroadcastsInDim S1x128 (![1] : Fin 1 → Fin S1x128.rank))
    (hb2 : S1x128.BroadcastsInDim S100000x128 (![0, 1] : Fin 2 → Fin S100000x128.rank)) (r : Fin 100000) (j : Fin 128) :
    addf
        (addf
          (Host.dotGeneral (F := Ideal) dot_S100000x128_S128x128_S100000x128_1_0_0_1_n_n none h (transpose S128x128 [1, 0] u ht))
          (broadcastInDim S100000x128 ![0, 1] hb2 (broadcastInDim S1x128 ![1] hb1 c)))
        (concatenate S100000x128 1 [⟨S100000x64, x⟩, ⟨S100000x64, agg⟩] hc) (ix2 r j)
      = ((∑ k : Fin 128, h (ix2 r k) * u (ix2 j k)) + Spec.row c (ix2 0 j)) + Spec.zcat x agg r j := by
  rw [addf_apply, addf_apply, dot_n_apply, bcast_rows128, bcast_row128, cat_zcat]
  refine congrArg (fun t => (t + Spec.row c (ix2 0 j)) + Spec.zcat x agg r j) (Finset.sum_congr rfl fun k _ => ?_)
  rw [transpose_ix2_apply]

/-! ## The program's stages composed

The reference's values, stage by stage, are the formulas above applied to the arrays the stages before them leave. -/

open Cert.ReferenceIdeal.Hand Cert.ReferenceIdeal.Gen

/-- Where each edge's source row is gathered from: row 0 of the edge table, a negative entry moved up by the number of
    nodes, as an E × 1 index array. -/
def srcIdxR (a2 : IVec S2x1600000 32) : IVec S1600000x1 32 := st_v9 (midIdx a2)

/-- Where each edge's message is added: row 1 of the edge table, as an E × 1 index array. -/
def dstIdxR (a2 : IVec S2x1600000 32) : IVec S1600000x1 32 := st_v25 (midDst a2)

/-- The edge messages the reference computes are the specification's message array over the gathered source rows. -/
theorem midMsg_eq (a0 : FVec Ideal S100000x64 .f32) (a1 : FVec Ideal S1600000x64 .f32) (a2 : IVec S2x1600000 32)
    (a4 : FVec Ideal S64x128 .f32) (a5 : FVec Ideal S64 .f32) (a6 : FVec Ideal S64x64 .f32) (a7 : FVec Ideal S64 .f32) :
    midMsg (F := Ideal) a0 a1 a2 a4 a5 a6 a7
      = Spec.msgArr (Host.gather gather_S100000x64_S1600000x1_S1600000x64_1_0_n_n_0_1_164 a0 (srcIdxR a2)) a1
          (Spec.lo a4) (Spec.hi a4) (Spec.row a5) a6 (Spec.row a7) := by
  funext i
  obtain ⟨e, j, rfl⟩ : ∃ (e : Fin 1600000) (j : Fin 64), i = ix2 e j := ⟨i 0, i 1, eq_ix2 i⟩
  rw [Spec.msgArr_apply]
  unfold midMsg st_v23 st_v22 st_v19 st_v18 st_v21 st_v20
  rw [msg1_read]
  refine congrArg (fun y0 => Spec.msg1 y0 a6 (Spec.row a7) e j) (funext fun e' => funext fun k => ?_)
  unfold st_v17 st_v16 st_v13 st_v15 st_v14 st_v12 st_v11 st_v10 srcIdxR
  exact msg0_read _ a1 a4 a5 _ _ _ _ _ e' k

/-- The messages summed into their destination nodes, as the reference computes them. -/
def aggR (a0 : FVec Ideal S100000x64 .f32) (a1 : FVec Ideal S1600000x64 .f32) (a2 : IVec S2x1600000 32)
    (a4 : FVec Ideal S64x128 .f32) (a5 : FVec Ideal S64 .f32) (a6 : FVec Ideal S64x64 .f32) (a7 : FVec Ideal S64 .f32) :
    FVec Ideal S100000x64 .f32 :=
  st_v26 (F := Ideal) (dstIdxR a2) (midMsg a0 a1 a2 a4 a5 a6 a7)

/-- It is the accumulating scatter, from zero, of the specification's message array at the destination indices. -/
theorem aggR_eq (a0 : FVec Ideal S100000x64 .f32) (a1 : FVec Ideal S1600000x64 .f32) (a2 : IVec S2x1600000 32)
    (a4 : FVec Ideal S64x128 .f32) (a5 : FVec Ideal S64 .f32) (a6 : FVec Ideal S64x64 .f32) (a7 : FVec Ideal S64 .f32) :
    aggR a0 a1 a2 a4 a5 a6 a7
      = Host.scatterAdd (F := Ideal) scatter_S100000x64_S1600000x1_S1600000x64_1_0_0_1
          (broadcastInDim S100000x64 ![] bcast_S_S100000x64 (constant (F := Ideal) S_ .f32 0x00000000#32)) (dstIdxR a2)
          (Spec.msgArr (Host.gather gather_S100000x64_S1600000x1_S1600000x64_1_0_n_n_0_1_164 a0 (srcIdxR a2)) a1
            (Spec.lo a4) (Spec.hi a4) (Spec.row a5) a6 (Spec.row a7)) := by
  unfold aggR st_v26
  rw [midMsg_eq]

/-- The node update over a node array beside an aggregate is the specification's pre-normalisation array. -/
theorem midNode_eq (x agg : FVec Ideal S100000x64 .f32) (a8 : FVec Ideal S128x128 .f32) (a9 : FVec Ideal S128 .f32)
    (a10 : FVec Ideal S128x128 .f32) (a11 : FVec Ideal S128 .f32) :
    midNode (F := Ideal) (st_v27 x agg) a8 a9 a10 a11 = Spec.opreArr x agg a8 (Spec.row a9) a10 (Spec.row a11) := by
  funext i
  obtain ⟨r, j, rfl⟩ : ∃ (r : Fin 100000) (j : Fin 128), i = ix2 r j := ⟨i 0, i 1, eq_ix2 i⟩
  rw [Spec.opreArr_apply]
  unfold Spec.opre midNode st_v39 st_v38 st_v35 st_v37 st_v36 st_v34 st_v27
  rw [out_read]
  refine congrArg (fun t => (t + Spec.row a11 (ix2 0 j)) + Spec.zcat x agg r j) (Finset.sum_congr rfl fun k _ => ?_)
  unfold st_v33 st_v32 st_v29 st_v31 st_v30 st_v28
  rw [hid_read]

/-- The reference's array before the normalisation. -/
theorem midNode_midCat_eq (a0 : FVec Ideal S100000x64 .f32) (a1 : FVec Ideal S1600000x64 .f32) (a2 : IVec S2x1600000 32)
    (a4 : FVec Ideal S64x128 .f32) (a5 : FVec Ideal S64 .f32) (a6 : FVec Ideal S64x64 .f32) (a7 : FVec Ideal S64 .f32)
    (a8 : FVec Ideal S128x128 .f32) (a9 : FVec Ideal S128 .f32) (a10 : FVec Ideal S128x128 .f32) (a11 : FVec Ideal S128 .f32) :
    midNode (F := Ideal) (midCat a0 a1 a2 a4 a5 a6 a7) a8 a9 a10 a11
      = Spec.opreArr a0 (aggR a0 a1 a2 a4 a5 a6 a7) a8 (Spec.row a9) a10 (Spec.row a11) :=
  midNode_eq a0 (aggR a0 a1 a2 a4 a5 a6 a7) a8 a9 a10 a11

/-- The reference's result is the normalisation stage applied to the specification's pre-normalisation array. -/
theorem refOut_eq_midNorm (a0 : FVec Ideal S100000x64 .f32) (a1 : FVec Ideal S1600000x64 .f32) (a2 : IVec S2x1600000 32)
    (a3 : IVec S100000 32) (a4 : FVec Ideal S64x128 .f32) (a5 : FVec Ideal S64 .f32) (a6 : FVec Ideal S64x64 .f32)
    (a7 : FVec Ideal S64 .f32) (a8 : FVec Ideal S128x128 .f32) (a9 : FVec Ideal S128 .f32) (a10 : FVec Ideal S128x128 .f32)
    (a11 : FVec Ideal S128 .f32) (a12 a13 : FVec Ideal S128 .f32) :
    refOut (F := Ideal) a0 a1 a2 a3 a4 a5 a6 a7 a8 a9 a10 a11 a12 a13
      = midNorm (F := Ideal) (Spec.opreArr a0 (aggR a0 a1 a2 a4 a5 a6 a7) a8 (Spec.row a9) a10 (Spec.row a11)) a12 a13 := by
  unfold refOut
  rw [midNode_midCat_eq]

/-- So, given that the normalisation stage is the specification's normalisation by the column means and the mean
    squared deviations, the reference's result is the specification's. -/
theorem refOut_eq_of
    (hnorm : ∀ (o : FVec Ideal S100000x128 .f32) (g b : FVec Ideal S128 .f32),
      midNorm (F := Ideal) o g b = Spec.finalR o (Spec.row g) (Spec.row b))
    (a0 : FVec Ideal S100000x64 .f32) (a1 : FVec Ideal S1600000x64 .f32) (a2 : IVec S2x1600000 32)
    (a3 : IVec S100000 32) (a4 : FVec Ideal S64x128 .f32) (a5 : FVec Ideal S64 .f32) (a6 : FVec Ideal S64x64 .f32)
    (a7 : FVec Ideal S64 .f32) (a8 : FVec Ideal S128x128 .f32) (a9 : FVec Ideal S128 .f32) (a10 : FVec Ideal S128x128 .f32)
    (a11 : FVec Ideal S128 .f32) (a12 a13 : FVec Ideal S128 .f32) :
    refOut (F := Ideal) a0 a1 a2 a3 a4 a5 a6 a7 a8 a9 a10 a11 a12 a13
      = Spec.finalR (Spec.opreArr a0 (aggR a0 a1 a2 a4 a5 a6 a7) a8 (Spec.row a9) a10 (Spec.row a11)) (Spec.row a12) (Spec.row a13) := by
  rw [refOut_eq_midNorm, hnorm]

end Cert.ReferenceIdeal.Read

end
-- ==== Proof.Algebra.lean ====
/-
  The algebra that joins the two programs on the extended reals.
  Where every entry of the pre-normalisation array is a real number, the two ways of taking the biased variance agree,
  (1/N)·Σ o² − ((1/N)·Σ o)² = (1/N)·Σ (o − (1/N)·Σ o)², so the two normalisations are one function; and the arrays
  the layer builds from real inputs have real entries: finite sums of products of reals, maxima with 0, gathers and
  accumulating scatters of them.
-/
import proofs.«153742_j79508434583745_1_alg».proof.Proof.Spec
import Idealize.ShloMosaic.PureOps.Ideal.Laws

noncomputable section

open scoped BigOperators

namespace Cert.Spec

open Idealize.ShloMosaic Idealize.ShloMosaic.ValueIdx

/-! ## The constant N and the passage from ℝ to the extended reals -/

/-- The word 0x47C35000 has exponent field 143 and fraction 0x435000: (2^23 + 4411392) · 2^(143 − 127 − 23) = 100000. -/
theorem cN_eq : cN = ((100000 : ℝ) : EReal) := by
  simp [cN, Ideal.ofBits, Ideal.ieee, -EReal.coe_mul]; norm_num

/-- The inclusion of ℝ in the extended reals goes through finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- The sum of the squared deviations from μ: Σ (f − μ)² = Σ f² − 2μ·Σ f + N·μ², over N = 100000 terms. -/
theorem sum_sq_dev (f : Fin 100000 → ℝ) (μ : ℝ) :
    ∑ r, (f r - μ) * (f r - μ) = (∑ r, f r * f r) - 2 * μ * (∑ r, f r) + 100000 * (μ * μ) := by
  have h : ∀ r, (f r - μ) * (f r - μ) = f r * f r - 2 * μ * f r + μ * μ := fun r => by ring
  simp only [h]
  rw [Finset.sum_add_distrib, Finset.sum_sub_distrib, ← Finset.mul_sum, Finset.sum_const, Finset.card_univ,
    Fintype.card_fin, nsmul_eq_mul]
  norm_num

/-- The biased variance two ways, over ℝ: E[f²] − E[f]² = E[(f − E[f])²] with E = (1/N)·Σ. -/
theorem var_real (f : Fin 100000 → ℝ) :
    (∑ r, f r * f r) * (1 / 100000) - ((∑ r, f r) * (1 / 100000)) * ((∑ r, f r) * (1 / 100000))
      = (∑ r, (f r - (∑ r, f r) * (1 / 100000)) * (f r - (∑ r, f r) * (1 / 100000))) * (1 / 100000) := by
  rw [sum_sq_dev]; ring

/-- One column's variance, both ways, for a column of real numbers. -/
theorem var_col (o : SN128.Idx → EReal) (f : Fin 100000 → Fin 128 → ℝ) (hf : ∀ r j, o (ix2 r j) = (f r j : EReal)) (j : Fin 128) :
    Ideal.div (∑ r : Fin 100000, o (ix2 r j) * o (ix2 r j)) cN
        - Ideal.div (∑ r : Fin 100000, o (ix2 r j)) cN * Ideal.div (∑ r : Fin 100000, o (ix2 r j)) cN
      = Ideal.div (0 + ∑ r : Fin 100000, (o (ix2 r j) - Ideal.div (0 + ∑ r : Fin 100000, o (ix2 r j)) cN)
          * (o (ix2 r j) - Ideal.div (0 + ∑ r : Fin 100000, o (ix2 r j)) cN)) (cN - 0) := by
  have hne : (100000 : ℝ) ≠ 0 := by norm_num
  simp only [zero_add, sub_zero, hf, cN_eq, Ideal.div_coe hne]
  simp only [← coe_sum, ← EReal.coe_mul, ← EReal.coe_sub]
  rw [var_real]

/-- With every entry of o a real number, the variance by E[o²] − E[o]² is the variance by E[(o − E[o])²], and the
    means agree, so the two programs normalise alike. -/
theorem finalK_eq_finalR (o : SN128.Idx → EReal) (g b : T1x128.Idx → EReal) (ho : AllReal o) : finalK o g b = finalR o g b := by
  choose f hf using fun r j => ho (ix2 r j)
  -- the reference's sum starts from 0: the same mean
  have hmean : meanK (colSum o) = meanR o := by
    funext i
    show Ideal.div (∑ r : Fin 100000, o (ix2 r (i 1))) cN = Ideal.div (0 + ∑ r : Fin 100000, o (ix2 r (i 1))) cN
    rw [zero_add]
  -- the variances: column by column
  have hvar : varK (colSum o) (colSumSq o) = varR o 0 := by
    funext i
    exact var_col o f hf (i 1)
  unfold finalK finalR
  rw [hmean, hvar]

/-! ## Arrays of real numbers -/

theorem allReal_row {n : Nat} (a : (⟨1, ![n]⟩ : Shape).Idx → EReal) (h : AllReal a) : AllReal (row a) :=
  fun i => h (ix1 (i 1))
theorem allReal_lo (w : T64x128.Idx → EReal) (h : AllReal w) : AllReal (lo w) :=
  fun i => h (ix2 (i 0) (Fin.castAdd 64 (i 1)))
theorem allReal_hi (w : T64x128.Idx → EReal) (h : AllReal w) : AllReal (hi w) :=
  fun i => h (ix2 (i 0) (Fin.natAdd 64 (i 1)))

/-- A finite sum of real numbers is a real number. -/
theorem real_sum {ι : Type} (s : Finset ι) (f : ι → EReal) (h : ∀ k, ∃ r : ℝ, f k = r) : ∃ r : ℝ, ∑ k ∈ s, f k = r := by
  choose g hg using h
  exact ⟨∑ k ∈ s, g k, by rw [coe_sum]; exact Finset.sum_congr rfl (fun k _ => hg k)⟩

theorem real_mul {a b : EReal} (ha : ∃ r : ℝ, a = r) (hb : ∃ r : ℝ, b = r) : ∃ r : ℝ, a * b = r := by
  obtain ⟨x, rfl⟩ := ha; obtain ⟨y, rfl⟩ := hb; exact ⟨x * y, (EReal.coe_mul x y).symm⟩

theorem real_add {a b : EReal} (ha : ∃ r : ℝ, a = r) (hb : ∃ r : ℝ, b = r) : ∃ r : ℝ, a + b = r := by
  obtain ⟨x, rfl⟩ := ha; obtain ⟨y, rfl⟩ := hb; exact ⟨x + y, (EReal.coe_add x y).symm⟩

/-- The larger of a real number and 0 is one of the two. -/
theorem real_max0 {a : EReal} (ha : ∃ r : ℝ, a = r) : ∃ r : ℝ, max a 0 = r := by
  obtain ⟨x, rfl⟩ := ha
  rcases le_total (x : EReal) 0 with h | h
  · exact ⟨0, by rw [max_eq_right h, EReal.coe_zero]⟩
  · exact ⟨x, by rw [max_eq_left h]⟩

/-- The messages of real inputs are real. -/
theorem allReal_msgArr (xs ef : SE64.Idx → EReal) (wx we : T64x64.Idx → EReal) (b0 : T1x64.Idx → EReal) (w1 : T64x64.Idx → EReal) (b1 : T1x64.Idx → EReal)
    (hxs : AllReal xs) (hef : AllReal ef) (hwx : AllReal wx) (hwe : AllReal we) (hb0 : AllReal b0) (hw1 : AllReal w1) (hb1 : AllReal b1) :
    AllReal (msgArr xs ef wx we b0 w1 b1) := by
  intro i
  -- the first layer: a maximum with 0 of two 64-term sums of products and a bias
  have h0 : ∀ e k, ∃ r : ℝ, msg0 xs ef wx we b0 e k = r := by
    intro e k
    unfold msg0
    exact real_max0 (real_add (real_add (real_sum _ _ fun l => real_mul (hxs _) (hwx _))
      (real_sum _ _ fun l => real_mul (hef _) (hwe _))) (hb0 _))
  unfold msgArr msg1
  exact real_max0 (real_add (real_sum _ _ fun k => real_mul (h0 _ _) (hw1 _)) (hb1 _))

/-- A column of the concatenation is a column of one of its two parts. -/
theorem real_zcat (x agg : SN64.Idx → EReal) (hx : AllReal x) (hagg : AllReal agg) (r : Fin 100000) (l : Fin 128) :
    ∃ t : ℝ, zcat x agg r l = t := by
  unfold zcat
  split_ifs with h
  · exact hx _
  · exact hagg _

/-- The updated rows of real inputs are real. -/
theorem allReal_opreArr (x agg : SN64.Idx → EReal) (u0 : T128x128.Idx → EReal) (c0 : T1x128.Idx → EReal) (u1 : T128x128.Idx → EReal) (c1 : T1x128.Idx → EReal)
    (hx : AllReal x) (hagg : AllReal agg) (hu0 : AllReal u0) (hc0 : AllReal c0) (hu1 : AllReal u1) (hc1 : AllReal c1) :
    AllReal (opreArr x agg u0 c0 u1 c1) := by
  intro i
  have hz := real_zcat x agg hx hagg
  have hh : ∀ r k, ∃ t : ℝ, hid x agg u0 c0 r k = t := by
    intro r k
    unfold hid
    exact real_max0 (real_add (real_sum _ _ fun l => real_mul (hz _ _) (hu0 _)) (hc0 _))
  unfold opreArr opre
  exact real_add (real_add (real_sum _ _ fun k => real_mul (hh _ _) (hu1 _)) (hc1 _)) (hz _ _)

/-- An accumulating scatter of real updates into a real operand is real: each entry is the operand's plus a finite sum of updates. -/
theorem allReal_scatterAdd {s si su : Shape} (d : ScatterDims s si su) {w : Nat} (x : s.Idx → EReal) (idx : IVec si w) (upd : su.Idx → EReal)
    (hx : AllReal x) (hu : AllReal upd) : AllReal (Host.scatterAdd (F := Ideal) (φ := .f32) d x idx upd) := by
  intro i
  unfold Host.scatterAdd
  rw [Ideal.hostScatterAdd_def]
  unfold Ideal.hostScatterAdd
  exact real_add (hx i) (real_sum _ _ hu)

/-- A gather from a real operand is real: each entry is the operand's entry at the index the gather computes. -/
theorem allReal_gather {s si so : Shape} (d : GatherDims s si so) {w : Nat} (x : s.Idx → EReal) (idx : IVec si w)
    (hx : AllReal x) : AllReal (Host.gather d x idx) :=
  fun j => hx (d.operandIdx j idx)

end Cert.Spec

end
-- ==== Proof.RefReadNorm.lean ====
/- The reference's column statistics and normalisation, read entry by entry. -/
import proofs.«153742_j79508434583745_1_alg».proof.Proof.RefRun
import proofs.«153742_j79508434583745_1_alg».proof.Proof.Spec
import proofs.«153742_j79508434583745_1_alg».proof.Proof.Algebra
import Idealize.ShloMosaic.Lib.ValueIdx
import Idealize.ShloMosaic.Lib.IdealHost
import Idealize.ShloMosaic.Lib.Pipeline.Value
import Idealize.ShloMosaic.PureOps.Ideal.Laws

set_option maxRecDepth 16384

noncomputable section

namespace Cert.ReferenceIdeal.Read

open Idealize.ShloMosaic Idealize.ShloMosaic.ValueIdx
open Cert.ReferenceIdeal Cert.ReferenceIdeal.Gen Cert.ReferenceIdeal.Hand
open scoped BigOperators

namespace Norm

/-! ## The layout steps and the column sum at an index -/

/-- Dropping the row axis of a 100000 × 128 array leaves its 128 columns. -/
theorem dropRows : S100000x128.Reduces [0] S128 := by decide

/-- A column sum started from the constant zero: 0 + the sum of the column's 100000 entries. -/
theorem colsum_apply (x : FVec Ideal S100000x128 .f32) (j : Fin 128) :
    Host.reduceAdd x (constant (F := Ideal) S_ .f32 0x00000000#32) reducesTo_S100000x128_S128_d0 h_S_ (ix1 j)
      = 0 + ∑ r : Fin 100000, x (ix2 r j) := by
  rw [hostReduceAdd_apply, Ideal.hostReduceAdd_single reducesTo_S100000x128_S128_d0 dropRows, constant_apply,
    Ideal.ofBits_zero_f32]
  refine congrArg (fun s => (0 : EReal) + s) (Finset.sum_congr rfl fun r _ => congrArg x ?_)
  funext c
  apply Fin.ext
  match c with
  | ⟨0, _⟩ => rfl
  | ⟨1, _⟩ => rfl

/-- A length-128 vector made a 1 × 128 row reads, at column j, the vector's entry j. -/
theorem asRow_apply (x : FVec Ideal S128 .f32) (z : Fin 1) (j : Fin 128) :
    broadcastInDim S1x128 ![1] bcast_S128_S1x128_1 x (ix2 z j) = x (ix1 j) := by
  refine broadcastInDim_apply _ _ x (ix2 z j) (ix1 j) fun a => ?_
  match a with
  | ⟨0, _⟩ => rfl

/-- A 1 × 128 row repeated down 100000 rows reads, at row r and column j, the row's entry j. -/
theorem allRows_apply (x : FVec Ideal S1x128 .f32) (r : Fin 100000) (j : Fin 128) :
    broadcastInDim S100000x128 ![0, 1] bcast_S1x128_S100000x128_0_1 x (ix2 r j) = x (ix2 0 j) := by
  refine broadcastInDim_apply _ _ x (ix2 r j) (ix2 0 j) fun a => ?_
  match a with
  | ⟨0, _⟩ => rfl
  | ⟨1, _⟩ => rfl

/-! ## The divisor of the variance -/

/-- The row count less the correction 0, the correction read off the zero word as an integer. -/
theorem midDiv_apply (k : S_.Idx) : midDiv (F := Ideal) k = Cert.Spec.cN - 0 := by
  show Cert.Spec.cN - (((0#32 : BitVec 32).toInt : ℝ) : EReal) = Cert.Spec.cN - 0
  simp

/-- That divisor is positive, so the compare that guards the variance says yes. -/
theorem divPos_apply (k : S_.Idx) : st_call3_v12 (midDiv (F := Ideal)) k = 1#1 := by
  show Ideal.cmp .ogt (midDiv (F := Ideal) k) (Ideal.ofBits .f32 0x00000000#32) = 1#1
  rw [midDiv_apply, Ideal.ofBits_zero_f32, sub_zero, Cert.Spec.cN_eq]
  show BitVec.ofBool (decide ((0 : EReal) < ((100000 : ℝ) : EReal))) = 1#1
  rw [decide_eq_true (EReal.coe_pos.mpr (by norm_num))]
  rfl

/-! ## The mean, the variance -/

/-- The reference's column mean: the column sum from zero over the row count. -/
theorem mean_apply (o : FVec Ideal S100000x128 .f32) (j : Fin 128) :
    st_v42 (st_v40 o) (ix1 j) = Ideal.div (0 + ∑ r : Fin 100000, o (ix2 r j)) Cert.Spec.cN := by
  unfold st_v42 st_v40
  rw [hostDivf_apply, colsum_apply, broadcastInDim_scalar_apply, constant_apply]

/-- The same mean as the variance function takes it again, repeated down the rows. -/
theorem meanAgain_apply (o : FVec Ideal S100000x128 .f32) (r : Fin 100000) (j : Fin 128) :
    st_call3_v4 (st_call3_v3 (st_call3_v1 (st_call3_v0 o))) (ix2 r j)
      = Ideal.div (0 + ∑ r : Fin 100000, o (ix2 r j)) Cert.Spec.cN := by
  unfold st_call3_v4 st_call3_v3 st_call3_v1 st_call3_v0
  rw [allRows_apply, hostDivf_apply, asRow_apply, colsum_apply, broadcastInDim_scalar_apply, constant_apply]

/-- The reference's column variance: the sum from zero of the squared deviations from the mean, over the row count
    less the correction 0; the guard on the divisor's sign picks it. -/
theorem var_apply (o : FVec Ideal S100000x128 .f32) (j : Fin 128) :
    midVar o (ix1 j)
      = Ideal.div (0 + ∑ r : Fin 100000,
            (o (ix2 r j) - Ideal.div (0 + ∑ r : Fin 100000, o (ix2 r j)) Cert.Spec.cN)
              * (o (ix2 r j) - Ideal.div (0 + ∑ r : Fin 100000, o (ix2 r j)) Cert.Spec.cN))
          (Cert.Spec.cN - 0) := by
  unfold midVar st_v43
  rw [select_apply, broadcastInDim_scalar_apply, divPos_apply, select_one]
  unfold st_call3_v11 st_call3_v10 st_call3_v9
  rw [hostDivf_apply, colsum_apply, broadcastInDim_scalar_apply, midDiv_apply]
  refine congrArg (fun s => Ideal.div (0 + s) (Cert.Spec.cN - 0)) (Finset.sum_congr rfl fun r _ => ?_)
  unfold st_call3_v6 st_call3_v5
  rw [mulf_apply, subf_apply, meanAgain_apply]

/-- The reciprocal square root of a vector plus the constant ε, at entry j. -/
theorem rsqrtEps_apply (v : FVec Ideal S128 .f32) (j : Fin 128) :
    Host.rsqrt (addf v (broadcastInDim S128 ![] bcast_S_S128 (constant (F := Ideal) S_ .f32 0x3727C5AC#32))) (ix1 j)
      = Ideal.rsqrt (v (ix1 j) + Cert.Spec.cEps) := by
  show Ideal.rsqrt (addf v (broadcastInDim S128 ![] bcast_S_S128 (constant (F := Ideal) S_ .f32 0x3727C5AC#32)) (ix1 j)) = _
  rw [addf_apply, broadcastInDim_scalar_apply, constant_apply]

end Norm

/-- The reference's result is the normalisation of the array by its own column means and variances (the variance as the
    mean squared deviation), scaled by γ and shifted by β. -/
theorem midNorm_eq (o : FVec Ideal S100000x128 .f32) (a12 a13 : FVec Ideal S128 .f32) :
    Cert.ReferenceIdeal.Hand.midNorm (F := Ideal) o a12 a13
      = Cert.Spec.finalR o (Cert.Spec.row a12) (Cert.Spec.row a13) := by
  funext i
  obtain ⟨r, j, rfl⟩ : ∃ (r : Fin 100000) (j : Fin 128), i = ix2 r j := ⟨i 0, i 1, eq_ix2 i⟩
  unfold midNorm st_v58 st_v57 st_v56 st_v55 st_v54 st_v53 st_v52 st_v51 st_v50 st_v49 st_v48 st_v46 st_v45 st_v44
  rw [addf_apply, mulf_apply, mulf_apply, subf_apply,
    Norm.allRows_apply, Norm.allRows_apply, Norm.allRows_apply, Norm.allRows_apply,
    Norm.asRow_apply, Norm.asRow_apply, Norm.asRow_apply, Norm.asRow_apply,
    Norm.mean_apply, Norm.rsqrtEps_apply, Norm.var_apply]
  rfl

end Cert.ReferenceIdeal.Read

end
-- ==== Proof.PreFin.lean ====
/-
  From the precondition to "every float input entry is a real number", at the ideal instance, where a
  float is an extended real. The printed predicate is the conjunction, over the twelve float inputs, of
  "every entry's absolute value is below +infinity". An extended real whose absolute value max x (-x) is
  below the top element is neither the bottom nor the top element, so it is the image of a real number.
-/
import proofs.«153742_j79508434583745_1_alg».proof.Pre_finite_inputs
import proofs.«153742_j79508434583745_1_alg».proof.Defs
import Idealize.ShloMosaic.Lib.ReduceAll
import Idealize.ShloMosaic.Lib.ValueIdx
import Idealize.ShloMosaic.PureOps.Ideal

noncomputable section

namespace Cert.Proof.PreFin

open Idealize.ShloMosaic Idealize.SL.Sem

/-- an array all of whose entries are real numbers -/
def AllReal {s : Shape} (a : s.Idx → EReal) : Prop := ∀ i, ∃ r : ℝ, a i = (r : EReal)

/-- The rank-zero shape has exactly one index. -/
instance subsingleton_scalar_idx : Subsingleton Cert.Pre_finite_inputs.S_.Idx :=
  ⟨fun a b => funext fun d => d.elim0⟩

/-- The word 0x7F800000 read as a single-precision pattern denotes the top element. -/
theorem inf_word : Ideal.ofBits .f32 0x7F800000#32 = (⊤ : EReal) := by
  simp [Ideal.ofBits, Ideal.ieee]

/-- An extended real whose absolute value is strictly below +infinity is a real number. -/
theorem real_of_abs_lt (x : EReal)
    (h : FloatOps.cmpf (F := Ideal) (φ := .f32) .olt (FloatOps.hostAbsf (F := Ideal) (φ := .f32) x)
      (Ideal.ofBits .f32 0x7F800000#32) = 1#1) : ∃ r : ℝ, x = (r : EReal) := by
  have h' : BitVec.ofBool (decide (max x (-x) < (⊤ : EReal))) = 1#1 := by
    rw [← inf_word]; exact h
  induction x using EReal.rec with
  | bot => simp at h'
  | coe r => exact ⟨r, rfl⟩
  | top => simp at h'

/-- One conjunct of the predicate, read back: if the conjunction over all entries of "the absolute value is
    below the word 0x7F800000" is one, every entry of the array is a real number. -/
theorem allReal_of_all {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
        (cmpf .olt (Host.absf x)
          (broadcastInDim s ![] hb (constant (F := Ideal) Cert.Pre_finite_inputs.S_ .f32 0x7F800000#32)))
        init hr hu ValueIdx.ix0 = 1#1) :
    AllReal x := by
  intro i
  have hi := Host.reduce_andi_all _ init hr hu ValueIdx.ix0 e i
  exact real_of_abs_lt (x i) hi

section
open Cert.Pre_finite_inputs Cert.Pre_finite_inputs.Facts

/-- The printed predicate over fourteen arbitrary arrays: if it is all ones, each of the twelve float arrays
    has only real entries. The predicate is a left-nested conjunction of twelve "all entries finite" bits
    (the two integer arrays do not occur in it); a conjunction of bits is one exactly when both are. -/
theorem fin_of_fn [Cert.Pre_finite_inputs.Facts]
    (x0 : FVec Ideal S100000x64 .f32) (x1 : FVec Ideal S1600000x64 .f32) (x2 : IVec S2x1600000 32)
    (x3 : IVec S100000 32) (x4 : FVec Ideal S64x128 .f32) (x5 : FVec Ideal S64 .f32)
    (x6 : FVec Ideal S64x64 .f32) (x7 : FVec Ideal S64 .f32) (x8 : FVec Ideal S128x128 .f32)
    (x9 : FVec Ideal S128 .f32) (x10 : FVec Ideal S128x128 .f32) (x11 : FVec Ideal S128 .f32)
    (x12 : FVec Ideal S128 .f32) (x13 : FVec Ideal S128 .f32)
    (h : Cert.Pre_finite_inputs.fn (F := Ideal) x0 x1 x2 x3 x4 x5 x6 x7 x8 x9 x10 x11 x12 x13 = fun _ => 1#1) :
    AllReal x0 ∧ AllReal x1 ∧ AllReal x4 ∧ AllReal x5 ∧ AllReal x6 ∧ AllReal x7 ∧ AllReal x8 ∧ AllReal x9 ∧ AllReal x10 ∧ AllReal x11 ∧ AllReal x12 ∧ AllReal x13 := by
  have h0 := congrFun h ValueIdx.ix0
  dsimp only [fn, fn_part1, fn_part2, fn_part3, andi] at h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e1⟩ := IntOp.andi_eq_one.1 h0
  exact ⟨allReal_of_all x0 _ _ _ _ e0, allReal_of_all x1 _ _ _ _ e1, allReal_of_all x4 _ _ _ _ e4,
    allReal_of_all x5 _ _ _ _ e5, allReal_of_all x6 _ _ _ _ e6, allReal_of_all x7 _ _ _ _ e7,
    allReal_of_all x8 _ _ _ _ e8, allReal_of_all x9 _ _ _ _ e9, allReal_of_all x10 _ _ _ _ e10,
    allReal_of_all x11 _ _ _ _ e11, allReal_of_all x12 _ _ _ _ e12, allReal_of_all x13 _ _ _ _ e13⟩

end

/-- At a launch memory of the kernel's ideal program that satisfies the precondition, on every device each of
    the twelve float argument arrays has only real entries. -/
theorem fin_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    AllReal (s := Cert.KernelIdeal.S100000x64) (m ((c.tc : Thread Cert.KernelIdeal.nD Cert.KernelIdeal.τ).loc Cert.KernelIdeal.main_arg0))
      ∧ AllReal (s := Cert.KernelIdeal.S1600000x64) (m ((c.tc : Thread Cert.KernelIdeal.nD Cert.KernelIdeal.τ).loc Cert.KernelIdeal.main_arg1))
      ∧ AllReal (s := Cert.KernelIdeal.S64x128) (m ((c.tc : Thread Cert.KernelIdeal.nD Cert.KernelIdeal.τ).loc Cert.KernelIdeal.main_arg4))
      ∧ AllReal (s := Cert.KernelIdeal.S64) (m ((c.tc : Thread Cert.KernelIdeal.nD Cert.KernelIdeal.τ).loc Cert.KernelIdeal.main_arg5))
      ∧ AllReal (s := Cert.KernelIdeal.S64x64) (m ((c.tc : Thread Cert.KernelIdeal.nD Cert.KernelIdeal.τ).loc Cert.KernelIdeal.main_arg6))
      ∧ AllReal (s := Cert.KernelIdeal.S64) (m ((c.tc : Thread Cert.KernelIdeal.nD Cert.KernelIdeal.τ).loc Cert.KernelIdeal.main_arg7))
      ∧ AllReal (s := Cert.KernelIdeal.S128x128) (m ((c.tc : Thread Cert.KernelIdeal.nD Cert.KernelIdeal.τ).loc Cert.KernelIdeal.main_arg8))
      ∧ AllReal (s := Cert.KernelIdeal.S128) (m ((c.tc : Thread Cert.KernelIdeal.nD Cert.KernelIdeal.τ).loc Cert.KernelIdeal.main_arg9))
      ∧ AllReal (s := Cert.KernelIdeal.S128x128) (m ((c.tc : Thread Cert.KernelIdeal.nD Cert.KernelIdeal.τ).loc Cert.KernelIdeal.main_arg10))
      ∧ AllReal (s := Cert.KernelIdeal.S128) (m ((c.tc : Thread Cert.KernelIdeal.nD Cert.KernelIdeal.τ).loc Cert.KernelIdeal.main_arg11))
      ∧ AllReal (s := Cert.KernelIdeal.S128) (m ((c.tc : Thread Cert.KernelIdeal.nD Cert.KernelIdeal.τ).loc Cert.KernelIdeal.main_arg12))
      ∧ AllReal (s := Cert.KernelIdeal.S128) (m ((c.tc : Thread Cert.KernelIdeal.nD Cert.KernelIdeal.τ).loc Cert.KernelIdeal.main_arg13)) :=
  fin_of_fn _ _ _ _ _ _ _ _ _ _ _ _ _ _ (h c)

end Cert.Proof.PreFin
-- ==== Proof.XBridge.lean ====
/-
  The two programs compute one function. The kernel program's result is the normalisation, with the variance taken as
  E[o²] − E[o]², of the pre-normalisation rows o; the reference's is the normalisation, with the variance taken as
  E[(o − E[o])²], of the same rows: the same gather, the same two-layer messages (a 128-term contraction split as
  64 + 64), the same accumulating scatter, the same update. Under the precondition every float input is real, hence so
  is every entry of o, and there the two variances agree.
-/
import proofs.«153742_j79508434583745_1_alg».proof.Proof.KIBridge
import proofs.«153742_j79508434583745_1_alg».proof.Proof.RefRead
import proofs.«153742_j79508434583745_1_alg».proof.Proof.RefReadNorm
import proofs.«153742_j79508434583745_1_alg».proof.Proof.Algebra
import proofs.«153742_j79508434583745_1_alg».proof.Proof.PreFin
import proofs.«153742_j79508434583745_1_alg».proof.Proof.Gen.Pre_finite_inputs

set_option maxRecDepth 16384

noncomputable section

namespace Cert.Proof.Bridge

open Idealize.ShloMosaic Idealize.ShloMosaic.TcCoe Idealize.ShloMosaic.ValueIdx
open Idealize.SL Idealize.SL.Sem
open Cert.KernelIdeal Cert.KernelIdeal.Gen Cert.KernelIdeal.Hand
open Cert.Spec (row lo hi msgArr opreArr finalK finalR AllReal)

variable (m : (ℓ : Loc nD τ sig) → Buf (Elt Ideal) ℓ)

/-- The messages summed into their target nodes are the same array in the two programs: the same operations on the
    same launch arrays. -/
theorem agg_eq (c : Dev nD) :
    aggK m c = Cert.ReferenceIdeal.Read.aggR (A m c main_arg0) (A m c main_arg1) (A m c main_arg2) (A m c main_arg4) (A m c main_arg5) (A m c main_arg6) (A m c main_arg7) := by
  rw [Cert.ReferenceIdeal.Read.aggR_eq]
  rfl

/-- Under the precondition the pre-normalisation rows are real numbers. -/
theorem opreK_real (hpre : Cert.Pre_KernelIdeal m) (c : Dev nD) : AllReal (opreK m c) := by
  obtain ⟨h0, h1, h4, h5, h6, h7, h8, h9, h10, h11, h12, h13⟩ := Cert.Proof.PreFin.fin_of_pre m hpre c
  have hmsg : AllReal (msgK m c) :=
    Cert.Spec.allReal_msgArr _ _ _ _ _ _ _ (Cert.Spec.allReal_gather _ _ _ h0) h1 (Cert.Spec.allReal_lo _ h4) (Cert.Spec.allReal_hi _ h4)
      (Cert.Spec.allReal_row _ h5) h6 (Cert.Spec.allReal_row _ h7)
  have hz : AllReal (zeros64 : Cert.Spec.SN64.Idx → EReal) := fun i => ⟨0, by
    show Ideal.ofBits .f32 0x00000000#32 = _
    rw [Ideal.ofBits_zero_f32]; rfl⟩
  have hagg : AllReal (aggK m c) := Cert.Spec.allReal_scatterAdd _ _ _ _ hz hmsg
  exact Cert.Spec.allReal_opreArr _ _ _ _ _ _ h0 hagg h8 (Cert.Spec.allReal_row _ h9) h10 (Cert.Spec.allReal_row _ h11)

/-- The kernel program's result array is the reference's result on the same launch arrays. -/
theorem result_eq (hpre : Cert.Pre_KernelIdeal m) (c : Dev nD) :
    o6 m c = Cert.ReferenceIdeal.Hand.refOut (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) := by
  rw [o6_eq, Cert.ReferenceIdeal.Read.refOut_eq_of Cert.ReferenceIdeal.Read.midNorm_eq, ← agg_eq m c]
  exact Cert.Spec.finalK_eq_finalR _ _ _ (opreK_real m hpre c)

end Cert.Proof.Bridge

end
-- ==== Proof.lean ====
/-
  A message-passing graph layer with batch normalisation: the Pallas program against its jnp reference.

  Both programs gather each edge's source-node features, run a two-layer message network per edge (the Pallas program
  splits the first layer's 128-term contraction into the node half and the edge half and never forms the concatenation),
  sum the messages into their target nodes, update every node by a two-layer network with a residual, and normalise each
  of the 128 output columns by its batch mean and biased variance. The Pallas program does this in three pipelined
  regions (messages per block of 6400 edges; update per block of 5000 nodes with running column sums Σ o and Σ o² kept
  across the grid; normalisation per block) and takes the variance as E[o²] − E[o]²; the reference takes it as
  E[(o − E[o])²]. On the extended reals the two agree where every o is a real number, which the precondition (every
  float input finite) gives; everything else is a re-association of finite sums.

  The frames: each program runs to the end without fault and leaves its arguments unchanged — for the Pallas program at
  both float instances from one run of its three regions written generically in the instance, for the reference from
  its run as a list of host operations.
-/
import proofs.«153742_j79508434583745_1_alg».proof.Defs
import proofs.«153742_j79508434583745_1_alg».proof.Proof.Gen.Kernel
import proofs.«153742_j79508434583745_1_alg».proof.Proof.Gen.KernelIdeal
import proofs.«153742_j79508434583745_1_alg».proof.Proof.Gen.ReferenceIdeal
import proofs.«153742_j79508434583745_1_alg».proof.Proof.Gen.Pre_finite_inputs
import proofs.«153742_j79508434583745_1_alg».proof.Proof.KRun
import proofs.«153742_j79508434583745_1_alg».proof.Proof.KIRun
import proofs.«153742_j79508434583745_1_alg».proof.Proof.RefRun
import proofs.«153742_j79508434583745_1_alg».proof.Proof.XBridge
import Idealize.ShloMosaic.Adequacy
import Idealize.ShloMosaic.Init

noncomputable section

namespace Cert.Proof

open Idealize.ShloMosaic Idealize.SL.Sem

/-- The word-level program's frame: its run, read at the bit-exact instance. -/
theorem frame_k : Cert.frame_Kernel := fun m ρ _ => Cert.Kernel.Hand.frame m ρ

/-- The idealized program's frame: the same run at the exact instance. -/
theorem frame_ki : Cert.frame_KernelIdeal := fun m ρ _ => Cert.KernelIdeal.Hand.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Hand.run m ρ)

/-- The ideal pass rewrote nothing: the idealization is the program's own text. -/
theorem preserves : Cert.preserves_Kernel_KernelIdeal := trivial

/-- Both programs end, with equal results: the kernel program's at what its last region leaves, which is the
    reference's composed term of the same arguments. -/
theorem algebraic : Cert.algebraic_KernelIdeal_ReferenceIdeal := by
  intro m ρ m' ρ' hpre hagree
  refine ⟨fun c => Cert.KernelIdeal.Hand.o6 m c, Cert.KernelIdeal.Hand.run_all m ρ, ?_⟩
  refine (θ_run Cert.ReferenceIdeal.defs _ _).mono (fun _ h c => ⟨(h c).1.trans ?_, (h c).2⟩)
    (Cert.ReferenceIdeal.Hand.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2]
  exact (Cert.Proof.Bridge.result_eq m hpre c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
